-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x16 : Shape := ⟨2, ![50000, 16]⟩
abbrev S2x800000 : Shape := ⟨2, ![2, 800000]⟩
abbrev S800000x16 : Shape := ⟨2, ![800000, 16]⟩
abbrev S256x304 : Shape := ⟨2, ![256, 304]⟩
abbrev S8x256 : Shape := ⟨2, ![8, 256]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S800000x16 : S_.BroadcastsInDim S800000x16 (![] : Fin 0 → Fin S800000x16.rank)
  reducesTo_S800000x16_S_d0_1 : S800000x16.ReducesTo [0, 1] S_
  bcast_S_S256x304 : S_.BroadcastsInDim S256x304 (![] : Fin 0 → Fin S256x304.rank)
  reducesTo_S256x304_S_d0_1 : S256x304.ReducesTo [0, 1] S_
  bcast_S_S8x256 : S_.BroadcastsInDim S8x256 (![] : Fin 0 → Fin S8x256.rank)
  reducesTo_S8x256_S_d0_1 : S8x256.ReducesTo [0, 1] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_v28 : IVec S_ 1) (main_v33 : IVec S2x800000 1) : IVec S_ 1 :=
  let main_c_12 : IVec S_ 1 := constantI S_ 1 1#1
  let main_v34 : IVec S_ 1 := (fun x v => Host.reduce IntOp.andi x v reducesTo_S2x800000_S_d0_1 h_S_) main_v33 main_c_12
  let main_v35 : IVec S_ 1 := andi main_v28 main_v34
  main_v35

def fn_part1 {F : FTy → Type} [FloatOps F] (main_arg2 : IVec S2x800000 32) (main_arg5 : FVec F S8x256 .f32) (main_arg6 : FVec F S128x128 .f32) (main_v13 : IVec S_ 1) (main_v16 : IVec S256x304 1) : IVec S_ 1 :=
  let main_c_5 : IVec S_ 1 := constantI S_ 1 1#1
  let main_v17 : IVec S_ 1 := (fun x v => Host.reduce IntOp.andi x v reducesTo_S256x304_S_d0_1 h_S_) main_v16 main_c_5
  let main_v18 : IVec S_ 1 := andi main_v13 main_v17
  let main_v19 : FVec F S8x256 .f32 := Host.absf main_arg5
  let main_cst_6 : FVec F S_ .f32 := constant S_ .f32 0x7F800000#32
  let main_v20 : FVec F S8x256 .f32 := broadcastInDim S8x256 ![] bcast_S_S8x256 main_cst_6
  let main_v21 : IVec S8x256 1 := cmpf .olt main_v19 main_v20
  let main_c_7 : IVec S_ 1 := constantI S_ 1 1#1
  let main_v22 : IVec S_ 1 := (fun x v => Host.reduce IntOp.andi x v reducesTo_S8x256_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_c_10 : IVec S_ 32 := constantI S_ 32 4294917296#32
  let main_v29 : IVec S2x800000 32 := broadcastInDim S2x800000 ![] bcast_S_S2x800000 main_c_10
  let main_v30 : IVec S2x800000 1 := cmpi .sge main_arg2 main_v29
  let main_c_11 : IVec S_ 32 := constantI S_ 32 50000#32
  let main_v31 : IVec S2x800000 32 := broadcastInDim S2x800000 ![] bcast_S_S2x800000 main_c_11
  let main_v32 : IVec S2x800000 1 := cmpi .slt main_arg2 main_v31
  let main_v33 : IVec S2x800000 1 := andi main_v30 main_v32
  fn_part2 (F := F) main_v28 main_v33

def fn {F : FTy → Type} [FloatOps F] (main_arg0 : FVec F S50000x128 .f32) (main_arg1 : FVec F S50000x16 .f32) (main_arg2 : IVec S2x800000 32) (main_arg3 : FVec F S800000x16 .f32) (main_arg4 : FVec F S256x304 .f32) (main_arg5 : FVec F S8x256 .f32) (main_arg6 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S800000x16 .f32 := Host.absf main_arg3
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S256x304 .f32 := Host.absf main_arg4
  let main_cst_4 : FVec F S_ .f32 := constant S_ .f32 0x7F800000#32
  let main_v15 : FVec F S256x304 .f32 := broadcastInDim S256x304 ![] bcast_S_S256x304 main_cst_4
  let main_v16 : IVec S256x304 1 := cmpf .olt main_v14 main_v15
  fn_part1 (F := F) main_arg2 main_arg5 main_arg6 main_v13 main_v16
-- ==== Kernel.lean ====
abbrev S50000x128 : Shape := ⟨2, ![50000, 128]⟩
abbrev S50000x16 : Shape := ⟨2, ![50000, 16]⟩
abbrev S2x800000 : Shape := ⟨2, ![2, 800000]⟩
abbrev S800000x16 : Shape := ⟨2, ![800000, 16]⟩
abbrev S256x304 : Shape := ⟨2, ![256, 304]⟩
abbrev S8x256 : Shape := ⟨2, ![8, 256]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S304x256 : Shape := ⟨2, ![304, 256]⟩
abbrev S128x256 : Shape := ⟨2, ![128, 256]⟩
abbrev S16x256 : Shape := ⟨2, ![16, 256]⟩
abbrev S256x8 : Shape := ⟨2, ![256, 8]⟩
abbrev S8x8 : Shape := ⟨2, ![8, 8]⟩
abbrev S8x8x16 : Shape := ⟨3, ![8, 8, 16]⟩
abbrev S8x128 : Shape := ⟨2, ![8, 128]⟩
abbrev S800000x8 : Shape := ⟨2, ![800000, 8]⟩
abbrev S2000x128 : Shape := ⟨2, ![2000, 128]⟩
abbrev S2000x16 : Shape := ⟨2, ![2000, 16]⟩
abbrev S2000x8 : Shape := ⟨2, ![2000, 8]⟩
abbrev S2000x256 : Shape := ⟨2, ![2000, 256]⟩

abbrev nBuf : Space → Nat
  | .hbm => 127
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S50000x16, .f32⟩
  | .hbm, ⟨2, _⟩ => ⟨S2x800000, .i32⟩
  | .hbm, ⟨3, _⟩ => ⟨S800000x16, .f32⟩
  | .hbm, ⟨4, _⟩ => ⟨S256x304, .f32⟩
  | .hbm, ⟨5, _⟩ => ⟨S8x256, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x128, .f32⟩
  | .hbm, ⟨30, _⟩ => ⟨S800000x128, .i1⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S1, .i32⟩
  | .hbm, ⟨43, _⟩ => ⟨S_, .i32⟩
  | .hbm, ⟨44, _⟩ => ⟨S800000x1, .i32⟩
  | .hbm, ⟨45, _⟩ => ⟨S800000x1, .i1⟩
  | .hbm, ⟨46, _⟩ => ⟨S1x1, .i32⟩
  | .hbm, ⟨47, _⟩ => ⟨S800000x1, .i32⟩
  | .hbm, ⟨48, _⟩ => ⟨S800000x1, .i1⟩
  | .hbm, ⟨49, _⟩ => ⟨S800000x1, .i1⟩
  | .hbm, ⟨50, _⟩ => ⟨S_, .i1⟩
  | .hbm, ⟨51, _⟩ => ⟨S800000, .i1⟩
  | .hbm, ⟨52, _⟩ => ⟨S800000x128, .f32⟩
  | .hbm, ⟨53, _⟩ => ⟨S800000x128, .i1⟩
  | .hbm, ⟨54, _⟩ => ⟨S_, .f32⟩
  | .hbm, ⟨55, _⟩ => ⟨S800000x128, .f32⟩
  | .hbm, ⟨56, _⟩ => ⟨S800000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S1, .i32⟩
  | .hbm, ⟨66, _⟩ => ⟨S_, .i32⟩
  | .hbm, ⟨67, _⟩ => ⟨S800000x1, .i32⟩
  | .hbm, ⟨68, _⟩ => ⟨S800000x1, .i1⟩
  | .hbm, ⟨69, _⟩ => ⟨S1x1, .i32⟩
  | .hbm, ⟨70, _⟩ => ⟨S800000x1, .i32⟩
  | .hbm, ⟨71, _⟩ => ⟨S800000x1, .i1⟩
  | .hbm, ⟨72, _⟩ => ⟨S800000x1, .i1⟩
  | .hbm, ⟨73, _⟩ => ⟨S_, .i1⟩
  | .hbm, ⟨74, _⟩ => ⟨S800000, .i1⟩
  | .hbm, ⟨75, _⟩ => ⟨S800000x16, .f32⟩
  | .hbm, ⟨76, _⟩ => ⟨S800000x16, .i1⟩
  | .hbm, ⟨77, _⟩ => ⟨S_, .f32⟩
  | .hbm, ⟨78, _⟩ => ⟨S800000x16, .f32⟩
  | .hbm, ⟨79, _⟩ => ⟨S800000x16, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S1, .i32⟩
  | .hbm, ⟨89, _⟩ => ⟨S_, .i32⟩
  | .hbm, ⟨90, _⟩ => ⟨S800000x1, .i32⟩
  | .hbm, ⟨91, _⟩ => ⟨S800000x1, .i1⟩
  | .hbm, ⟨92, _⟩ => ⟨S1x1, .i32⟩
  | .hbm, ⟨93, _⟩ => ⟨S800000x1, .i32⟩
  | .hbm, ⟨94, _⟩ => ⟨S800000x1, .i1⟩
  | .hbm, ⟨95, _⟩ => ⟨S800000x1, .i1⟩
  | .hbm, ⟨96, _⟩ => ⟨S_, .i1⟩
  | .hbm, ⟨97, _⟩ => ⟨S800000, .i1⟩
  | .hbm, ⟨98, _⟩ => ⟨S800000x16, .f32⟩
  | .hbm, ⟨99, _⟩ => ⟨S800000x16, .i1⟩
  | .hbm, ⟨100, _⟩ => ⟨S_, .f32⟩
  | .hbm, ⟨101, _⟩ => ⟨S800000x16, .f32⟩
  | .hbm, ⟨102, _⟩ => ⟨S800000x16, .f32⟩
  | .hbm, ⟨103, _⟩ => ⟨S304x256, .f32⟩
  | .hbm, ⟨104, _⟩ => ⟨S128x256, .f32⟩
  | .hbm, ⟨105, _⟩ => ⟨S128x256, .f32⟩
  | .hbm, ⟨106, _⟩ => ⟨S16x256, .f32⟩
  | .hbm, ⟨107, _⟩ => ⟨S16x256, .f32⟩
  | .hbm, ⟨108, _⟩ => ⟨S16x256, .f32⟩
  | .hbm, ⟨109, _⟩ => ⟨S256x8, .f32⟩
  | .hbm, ⟨110, _⟩ => ⟨S8x8, .i32⟩
  | .hbm, ⟨111, _⟩ => ⟨S8x8, .i32⟩
  | .hbm, ⟨112, _⟩ => ⟨S_, .i32⟩
  | .hbm, ⟨113, _⟩ => ⟨S8x8, .i32⟩
  | .hbm, ⟨114, _⟩ => ⟨S8x8, .i32⟩
  | .hbm, ⟨115, _⟩ => ⟨S8x8, .i1⟩
  | .hbm, ⟨116, _⟩ => ⟨S8x8, .f32⟩
  | .hbm, ⟨117, _⟩ => ⟨S8x8x16, .f32⟩
  | .hbm, ⟨118, _⟩ => ⟨S8x128, .f32⟩
  | .hbm, ⟨119, _⟩ => ⟨S800000x8, .f32⟩
  | .hbm, ⟨120, _⟩ => ⟨S800000x128, .f32⟩
  | .hbm, ⟨121, _⟩ => ⟨S_, .f32⟩
  | .hbm, ⟨122, _⟩ => ⟨S50000x128, .f32⟩
  | .hbm, ⟨123, _⟩ => ⟨S800000x1, .i32⟩
  | .hbm, ⟨124, _⟩ => ⟨S50000x128, .f32⟩
  | .hbm, ⟨125, _⟩ => ⟨S128x128, .f32⟩
  | .hbm, ⟨126, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x16, .f32⟩
  | .local _ .vmem, ⟨10, _⟩ => ⟨S128x256, .f32⟩
  | .local _ .vmem, ⟨11, _⟩ => ⟨S128x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S256x8, .f32⟩
  | .local _ .vmem, ⟨16, _⟩ => ⟨S8x128, .f32⟩
  | .local _ .vmem, ⟨17, _⟩ => ⟨S2000x8, .f32⟩
  | .local _ .vmem, ⟨18, _⟩ => ⟨S2000x8, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_call2_c : Ref sig .tc := ⟨.hbm, 57, rfl⟩
abbrev main_call2_v0 : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_v5 : Ref sig .tc := ⟨.hbm, 64, rfl⟩
abbrev main_call2_c_1 : Ref sig .tc := ⟨.hbm, 65, rfl⟩
abbrev main_call2_c_2 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_3 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_call2_cst : Ref sig .tc := ⟨.hbm, 77, rfl⟩
abbrev main_call2_v15 : Ref sig .tc := ⟨.hbm, 78, rfl⟩
abbrev main_v6 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_c : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23_0 : Ref sig .tc := ⟨.hbm, 119, rfl⟩
abbrev main_v23_1 : Ref sig .tc := ⟨.hbm, 120, rfl⟩
abbrev main_cst : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg2_0 : Ref sig .tc := ⟨.vmem, 24, rfl⟩
abbrev cc1_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem2_1 : DmaSem sig := 25

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000_S800000x16_0 : S800000.BroadcastsInDim S800000x16 (![0] : Fin 1 → Fin S800000x16.rank)
  bcast_S_S800000x16 : S_.BroadcastsInDim S800000x16 (![] : Fin 0 → Fin S800000x16.rank)
  transposes_S256x304_S304x256_1_0 : S256x304.Transposes [1, 0] S304x256
  slices_S304x256_S128x256_0_0 : S304x256.Slices ![0, 0] S128x256
  slices_S304x256_S128x256_128_0 : S304x256.Slices ![128, 0] S128x256
  slices_S304x256_S16x256_256_0 : S304x256.Slices ![256, 0] S16x256
  slices_S304x256_S16x256_272_0 : S304x256.Slices ![272, 0] S16x256
  slices_S304x256_S16x256_288_0 : S304x256.Slices ![288, 0] S16x256
  transposes_S8x256_S256x8_1_0 : S8x256.Transposes [1, 0] S256x8
  bcast_S_S8x8 : S_.BroadcastsInDim S8x8 (![] : Fin 0 → Fin S8x8.rank)
  bcast_S8x8_S8x8x16_0_1 : S8x8.BroadcastsInDim S8x8x16 (![0, 1] : Fin 2 → Fin S8x8x16.rank)
  shapeCasts_S8x8x16_S8x128 : S8x8x16.ShapeCasts S8x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S2000x8_S2000x8_0_0 : ∀ a, (![0, 0] : Fin 2 → Nat) a + S2000x8.size a ≤ S2000x8.size a
  h_S2000x8 : 0 < S2000x8.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  bcast_S_S50000x128 : S_.BroadcastsInDim S50000x128 (![] : Fin 0 → Fin S50000x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S50000x128_S800000x1_S800000x128_1_0_n_n_0_1_1128_wf : GatherDims.WF S50000x128 S800000x1 S800000x128 [1] [0] [] [0] [] 1 ![1, 128]
  gather_S50000x16_S800000x1_S800000x16_1_0_n_n_0_1_116_wf : GatherDims.WF S50000x16 S800000x1 S800000x16 [1] [0] [] [0] [] 1 ![1, 16]
  dot_S2000x128_S128x256_S2000x256_1_0_0_1_n_n_wf : DotDims.WF S2000x128 S128x256 S2000x256 [1] [0] [0] [1] [] []
  dot_S2000x16_S16x256_S2000x256_1_0_0_1_n_n_wf : DotDims.WF S2000x16 S16x256 S2000x256 [1] [0] [0] [1] [] []
  dot_S2000x256_S256x8_S2000x8_1_0_0_1_n_n_wf : DotDims.WF S2000x256 S256x8 S2000x8 [1] [0] [0] [1] [] []
  dot_S2000x8_S8x128_S2000x128_1_0_0_1_n_n_wf : DotDims.WF S2000x8 S8x128 S2000x128 [1] [0] [0] [1] [] []
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S800000x128.size a
  hwx0_0 : ∀ i : grid0.Coords, EltTy.bits .f32 = 32 ∨ (Rect.block (s := S800000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S800000x128.size a
  hwx0_1 : ∀ i : grid0.Coords, EltTy.bits .f32 = 32 ∨ (Rect.block (s := S800000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S800000x16.size a
  hwx0_2 : ∀ i : grid0.Coords, EltTy.bits .f32 = 32 ∨ (Rect.block (s := S800000x16) S2000x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S800000x16.size a
  hwx0_3 : ∀ i : grid0.Coords, EltTy.bits .f32 = 32 ∨ (Rect.block (s := S800000x16) S2000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x16.size a ≤ S800000x16.size a
  hwx0_4 : ∀ i : grid0.Coords, EltTy.bits .f32 = 32 ∨ (Rect.block (s := S800000x16) S2000x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .f32 = 32 ∨ (Rect.block (s := S16x256) S16x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x256.size a ≤ S16x256.size a
  hwx0_8 : ∀ i : grid0.Coords, EltTy.bits .f32 = 32 ∨ (Rect.block (s := S16x256) S16x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x256.size a ≤ S16x256.size a
  hwx0_9 : ∀ i : grid0.Coords, EltTy.bits .f32 = 32 ∨ (Rect.block (s := S16x256) S16x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x8.size a ≤ S256x8.size a
  hwx0_10 : ∀ i : grid0.Coords, EltTy.bits .f32 = 32 ∨ (Rect.block (s := S256x8) S256x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S8x128.size a
  hwx0_11 : ∀ i : grid0.Coords, EltTy.bits .f32 = 32 ∨ (Rect.block (s := S8x128) S8x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x8.size a ≤ S800000x8.size a
  hwx0_12 : ∀ i : grid0.Coords, EltTy.bits .f32 = 32 ∨ (Rect.block (s := S800000x8) S2000x8.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S800000x128.size a
  hwx0_13 : ∀ i : grid0.Coords, EltTy.bits .f32 = 32 ∨ (Rect.block (s := S800000x128) S2000x128.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x16_S16x256_S2000x256_1_0_0_1_n_n : DotDims S2000x16 S16x256 S2000x256 where
  lhsContracting := [1]
  rhsContracting := [0]
  lhsNonContracting := [0]
  rhsNonContracting := [1]
  lhsBatch := []
  rhsBatch := []
  wf := dot_S2000x16_S16x256_S2000x256_1_0_0_1_n_n_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf
def dot_S2000x8_S8x128_S2000x128_1_0_0_1_n_n : DotDims S2000x8 S8x128 S2000x128 where
  lhsContracting := [1]
  rhsContracting := [0]
  lhsNonContracting := [0]
  rhsNonContracting := [1]
  lhsBatch := []
  rhsBatch := []
  wf := dot_S2000x8_S8x128_S2000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2000x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S16x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S16x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S256x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S8x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23_0) S2000x8.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v23_1) S2000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x16 : Shape := ⟨2, ![50000, 16]⟩
abbrev S2x800000 : Shape := ⟨2, ![2, 800000]⟩
abbrev S800000x16 : Shape := ⟨2, ![800000, 16]⟩
abbrev S256x304 : Shape := ⟨2, ![256, 304]⟩
abbrev S8x256 : Shape := ⟨2, ![8, 256]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x304 : Shape := ⟨2, ![800000, 304]⟩
abbrev S304x256 : Shape := ⟨2, ![304, 256]⟩
abbrev S800000x256 : Shape := ⟨2, ![800000, 256]⟩
abbrev S256x8 : Shape := ⟨2, ![256, 8]⟩
abbrev S800000x8 : Shape := ⟨2, ![800000, 8]⟩
abbrev S50000x8x16 : Shape := ⟨3, ![50000, 8, 16]⟩
abbrev S800000x8x16 : Shape := ⟨3, ![800000, 8, 16]⟩
abbrev S800000x8x1 : Shape := ⟨3, ![800000, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x16, .f32⟩
  | .hbm, ⟨2, _⟩ => ⟨S2x800000, .i32⟩
  | .hbm, ⟨3, _⟩ => ⟨S800000x16, .f32⟩
  | .hbm, ⟨4, _⟩ => ⟨S256x304, .f32⟩
  | .hbm, ⟨5, _⟩ => ⟨S8x256, .f32⟩
  | .hbm, ⟨6, _⟩ => ⟨S128x128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x16, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x16, .f32⟩
  | .hbm, ⟨47, _⟩ => ⟨S800000x304, .f32⟩
  | .hbm, ⟨48, _⟩ => ⟨S304x256, .f32⟩
  | .hbm, ⟨49, _⟩ => ⟨S800000x256, .f32⟩
  | .hbm, ⟨50, _⟩ => ⟨S_, .f32⟩
  | .hbm, ⟨51, _⟩ => ⟨S800000x256, .f32⟩
  | .hbm, ⟨52, _⟩ => ⟨S800000x256, .f32⟩
  | .hbm, ⟨53, _⟩ => ⟨S256x8, .f32⟩
  | .hbm, ⟨54, _⟩ => ⟨S800000x8, .f32⟩
  | .hbm, ⟨55, _⟩ => ⟨S800000x8, .f32⟩
  | .hbm, ⟨56, _⟩ => ⟨S800000x8, .f32⟩
  | .hbm, ⟨57, _⟩ => ⟨S_, .f32⟩
  | .hbm, ⟨58, _⟩ => ⟨S800000x8, .f32⟩
  | .hbm, ⟨59, _⟩ => ⟨S800000x8, .f32⟩
  | .hbm, ⟨60, _⟩ => ⟨S_, .f32⟩
  | .hbm, ⟨61, _⟩ => ⟨S800000x8, .f32⟩
  | .hbm, ⟨62, _⟩ => ⟨S800000x8, .f32⟩
  | .hbm, ⟨63, _⟩ => ⟨S50000x8x16, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x8x16, .f32⟩
  | .hbm, ⟨73, _⟩ => ⟨S800000x8x1, .f32⟩
  | .hbm, ⟨74, _⟩ => ⟨S800000x8x16, .f32⟩
  | .hbm, ⟨75, _⟩ => ⟨S800000x8x16, .f32⟩
  | .hbm, ⟨76, _⟩ => ⟨S_, .f32⟩
  | .hbm, ⟨77, _⟩ => ⟨S50000x8x16, .f32⟩
  | .hbm, ⟨78, _⟩ => ⟨S800000x1, .i32⟩
  | .hbm, ⟨79, _⟩ => ⟨S50000x8x16, .f32⟩
  | .hbm, ⟨80, _⟩ => ⟨S50000x128, .f32⟩
  | .hbm, ⟨81, _⟩ => ⟨S128x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x16_S800000x16_S800000x16_S800000x304_d1 : Shape.Concatenates [S800000x128, S800000x128, S800000x16, S800000x16, S800000x16] S800000x304 1
  transposes_S256x304_S304x256_1_0 : S256x304.Transposes [1, 0] S304x256
  bcast_S_S800000x256 : S_.BroadcastsInDim S800000x256 (![] : Fin 0 → Fin S800000x256.rank)
  transposes_S8x256_S256x8_1_0 : S8x256.Transposes [1, 0] S256x8
  bcast_S_S800000x8 : S_.BroadcastsInDim S800000x8 (![] : Fin 0 → Fin S800000x8.rank)
  shapeCasts_S50000x128_S50000x8x16 : S50000x128.ShapeCasts S50000x8x16
  bcast_S800000x8_S800000x8x1_0_1 : S800000x8.BroadcastsInDim S800000x8x1 (![0, 1] : Fin 2 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  shapeCasts_S50000x8x16_S50000x128 : S50000x8x16.ShapeCasts S50000x128
  transposes_S128x128_S128x128_1_0 : S128x128.Transposes [1, 0] S128x128
  gather_S50000x128_S800000x1_S800000x128_1_0_n_n_0_1_1128_wf : GatherDims.WF S50000x128 S800000x1 S800000x128 [1] [0] [] [0] [] 1 ![1, 128]
  gather_S50000x16_S800000x1_S800000x16_1_0_n_n_0_1_116_wf : GatherDims.WF S50000x16 S800000x1 S800000x16 [1] [0] [] [0] [] 1 ![1, 16]
  dot_S800000x304_S304x256_S800000x256_1_0_0_1_n_n_wf : DotDims.WF S800000x304 S304x256 S800000x256 [1] [0] [0] [1] [] []
  dot_S800000x256_S256x8_S800000x8_1_0_0_1_n_n_wf : DotDims.WF S800000x256 S256x8 S800000x8 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S800000x304_S304x256_S800000x256_1_0_0_1_n_n : DotDims S800000x304 S304x256 S800000x256 where
  lhsContracting := [1]
  rhsContracting := [0]
  lhsNonContracting := [0]
  rhsNonContracting := [1]
  lhsBatch := []
  rhsBatch := []
  wf := dot_S800000x304_S304x256_S800000x256_1_0_0_1_n_n_wf
def dot_S800000x256_S256x8_S800000x8_1_0_0_1_n_n : DotDims S800000x256 S256x8 S800000x8 where
  lhsContracting := [1]
  rhsContracting := [0]
  lhsNonContracting := [0]
  rhsNonContracting := [1]
  lhsBatch := []
  rhsBatch := []
  wf := dot_S800000x256_S256x8_S800000x8_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What both programs compute, as functions of the seven argument arrays: h [50000, 128] (node features), xs [50000, 16]
  (static node features), ei [2, 800000] (edge endpoints: row 1 the source, row 0 the target), ef [800000, 16] (edge
  features), W1 [256, 304], W2 [8, 256], Wo [128, 128].

  For an edge e with source row s and target row d (each index word normalised and clamped into the node axis, `rowOf`):
    hpre e j  = sum over the 304 entries of the row (h s | h d | xs s | xs d | ef e) times W1 j, written as its five
                partial sums over the five pieces;
    gate e k  = logistic (sum_j max (hpre e j) 0 * W2 k j);
    gated e q = h s q * gate e (q / 16)                       (head q / 16 owns lane q);
    agg n q   = sum of gated e q over the edges whose target word, read signed, is n;
    proj n p  = sum_q agg n q * Wo p q.
  The first result is `proj`, the second `gate`.

  The same mathematics over the arrays one kernel region sees (`rHpre`, `rGate`, `rGated`: the gathered rows and the
  slices of the transposed weights as arrays of their own, the head of a lane chosen by a 0/1 matrix) is stated generically
  in the number of rows, and `gate_of_region` / `gated_of_region` join the two forms.
-/
import Idealize.ShloMosaic.Lib.ValueIdx
import Idealize.ShloMosaic.PureOps.Ideal.Laws

noncomputable section

namespace Cert.Spec

open Idealize.ShloMosaic Idealize.ShloMosaic.ValueIdx

/-- A matrix of extended reals with `n0` rows and `n1` columns. -/
abbrev Mat (n0 n1 : Nat) : Type := (⟨2, ![n0, n1]⟩ : Shape).Idx → EReal

/-- An index word normalised as both programs do it: a negative index counts back from the end of the node axis. -/
def wrapW (x : BitVec 32) : BitVec 32 := Scalar.select (IntOp.cmpi .slt x 0#32) (IntOp.addi x 50000#32) x

/-- The node row a gather reads for the index word `x`: normalised, read signed, clamped into the axis. -/
def rowOf (x : BitVec 32) : Fin 50000 := ⟨min (wrapW x).toInt.toNat 49999, by omega⟩

/-! ## One region's arrays -/

section Region

variable {R : Nat} (hs hd : Mat R 128) (xss xsd ef : Mat R 16) (a b : Mat 128 256) (c d f : Mat 16 256)
  (w2t : Mat 256 8) (ex : Mat 8 128)

/-- The hidden layer before its relu, as the five partial products summed left to right. -/
def rHpre (e : Fin R) (j : Fin 256) : EReal :=
  (∑ i : Fin 128, hs (ix2 e i) * a (ix2 i j)) + (∑ i : Fin 128, hd (ix2 e i) * b (ix2 i j))
    + (∑ i : Fin 16, xss (ix2 e i) * c (ix2 i j)) + (∑ i : Fin 16, xsd (ix2 e i) * d (ix2 i j))
    + (∑ i : Fin 16, ef (ix2 e i) * f (ix2 i j))

/-- The gate of head `k` on row `e`. -/
def rGate (e : Fin R) (k : Fin 8) : EReal :=
  Ideal.logistic (∑ j : Fin 256, max (rHpre hs hd xss xsd ef a b c d f e j) 0 * w2t (ix2 j k))

/-- The gated message: the source row times its lane's gate, the lane's head picked by the matrix `ex`. -/
def rGated (e : Fin R) (q : Fin 128) : EReal :=
  hs (ix2 e q) * ∑ k : Fin 8, rGate hs hd xss xsd ef a b c d f w2t e k * ex (ix2 k q)

end Region

/-! ## The whole computation -/

section Whole

variable (h : Mat 50000 128) (xs : Mat 50000 16) (ei : (⟨2, ![2, 800000]⟩ : Shape).Idx → BitVec 32)
  (ef : Mat 800000 16) (W1 : Mat 256 304) (W2 : Mat 8 256) (Wo : Mat 128 128)

/-- The source row of edge `e`. -/
def src (e : Fin 800000) : Fin 50000 := rowOf (ei (ix2 1 e))
/-- The target row of edge `e`, as a gather reads it. -/
def dst (e : Fin 800000) : Fin 50000 := rowOf (ei (ix2 0 e))

def hpre (e : Fin 800000) (j : Fin 256) : EReal :=
  (∑ i : Fin 128, h (ix2 (src ei e) i) * W1 (ix2 j ⟨i.val, by omega⟩))
    + (∑ i : Fin 128, h (ix2 (dst ei e) i) * W1 (ix2 j ⟨128 + i.val, by omega⟩))
    + (∑ i : Fin 16, xs (ix2 (src ei e) i) * W1 (ix2 j ⟨256 + i.val, by omega⟩))
    + (∑ i : Fin 16, xs (ix2 (dst ei e) i) * W1 (ix2 j ⟨272 + i.val, by omega⟩))
    + (∑ i : Fin 16, ef (ix2 e i) * W1 (ix2 j ⟨288 + i.val, by omega⟩))

def gate (e : Fin 800000) (k : Fin 8) : EReal :=
  Ideal.logistic (∑ j : Fin 256, max (hpre h xs ei ef W1 e j) 0 * W2 (ix2 k j))

def gated (e : Fin 800000) (q : Fin 128) : EReal :=
  h (ix2 (src ei e) q) * gate h xs ei ef W1 W2 e ⟨q.val / 16, by omega⟩

/-- The scatter-add of the gated messages: an edge lands on node `n` when its target word, read signed, is `n`. -/
def agg (n : Fin 50000) (q : Fin 128) : EReal :=
  ∑ e : Fin 800000, if (ei (ix2 0 e)).toInt = (n.val : Int) then gated h xs ei ef W1 W2 e q else 0

def proj (n : Fin 50000) (p : Fin 128) : EReal :=
  ∑ q : Fin 128, agg h xs ei ef W1 W2 n q * Wo (ix2 p q)

/-- The first result as an array. -/
def G0 : Mat 50000 128 := fun i => proj h xs ei ef W1 W2 Wo (i 0) (i 1)
/-- The second result as an array. -/
def G1 : Mat 800000 8 := fun i => gate h xs ei ef W1 W2 (i 0) (i 1)

theorem G0_apply (n : Fin 50000) (p : Fin 128) : G0 h xs ei ef W1 W2 Wo (ix2 n p) = proj h xs ei ef W1 W2 Wo n p := rfl
theorem G1_apply (e : Fin 800000) (k : Fin 8) : G1 h xs ei ef W1 W2 (ix2 e k) = gate h xs ei ef W1 W2 e k := rfl

/-! ## The region's form of the gate and of the gated message is the whole computation's -/

variable (hs hd : Mat 800000 128) (xss xsd : Mat 800000 16) (a b : Mat 128 256) (c d f : Mat 16 256)
  (w2t : Mat 256 8) (ex : Mat 8 128)

/-- With the region's arrays being the gathered rows and the slices of the transposed weights, its gate is `gate`. -/
theorem gate_of_region
    (hhs : ∀ e i, hs (ix2 e i) = h (ix2 (src ei e) i)) (hhd : ∀ e i, hd (ix2 e i) = h (ix2 (dst ei e) i))
    (hxss : ∀ e i, xss (ix2 e i) = xs (ix2 (src ei e) i)) (hxsd : ∀ e i, xsd (ix2 e i) = xs (ix2 (dst ei e) i))
    (ha : ∀ (i : Fin 128) j, a (ix2 i j) = W1 (ix2 j ⟨i.val, by omega⟩))
    (hb : ∀ (i : Fin 128) j, b (ix2 i j) = W1 (ix2 j ⟨128 + i.val, by omega⟩))
    (hc : ∀ (i : Fin 16) j, c (ix2 i j) = W1 (ix2 j ⟨256 + i.val, by omega⟩))
    (hd' : ∀ (i : Fin 16) j, d (ix2 i j) = W1 (ix2 j ⟨272 + i.val, by omega⟩))
    (hf : ∀ (i : Fin 16) j, f (ix2 i j) = W1 (ix2 j ⟨288 + i.val, by omega⟩))
    (hw : ∀ (j : Fin 256) (k : Fin 8), w2t (ix2 j k) = W2 (ix2 k j))
    (e : Fin 800000) (k : Fin 8) :
    rGate hs hd xss xsd ef a b c d f w2t e k = gate h xs ei ef W1 W2 e k := by
  unfold rGate gate rHpre hpre
  simp only [hhs, hhd, hxss, hxsd, ha, hb, hc, hd', hf, hw]

/-- A sum against a 0/1 row with its one 1 at `k0` is the entry at `k0`. -/
theorem sum_mul_indicator (g : Fin 8 → EReal) (k0 : Fin 8) :
    (∑ k : Fin 8, g k * (if k.val = k0.val then (1 : EReal) else 0)) = g k0 := by
  rw [Finset.sum_eq_single k0]
  · rw [if_pos rfl, mul_one]
  · intro k _ hk
    rw [if_neg (fun h => hk (Fin.ext h)), mul_zero]
  · intro hk; exact absurd (Finset.mem_univ _) hk

/-- With, besides, `ex` the 0/1 matrix that gives lane `q` to head `q / 16`, the region's gated message is `gated`. -/
theorem gated_of_region
    (hhs : ∀ e i, hs (ix2 e i) = h (ix2 (src ei e) i)) (hhd : ∀ e i, hd (ix2 e i) = h (ix2 (dst ei e) i))
    (hxss : ∀ e i, xss (ix2 e i) = xs (ix2 (src ei e) i)) (hxsd : ∀ e i, xsd (ix2 e i) = xs (ix2 (dst ei e) i))
    (ha : ∀ (i : Fin 128) j, a (ix2 i j) = W1 (ix2 j ⟨i.val, by omega⟩))
    (hb : ∀ (i : Fin 128) j, b (ix2 i j) = W1 (ix2 j ⟨128 + i.val, by omega⟩))
    (hc : ∀ (i : Fin 16) j, c (ix2 i j) = W1 (ix2 j ⟨256 + i.val, by omega⟩))
    (hd' : ∀ (i : Fin 16) j, d (ix2 i j) = W1 (ix2 j ⟨272 + i.val, by omega⟩))
    (hf : ∀ (i : Fin 16) j, f (ix2 i j) = W1 (ix2 j ⟨288 + i.val, by omega⟩))
    (hw : ∀ (j : Fin 256) (k : Fin 8), w2t (ix2 j k) = W2 (ix2 k j))
    (hex : ∀ (k : Fin 8) (q : Fin 128), ex (ix2 k q) = if k.val = q.val / 16 then (1 : EReal) else 0)
    (e : Fin 800000) (q : Fin 128) :
    rGated hs hd xss xsd ef a b c d f w2t ex e q = gated h xs ei ef W1 W2 e q := by
  unfold rGated gated
  rw [hhs]
  congr 1
  simp only [hex, gate_of_region h xs ei ef W1 W2 hs hd xss xsd a b c d f w2t hhs hhd hxss hxsd ha hb hc hd' hf hw]
  exact sum_mul_indicator (fun k => gate h xs ei ef W1 W2 e k) ⟨q.val / 16, by omega⟩

end Whole

end Cert.Spec

end
-- ==== Proof.Args.lean ====
/-
  Names for the arrays the value proof speaks of, each at its literal matrix type: the seven argument arrays of a launch
  memory, the buffers a region's windows stage (read off the buffer contents `V` the region is entered with), and the
  arrays the two regions leave. Arithmetic on an entry needs the entry's type to be the extended reals by name.
-/
import proofs.«411225_j5987184410675_1_alg».proof.Proof.Gen.KernelIdeal.Frame
import proofs.«411225_j5987184410675_1_alg».proof.Proof.Spec

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (c : Dev nD)
variable (V : (c : Dev nD) → (b : Ref sig .tc) → Buf (Elt Ideal) ((c : Thread nD τ).loc b))

/-! ## The argument arrays of a launch memory -/
abbrev A0 : Mat 50000 128 := m ((c.tc : Thread nD τ).loc main_arg0)
abbrev A1 : Mat 50000 16 := m ((c.tc : Thread nD τ).loc main_arg1)
abbrev A2 : (⟨2, ![2, 800000]⟩ : Shape).Idx → BitVec 32 := m ((c.tc : Thread nD τ).loc main_arg2)
abbrev A3 : Mat 800000 16 := m ((c.tc : Thread nD τ).loc main_arg3)
abbrev A4 : Mat 256 304 := m ((c.tc : Thread nD τ).loc main_arg4)
abbrev A5 : Mat 8 256 := m ((c.tc : Thread nD τ).loc main_arg5)
abbrev A6 : Mat 128 128 := m ((c.tc : Thread nD τ).loc main_arg6)

/-- Every index word of the edge array lies in [-50000, 50000). -/
def InRange : Prop := ∀ i : (⟨2, ![2, 800000]⟩ : Shape).Idx, -50000 ≤ (A2 m c i).toInt ∧ (A2 m c i).toInt < 50000

/-! ## The buffers the first region's windows stage, in window order, and the arrays it leaves -/
abbrev bHs : Mat 800000 128 := V c main_v4
abbrev bHd : Mat 800000 128 := V c main_v5
abbrev bXss : Mat 800000 16 := V c main_v6
abbrev bXsd : Mat 800000 16 := V c main_v7
abbrev bEf : Mat 800000 16 := V c main_arg3
abbrev bWa : Mat 128 256 := V c main_v9
abbrev bWb : Mat 128 256 := V c main_v10
abbrev bWc : Mat 16 256 := V c main_v11
abbrev bWd : Mat 16 256 := V c main_v12
abbrev bWf : Mat 16 256 := V c main_v13
abbrev bW2t : Mat 256 8 := V c main_v14
abbrev bEx : Mat 8 128 := V c main_v22
/-- The gates array after the first region. -/
abbrev Arr12 : Mat 800000 8 := (dat0 (F := Ideal) V c).arrAt 12 cfg0.N
/-- The gated messages after the first region. -/
abbrev Arr13 : Mat 800000 128 := (dat0 (F := Ideal) V c).arrAt 13 cfg0.N

/-! ## The second region's two inputs and the array it leaves -/
abbrev bAgg : Mat 50000 128 := V c main_v26
abbrev bWo : Mat 128 128 := V c main_v27
abbrev Arr2 : Mat 50000 128 := (dat1 (F := Ideal) V c).arrAt 2 cfg1.N

end Cert.KernelIdeal.Val

end
-- ==== Proof.Pay.lean ====
/-
  The three kernel bodies' stored values read at an entry, at the ideal instance: format changes are the identity, a
  matrix product into a zero accumulator is the plain sum over the contracted axis.

  Each of the five product shapes has four axis facts (which coordinate of an operand's index is the output's row, the
  output's column, or the contracted place) and, from them, the product read at (i, k) as the sum over the contracted
  axis re-indexed to its literal range. The hidden layer is then the five partial products added left to right, the gate
  the logistic of the rectified hidden row against the second weights, and the gated message the source row times the
  gate row against the head-selection matrix.
-/
import proofs.«411225_j5987184410675_1_alg».proof.Proof.Gen.KernelIdeal.Skeleton
import proofs.«411225_j5987184410675_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Pay
open Cert.KernelIdeal Cert.KernelIdeal.Gen Cert.Spec
open Idealize.ShloMosaic Idealize.ShloMosaic.ValueIdx

/-! ### The product over `dot_S2000x128_S128x256_S2000x256_1_0_0_1_n_n` -/

theorem lhs_k128n256_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_k128n256_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_k128n256_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_k128n256_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000, 128] by [128, 256] product into the zero accumulator, read at (i, k): the sum over the 128 contracted places. -/
theorem mm_k128n256 (l : Mat 2000 128) (r : Mat 128 256) (i : Fin 2000) (k : Fin 256) :
    matmul (F := Ideal) (φ₁ := .bf16) (φ₂ := .bf16) dot_S2000x128_S128x256_S2000x256_1_0_0_1_n_n none l r (constant (F := Ideal) S2000x256 .f32 0x00000000#32) (ix2 i k)
      = ∑ j : Fin 128, l (ix2 i j) * r (ix2 j k) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun j _ => ?_
  have hk := ValueIdx.contrEquiv1_symm_val dot_S2000x128_S128x256_S2000x256_1_0_0_1_n_n 128 rfl rfl j
  have el : dot_S2000x128_S128x256_S2000x256_1_0_0_1_n_n.lhsIdx (ix2 i k) ((ValueIdx.contrEquiv1 dot_S2000x128_S128x256_S2000x256_1_0_0_1_n_n 128 rfl rfl).symm j) = ix2 i j := funext fun a => Fin.ext (by
    match a with
    | ⟨0, _⟩ => exact lhs_k128n256_0 _ _
    | ⟨1, _⟩ => exact (lhs_k128n256_1 _ _).trans hk)
  have er : dot_S2000x128_S128x256_S2000x256_1_0_0_1_n_n.rhsIdx (ix2 i k) ((ValueIdx.contrEquiv1 dot_S2000x128_S128x256_S2000x256_1_0_0_1_n_n 128 rfl rfl).symm j) = ix2 j k := funext fun a => Fin.ext (by
    match a with
    | ⟨0, _⟩ => exact (rhs_k128n256_0 _ _).trans hk
    | ⟨1, _⟩ => exact rhs_k128n256_1 _ _)
  rw [el, er]

/-! ### The product over `dot_S2000x16_S16x256_S2000x256_1_0_0_1_n_n` -/

theorem lhs_k16n256_0 (i : S2000x256.Idx) (q : dot_S2000x16_S16x256_S2000x256_1_0_0_1_n_n.contr.Idx) :
    (dot_S2000x16_S16x256_S2000x256_1_0_0_1_n_n.lhsIdx i q 0).val = (i 0).val := by
  unfold DotDims.lhsIdx
  rw [dif_neg (show ¬(0 : Fin S2000x16.rank) ∈ dot_S2000x16_S16x256_S2000x256_1_0_0_1_n_n.lhsBatch by decide), dif_pos (show (0 : Fin S2000x16.rank) ∈ dot_S2000x16_S16x256_S2000x256_1_0_0_1_n_n.lhsNonContracting by decide)]
  rfl
theorem lhs_k16n256_1 (i : S2000x256.Idx) (q : dot_S2000x16_S16x256_S2000x256_1_0_0_1_n_n.contr.Idx) :
    (dot_S2000x16_S16x256_S2000x256_1_0_0_1_n_n.lhsIdx i q 1).val = (q ⟨0, by decide⟩).val :=
  dot_S2000x16_S16x256_S2000x256_1_0_0_1_n_n.lhsIdx_val_of_single rfl i q
theorem rhs_k16n256_0 (i : S2000x256.Idx) (q : dot_S2000x16_S16x256_S2000x256_1_0_0_1_n_n.contr.Idx) :
    (dot_S2000x16_S16x256_S2000x256_1_0_0_1_n_n.rhsIdx i q 0).val = (q ⟨0, by decide⟩).val :=
  dot_S2000x16_S16x256_S2000x256_1_0_0_1_n_n.rhsIdx_val_of_single rfl i q
theorem rhs_k16n256_1 (i : S2000x256.Idx) (q : dot_S2000x16_S16x256_S2000x256_1_0_0_1_n_n.contr.Idx) :
    (dot_S2000x16_S16x256_S2000x256_1_0_0_1_n_n.rhsIdx i q 1).val = (i 1).val := by
  unfold DotDims.rhsIdx
  rw [dif_neg (show ¬(1 : Fin S16x256.rank) ∈ dot_S2000x16_S16x256_S2000x256_1_0_0_1_n_n.rhsBatch by decide), dif_pos (show (1 : Fin S16x256.rank) ∈ dot_S2000x16_S16x256_S2000x256_1_0_0_1_n_n.rhsNonContracting by decide)]
  rfl

/-- A [2000, 16] by [16, 256] product into the zero accumulator, read at (i, k): the sum over the 16 contracted places. -/
theorem mm_k16n256 (l : Mat 2000 16) (r : Mat 16 256) (i : Fin 2000) (k : Fin 256) :
    matmul (F := Ideal) (φ₁ := .bf16) (φ₂ := .bf16) dot_S2000x16_S16x256_S2000x256_1_0_0_1_n_n none l r (constant (F := Ideal) S2000x256 .f32 0x00000000#32) (ix2 i k)
      = ∑ j : Fin 16, l (ix2 i j) * r (ix2 j k) := by
  simp only [matmul]
  rw [Ideal.matmul_constant_zero_apply, ← Equiv.sum_comp (ValueIdx.contrEquiv1 dot_S2000x16_S16x256_S2000x256_1_0_0_1_n_n 16 rfl rfl).symm]
  refine Finset.sum_congr rfl fun j _ => ?_
  have hk := ValueIdx.contrEquiv1_symm_val dot_S2000x16_S16x256_S2000x256_1_0_0_1_n_n 16 rfl rfl j
  have el : dot_S2000x16_S16x256_S2000x256_1_0_0_1_n_n.lhsIdx (ix2 i k) ((ValueIdx.contrEquiv1 dot_S2000x16_S16x256_S2000x256_1_0_0_1_n_n 16 rfl rfl).symm j) = ix2 i j := funext fun a => Fin.ext (by
    match a with
    | ⟨0, _⟩ => exact lhs_k16n256_0 _ _
    | ⟨1, _⟩ => exact (lhs_k16n256_1 _ _).trans hk)
  have er : dot_S2000x16_S16x256_S2000x256_1_0_0_1_n_n.rhsIdx (ix2 i k) ((ValueIdx.contrEquiv1 dot_S2000x16_S16x256_S2000x256_1_0_0_1_n_n 16 rfl rfl).symm j) = ix2 j k := funext fun a => Fin.ext (by
    match a with
    | ⟨0, _⟩ => exact (rhs_k16n256_0 _ _).trans hk
    | ⟨1, _⟩ => exact rhs_k16n256_1 _ _)
  rw [el, er]

/-! ### The product over `dot_S2000x256_S256x8_S2000x8_1_0_0_1_n_n` -/

theorem lhs_k256n8_0 (i : S2000x8.Idx) (q : dot_S2000x256_S256x8_S2000x8_1_0_0_1_n_n.contr.Idx) :
    (dot_S2000x256_S256x8_S2000x8_1_0_0_1_n_n.lhsIdx i q 0).val = (i 0).val := by
  unfold DotDims.lhsIdx
  rw [dif_neg (show ¬(0 : Fin S2000x256.rank) ∈ dot_S2000x256_S256x8_S2000x8_1_0_0_1_n_n.lhsBatch by decide), dif_pos (show (0 : Fin S2000x256.rank) ∈ dot_S2000x256_S256x8_S2000x8_1_0_0_1_n_n.lhsNonContracting by decide)]
  rfl
theorem lhs_k256n8_1 (i : S2000x8.Idx) (q : dot_S2000x256_S256x8_S2000x8_1_0_0_1_n_n.contr.Idx) :
    (dot_S2000x256_S256x8_S2000x8_1_0_0_1_n_n.lhsIdx i q 1).val = (q ⟨0, by decide⟩).val :=
  dot_S2000x256_S256x8_S2000x8_1_0_0_1_n_n.lhsIdx_val_of_single rfl i q
theorem rhs_k256n8_0 (i : S2000x8.Idx) (q : dot_S2000x256_S256x8_S2000x8_1_0_0_1_n_n.contr.Idx) :
    (dot_S2000x256_S256x8_S2000x8_1_0_0_1_n_n.rhsIdx i q 0).val = (q ⟨0, by decide⟩).val :=
  dot_S2000x256_S256x8_S2000x8_1_0_0_1_n_n.rhsIdx_val_of_single rfl i q
theorem rhs_k256n8_1 (i : S2000x8.Idx) (q : dot_S2000x256_S256x8_S2000x8_1_0_0_1_n_n.contr.Idx) :
    (dot_S2000x256_S256x8_S2000x8_1_0_0_1_n_n.rhsIdx i q 1).val = (i 1).val := by
  unfold DotDims.rhsIdx
  rw [dif_neg (show ¬(1 : Fin S256x8.rank) ∈ dot_S2000x256_S256x8_S2000x8_1_0_0_1_n_n.rhsBatch by decide), dif_pos (show (1 : Fin S256x8.rank) ∈ dot_S2000x256_S256x8_S2000x8_1_0_0_1_n_n.rhsNonContracting by decide)]
  rfl

/-- A [2000, 256] by [256, 8] product into the zero accumulator, read at (i, k): the sum over the 256 contracted places. -/
theorem mm_k256n8 (l : Mat 2000 256) (r : Mat 256 8) (i : Fin 2000) (k : Fin 8) :
    matmul (F := Ideal) (φ₁ := .bf16) (φ₂ := .bf16) dot_S2000x256_S256x8_S2000x8_1_0_0_1_n_n none l r (constant (F := Ideal) S2000x8 .f32 0x00000000#32) (ix2 i k)
      = ∑ j : Fin 256, l (ix2 i j) * r (ix2 j k) := by
  simp only [matmul]
  rw [Ideal.matmul_constant_zero_apply, ← Equiv.sum_comp (ValueIdx.contrEquiv1 dot_S2000x256_S256x8_S2000x8_1_0_0_1_n_n 256 rfl rfl).symm]
  refine Finset.sum_congr rfl fun j _ => ?_
  have hk := ValueIdx.contrEquiv1_symm_val dot_S2000x256_S256x8_S2000x8_1_0_0_1_n_n 256 rfl rfl j
  have el : dot_S2000x256_S256x8_S2000x8_1_0_0_1_n_n.lhsIdx (ix2 i k) ((ValueIdx.contrEquiv1 dot_S2000x256_S256x8_S2000x8_1_0_0_1_n_n 256 rfl rfl).symm j) = ix2 i j := funext fun a => Fin.ext (by
    match a with
    | ⟨0, _⟩ => exact lhs_k256n8_0 _ _
    | ⟨1, _⟩ => exact (lhs_k256n8_1 _ _).trans hk)
  have er : dot_S2000x256_S256x8_S2000x8_1_0_0_1_n_n.rhsIdx (ix2 i k) ((ValueIdx.contrEquiv1 dot_S2000x256_S256x8_S2000x8_1_0_0_1_n_n 256 rfl rfl).symm j) = ix2 j k := funext fun a => Fin.ext (by
    match a with
    | ⟨0, _⟩ => exact (rhs_k256n8_0 _ _).trans hk
    | ⟨1, _⟩ => exact rhs_k256n8_1 _ _)
  rw [el, er]

/-! ### The product over `dot_S2000x8_S8x128_S2000x128_1_0_0_1_n_n` -/

theorem lhs_k8n128_0 (i : S2000x128.Idx) (q : dot_S2000x8_S8x128_S2000x128_1_0_0_1_n_n.contr.Idx) :
    (dot_S2000x8_S8x128_S2000x128_1_0_0_1_n_n.lhsIdx i q 0).val = (i 0).val := by
  unfold DotDims.lhsIdx
  rw [dif_neg (show ¬(0 : Fin S2000x8.rank) ∈ dot_S2000x8_S8x128_S2000x128_1_0_0_1_n_n.lhsBatch by decide), dif_pos (show (0 : Fin S2000x8.rank) ∈ dot_S2000x8_S8x128_S2000x128_1_0_0_1_n_n.lhsNonContracting by decide)]
  rfl
theorem lhs_k8n128_1 (i : S2000x128.Idx) (q : dot_S2000x8_S8x128_S2000x128_1_0_0_1_n_n.contr.Idx) :
    (dot_S2000x8_S8x128_S2000x128_1_0_0_1_n_n.lhsIdx i q 1).val = (q ⟨0, by decide⟩).val :=
  dot_S2000x8_S8x128_S2000x128_1_0_0_1_n_n.lhsIdx_val_of_single rfl i q
theorem rhs_k8n128_0 (i : S2000x128.Idx) (q : dot_S2000x8_S8x128_S2000x128_1_0_0_1_n_n.contr.Idx) :
    (dot_S2000x8_S8x128_S2000x128_1_0_0_1_n_n.rhsIdx i q 0).val = (q ⟨0, by decide⟩).val :=
  dot_S2000x8_S8x128_S2000x128_1_0_0_1_n_n.rhsIdx_val_of_single rfl i q
theorem rhs_k8n128_1 (i : S2000x128.Idx) (q : dot_S2000x8_S8x128_S2000x128_1_0_0_1_n_n.contr.Idx) :
    (dot_S2000x8_S8x128_S2000x128_1_0_0_1_n_n.rhsIdx i q 1).val = (i 1).val := by
  unfold DotDims.rhsIdx
  rw [dif_neg (show ¬(1 : Fin S8x128.rank) ∈ dot_S2000x8_S8x128_S2000x128_1_0_0_1_n_n.rhsBatch by decide), dif_pos (show (1 : Fin S8x128.rank) ∈ dot_S2000x8_S8x128_S2000x128_1_0_0_1_n_n.rhsNonContracting by decide)]
  rfl

/-- A [2000, 8] by [8, 128] product into the zero accumulator, read at (i, k): the sum over the 8 contracted places. -/
theorem mm_k8n128 (l : Mat 2000 8) (r : Mat 8 128) (i : Fin 2000) (k : Fin 128) :
    matmul (F := Ideal) (φ₁ := .bf16) (φ₂ := .bf16) dot_S2000x8_S8x128_S2000x128_1_0_0_1_n_n none l r (constant (F := Ideal) S2000x128 .f32 0x00000000#32) (ix2 i k)
      = ∑ j : Fin 8, l (ix2 i j) * r (ix2 j k) := by
  simp only [matmul]
  rw [Ideal.matmul_constant_zero_apply, ← Equiv.sum_comp (ValueIdx.contrEquiv1 dot_S2000x8_S8x128_S2000x128_1_0_0_1_n_n 8 rfl rfl).symm]
  refine Finset.sum_congr rfl fun j _ => ?_
  have hk := ValueIdx.contrEquiv1_symm_val dot_S2000x8_S8x128_S2000x128_1_0_0_1_n_n 8 rfl rfl j
  have el : dot_S2000x8_S8x128_S2000x128_1_0_0_1_n_n.lhsIdx (ix2 i k) ((ValueIdx.contrEquiv1 dot_S2000x8_S8x128_S2000x128_1_0_0_1_n_n 8 rfl rfl).symm j) = ix2 i j := funext fun a => Fin.ext (by
    match a with
    | ⟨0, _⟩ => exact lhs_k8n128_0 _ _
    | ⟨1, _⟩ => exact (lhs_k8n128_1 _ _).trans hk)
  have er : dot_S2000x8_S8x128_S2000x128_1_0_0_1_n_n.rhsIdx (ix2 i k) ((ValueIdx.contrEquiv1 dot_S2000x8_S8x128_S2000x128_1_0_0_1_n_n 8 rfl rfl).symm j) = ix2 j k := funext fun a => Fin.ext (by
    match a with
    | ⟨0, _⟩ => exact (rhs_k8n128_0 _ _).trans hk
    | ⟨1, _⟩ => exact rhs_k8n128_1 _ _)
  rw [el, er]

/-! ### The product over `dot_S2000x128_S128x128_S2000x128_1_0_0_1_n_n` -/

theorem lhs_k128n128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_k128n128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_k128n128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_k128n128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000, 128] by [128, 128] product into the zero accumulator, read at (i, k): the sum over the 128 contracted places. -/
theorem mm_k128n128 (l : Mat 2000 128) (r : Mat 128 128) (i : Fin 2000) (k : Fin 128) :
    matmul (F := Ideal) (φ₁ := .bf16) (φ₂ := .bf16) dot_S2000x128_S128x128_S2000x128_1_0_0_1_n_n none l r (constant (F := Ideal) S2000x128 .f32 0x00000000#32) (ix2 i k)
      = ∑ j : Fin 128, l (ix2 i j) * r (ix2 j k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun j _ => ?_
  have hk := ValueIdx.contrEquiv1_symm_val dot_S2000x128_S128x128_S2000x128_1_0_0_1_n_n 128 rfl rfl j
  have el : dot_S2000x128_S128x128_S2000x128_1_0_0_1_n_n.lhsIdx (ix2 i k) ((ValueIdx.contrEquiv1 dot_S2000x128_S128x128_S2000x128_1_0_0_1_n_n 128 rfl rfl).symm j) = ix2 i j := funext fun a => Fin.ext (by
    match a with
    | ⟨0, _⟩ => exact lhs_k128n128_0 _ _
    | ⟨1, _⟩ => exact (lhs_k128n128_1 _ _).trans hk)
  have er : dot_S2000x128_S128x128_S2000x128_1_0_0_1_n_n.rhsIdx (ix2 i k) ((ValueIdx.contrEquiv1 dot_S2000x128_S128x128_S2000x128_1_0_0_1_n_n 128 rfl rfl).symm j) = ix2 j k := funext fun a => Fin.ext (by
    match a with
    | ⟨0, _⟩ => exact (rhs_k128n128_0 _ _).trans hk
    | ⟨1, _⟩ => exact rhs_k128n128_1 _ _)
  rw [el, er]

/-! ### The stored values -/

/-- A narrowing of the format is the identity on the ideal values. -/
private theorem truncf_eq {s : Shape} (v : FVec Ideal s .f32) (h : FTy.bf16.bits < FTy.f32.bits) :
    (truncf .bf16 v h : FVec Ideal s .bf16) = v := rfl

/-- The first three partial products of the hidden layer, added left to right. -/
theorem pay6_apply (x0 x1 : Mat 2000 128) (x2 : Mat 2000 16) (x5 x6 : Mat 128 256) (x7 : Mat 16 256)
    (r : Fin 2000) (j : Fin 256) :
    k0_pay6 (F := Ideal) x0 x1 x2 x5 x6 x7 (ix2 r j)
      = (∑ i : Fin 128, x0 (ix2 r i) * x5 (ix2 i j)) + (∑ i : Fin 128, x1 (ix2 r i) * x6 (ix2 i j))
        + (∑ i : Fin 16, x2 (ix2 r i) * x7 (ix2 i j)) := by
  unfold k0_pay6 k0_pay3
  simp only [shapeCast_self, truncf_eq]
  rw [addf_apply, addf_apply, mm_k128n256, mm_k128n256, mm_k16n256]

/-- The fourth partial product of the hidden layer. -/
theorem pay7_apply (x3 : Mat 2000 16) (x8 : Mat 16 256) (r : Fin 2000) (j : Fin 256) :
    k0_pay7 (F := Ideal) x3 x8 (ix2 r j) = ∑ i : Fin 16, x3 (ix2 r i) * x8 (ix2 i j) := by
  unfold k0_pay7
  simp only [shapeCast_self, truncf_eq]
  rw [mm_k16n256]

/-- The gates tile: entry (r, k) of the first region's first store. -/
theorem pay1_apply (x0 x1 : Mat 2000 128) (x2 x3 x4 : Mat 2000 16) (x5 x6 : Mat 128 256) (x7 x8 x9 : Mat 16 256) (x10 : Mat 256 8)
    (r : Fin 2000) (k : Fin 8) :
    k0_pay1 (F := Ideal) (k0_pay4 x4) (k0_pay5 x9) (k0_pay6 x0 x1 x2 x5 x6 x7) (k0_pay7 x3 x8) x10 (ix2 r k)
      = rGate x0 x1 x2 x3 x4 x5 x6 x7 x8 x9 x10 r k := by
  unfold k0_pay1 k0_pay4 k0_pay5 rGate rHpre
  simp only [shapeCast_self, truncf_eq]
  refine (congrArg Ideal.logistic (mm_k256n8 _ _ r k)).trans ?_
  refine congrArg Ideal.logistic (Finset.sum_congr rfl fun j _ => ?_)
  rw [maximumf_apply, broadcast_apply, addf_apply, addf_apply, pay6_apply, pay7_apply, mm_k16n256]
  show max _ (Ideal.ofBits .f32 0x00000000#32) * _ = _
  rw [Ideal.ofBits_zero_f32]

/-- The gated-message tile: entry (r, q) of the first region's second store. -/
theorem pay2_apply (x0 x1 : Mat 2000 128) (x2 x3 x4 : Mat 2000 16) (x5 x6 : Mat 128 256) (x7 x8 x9 : Mat 16 256) (x10 : Mat 256 8)
    (x11 : Mat 8 128) (r : Fin 2000) (q : Fin 128) :
    k0_pay2 (F := Ideal) (k0_pay3 x0) (k0_pay4 x4) (k0_pay5 x9) (k0_pay6 x0 x1 x2 x5 x6 x7) (k0_pay7 x3 x8) x10 x11 (ix2 r q)
      = rGated x0 x1 x2 x3 x4 x5 x6 x7 x8 x9 x10 x11 r q := by
  unfold k0_pay2 rGated
  simp only [shapeCast_self, truncf_eq]
  rw [mulf_apply, mm_k8n128]
  unfold k0_pay3
  rw [shapeCast_self]
  refine congrArg (x0 (ix2 r q) * ·) (Finset.sum_congr rfl fun k _ => ?_)
  rw [pay1_apply]

/-- The projection tile: entry (r, p) of the second region's store. -/
theorem pay_k1_apply (x0 : Mat 2000 128) (x1 : Mat 128 128) (r : Fin 2000) (p : Fin 128) :
    k1_pay1 (F := Ideal) x0 x1 (ix2 r p) = ∑ q : Fin 128, x0 (ix2 r q) * x1 (ix2 q p) := by
  unfold k1_pay1
  simp only [shapeCast_self, truncf_eq]
  rw [mm_k128n128]

end Cert.KernelIdeal.Pay

end
-- ==== Proof.Region0.lean ====
/-
  The first region (the gate network over 400 edge tiles of 2000 edges): the two arrays it leaves, read at an entry.

  Point t of the grid reads rows 2000 t … 2000 t + 1999 of the five edge-indexed arrays and the seven weight arrays whole,
  and writes rows 2000 t … 2000 t + 1999 of the gates and of the gated messages. The gate and the gated message of a row
  read the edge-indexed arrays at that row only, so the tile's value at row r of point t is the whole arrays' value at
  row 2000 t + r; every row e lies in the block of point e / 2000, so the 400 blocks cover both arrays.
-/
import proofs.«411225_j5987184410675_1_alg».proof.Proof.Gen.KernelIdeal.Frame
import proofs.«411225_j5987184410675_1_alg».proof.Proof.Args
import proofs.«411225_j5987184410675_1_alg».proof.Proof.Pay
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

private theorem off_zero : (![0, 0] : Fin 2 → Nat) = fun _ => 0 := funext fun a => by fin_cases a <;> rfl

/-- The index maps over the grid: a tiled window's block at point t is (t, 0), a resident window's is (0, 0). -/
private theorem index_maps0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-! ## Each input block, read at an entry: a tile's row r at point t is the array's row 2000 t + r; a resident block is its array -/

private theorem tileHs_apply (t : Fin cfg0.N) (r : Fin 2000) (i : Fin 128) (e : Fin 800000) (he : e.val = 2000 * t.val + r.val) :
    (iblk0 (F := Ideal) V c 0 t : Mat 2000 128) (ix2 r i) = bHs c V (ix2 e i) := by
  have hi : win0_0.index t (0 : Fin 2) = t.val ∧ win0_0.index t (1 : Fin 2) = 0 := (index_maps0 t).1
  unfold iblk0
  rw [View.read_apply]
  show V c main_v4 _ = V c main_v4 _
  congr 1
  funext a
  apply Fin.ext
  match a with
  | ⟨0, _⟩ => show win0_0.index t (0 : Fin 2) * 2000 + 1 * r.val = e.val; rw [hi.1, he]; omega
  | ⟨1, _⟩ => show win0_0.index t (1 : Fin 2) * 128 + 1 * i.val = i.val; rw [hi.2]; omega

private theorem tileHd_apply (t : Fin cfg0.N) (r : Fin 2000) (i : Fin 128) (e : Fin 800000) (he : e.val = 2000 * t.val + r.val) :
    (iblk0 (F := Ideal) V c 1 t : Mat 2000 128) (ix2 r i) = bHd c V (ix2 e i) := by
  have hi : win0_1.index t (0 : Fin 2) = t.val ∧ win0_1.index t (1 : Fin 2) = 0 := (index_maps0 t).2.1
  unfold iblk0
  rw [View.read_apply]
  show V c main_v5 _ = V c main_v5 _
  congr 1
  funext a
  apply Fin.ext
  match a with
  | ⟨0, _⟩ => show win0_1.index t (0 : Fin 2) * 2000 + 1 * r.val = e.val; rw [hi.1, he]; omega
  | ⟨1, _⟩ => show win0_1.index t (1 : Fin 2) * 128 + 1 * i.val = i.val; rw [hi.2]; omega

private theorem tileXss_apply (t : Fin cfg0.N) (r : Fin 2000) (i : Fin 16) (e : Fin 800000) (he : e.val = 2000 * t.val + r.val) :
    (iblk0 (F := Ideal) V c 2 t : Mat 2000 16) (ix2 r i) = bXss c V (ix2 e i) := by
  have hi : win0_2.index t (0 : Fin 2) = t.val ∧ win0_2.index t (1 : Fin 2) = 0 := (index_maps0 t).2.2.1
  unfold iblk0
  rw [View.read_apply]
  show V c main_v6 _ = V c main_v6 _
  congr 1
  funext a
  apply Fin.ext
  match a with
  | ⟨0, _⟩ => show win0_2.index t (0 : Fin 2) * 2000 + 1 * r.val = e.val; rw [hi.1, he]; omega
  | ⟨1, _⟩ => show win0_2.index t (1 : Fin 2) * 16 + 1 * i.val = i.val; rw [hi.2]; omega

private theorem tileXsd_apply (t : Fin cfg0.N) (r : Fin 2000) (i : Fin 16) (e : Fin 800000) (he : e.val = 2000 * t.val + r.val) :
    (iblk0 (F := Ideal) V c 3 t : Mat 2000 16) (ix2 r i) = bXsd c V (ix2 e i) := by
  have hi : win0_3.index t (0 : Fin 2) = t.val ∧ win0_3.index t (1 : Fin 2) = 0 := (index_maps0 t).2.2.2.1
  unfold iblk0
  rw [View.read_apply]
  show V c main_v7 _ = V c main_v7 _
  congr 1
  funext a
  apply Fin.ext
  match a with
  | ⟨0, _⟩ => show win0_3.index t (0 : Fin 2) * 2000 + 1 * r.val = e.val; rw [hi.1, he]; omega
  | ⟨1, _⟩ => show win0_3.index t (1 : Fin 2) * 16 + 1 * i.val = i.val; rw [hi.2]; omega

private theorem tileEf_apply (t : Fin cfg0.N) (r : Fin 2000) (i : Fin 16) (e : Fin 800000) (he : e.val = 2000 * t.val + r.val) :
    (iblk0 (F := Ideal) V c 4 t : Mat 2000 16) (ix2 r i) = bEf c V (ix2 e i) := by
  have hi : win0_4.index t (0 : Fin 2) = t.val ∧ win0_4.index t (1 : Fin 2) = 0 := (index_maps0 t).2.2.2.2.1
  unfold iblk0
  rw [View.read_apply]
  show V c main_arg3 _ = V c main_arg3 _
  congr 1
  funext a
  apply Fin.ext
  match a with
  | ⟨0, _⟩ => show win0_4.index t (0 : Fin 2) * 2000 + 1 * r.val = e.val; rw [hi.1, he]; omega
  | ⟨1, _⟩ => show win0_4.index t (1 : Fin 2) * 16 + 1 * i.val = i.val; rw [hi.2]; omega

private theorem resWa_eq (t : Fin cfg0.N) : (iblk0 (F := Ideal) V c 5 t : Mat 128 256) = bWa c V := by
  have hi : win0_5.index t (0 : Fin 2) = 0 ∧ win0_5.index t (1 : Fin 2) = 0 := (index_maps0 t).2.2.2.2.2.1
  funext y
  unfold iblk0
  rw [View.read_apply]
  show V c main_v9 _ = V c main_v9 _
  congr 1
  funext a
  apply Fin.ext
  match a with
  | ⟨0, _⟩ => show win0_5.index t (0 : Fin 2) * 128 + 1 * (y 0).val = (y 0).val; rw [hi.1]; omega
  | ⟨1, _⟩ => show win0_5.index t (1 : Fin 2) * 256 + 1 * (y 1).val = (y 1).val; rw [hi.2]; omega

private theorem resWb_eq (t : Fin cfg0.N) : (iblk0 (F := Ideal) V c 6 t : Mat 128 256) = bWb c V := by
  have hi : win0_6.index t (0 : Fin 2) = 0 ∧ win0_6.index t (1 : Fin 2) = 0 := (index_maps0 t).2.2.2.2.2.2.1
  funext y
  unfold iblk0
  rw [View.read_apply]
  show V c main_v10 _ = V c main_v10 _
  congr 1
  funext a
  apply Fin.ext
  match a with
  | ⟨0, _⟩ => show win0_6.index t (0 : Fin 2) * 128 + 1 * (y 0).val = (y 0).val; rw [hi.1]; omega
  | ⟨1, _⟩ => show win0_6.index t (1 : Fin 2) * 256 + 1 * (y 1).val = (y 1).val; rw [hi.2]; omega

private theorem resWc_eq (t : Fin cfg0.N) : (iblk0 (F := Ideal) V c 7 t : Mat 16 256) = bWc c V := by
  have hi : win0_7.index t (0 : Fin 2) = 0 ∧ win0_7.index t (1 : Fin 2) = 0 := (index_maps0 t).2.2.2.2.2.2.2.1
  funext y
  unfold iblk0
  rw [View.read_apply]
  show V c main_v11 _ = V c main_v11 _
  congr 1
  funext a
  apply Fin.ext
  match a with
  | ⟨0, _⟩ => show win0_7.index t (0 : Fin 2) * 16 + 1 * (y 0).val = (y 0).val; rw [hi.1]; omega
  | ⟨1, _⟩ => show win0_7.index t (1 : Fin 2) * 256 + 1 * (y 1).val = (y 1).val; rw [hi.2]; omega

private theorem resWd_eq (t : Fin cfg0.N) : (iblk0 (F := Ideal) V c 8 t : Mat 16 256) = bWd c V := by
  have hi : win0_8.index t (0 : Fin 2) = 0 ∧ win0_8.index t (1 : Fin 2) = 0 := (index_maps0 t).2.2.2.2.2.2.2.2.1
  funext y
  unfold iblk0
  rw [View.read_apply]
  show V c main_v12 _ = V c main_v12 _
  congr 1
  funext a
  apply Fin.ext
  match a with
  | ⟨0, _⟩ => show win0_8.index t (0 : Fin 2) * 16 + 1 * (y 0).val = (y 0).val; rw [hi.1]; omega
  | ⟨1, _⟩ => show win0_8.index t (1 : Fin 2) * 256 + 1 * (y 1).val = (y 1).val; rw [hi.2]; omega

private theorem resWf_eq (t : Fin cfg0.N) : (iblk0 (F := Ideal) V c 9 t : Mat 16 256) = bWf c V := by
  have hi : win0_9.index t (0 : Fin 2) = 0 ∧ win0_9.index t (1 : Fin 2) = 0 := (index_maps0 t).2.2.2.2.2.2.2.2.2.1
  funext y
  unfold iblk0
  rw [View.read_apply]
  show V c main_v13 _ = V c main_v13 _
  congr 1
  funext a
  apply Fin.ext
  match a with
  | ⟨0, _⟩ => show win0_9.index t (0 : Fin 2) * 16 + 1 * (y 0).val = (y 0).val; rw [hi.1]; omega
  | ⟨1, _⟩ => show win0_9.index t (1 : Fin 2) * 256 + 1 * (y 1).val = (y 1).val; rw [hi.2]; omega

private theorem resW2t_eq (t : Fin cfg0.N) : (iblk0 (F := Ideal) V c 10 t : Mat 256 8) = bW2t c V := by
  have hi : win0_10.index t (0 : Fin 2) = 0 ∧ win0_10.index t (1 : Fin 2) = 0 := (index_maps0 t).2.2.2.2.2.2.2.2.2.2.1
  funext y
  unfold iblk0
  rw [View.read_apply]
  show V c main_v14 _ = V c main_v14 _
  congr 1
  funext a
  apply Fin.ext
  match a with
  | ⟨0, _⟩ => show win0_10.index t (0 : Fin 2) * 256 + 1 * (y 0).val = (y 0).val; rw [hi.1]; omega
  | ⟨1, _⟩ => show win0_10.index t (1 : Fin 2) * 8 + 1 * (y 1).val = (y 1).val; rw [hi.2]; omega

private theorem resEx_eq (t : Fin cfg0.N) : (iblk0 (F := Ideal) V c 11 t : Mat 8 128) = bEx c V := by
  have hi : win0_11.index t (0 : Fin 2) = 0 ∧ win0_11.index t (1 : Fin 2) = 0 := (index_maps0 t).2.2.2.2.2.2.2.2.2.2.2.1
  funext y
  unfold iblk0
  rw [View.read_apply]
  show V c main_v22 _ = V c main_v22 _
  congr 1
  funext a
  apply Fin.ext
  match a with
  | ⟨0, _⟩ => show win0_11.index t (0 : Fin 2) * 8 + 1 * (y 0).val = (y 0).val; rw [hi.1]; omega
  | ⟨1, _⟩ => show win0_11.index t (1 : Fin 2) * 128 + 1 * (y 1).val = (y 1).val; rw [hi.2]; omega

/-! ## The region's mathematics reads its row arguments at one row only -/

section Rows
variable {R R' : Nat} (hs hd : Mat R 128) (xss xsd ef : Mat R 16) (hs' hd' : Mat R' 128) (xss' xsd' ef' : Mat R' 16)
  (wa wb : Mat 128 256) (wc wd wf : Mat 16 256) (w2t : Mat 256 8) (ex : Mat 8 128) (r : Fin R) (e : Fin R')
  (h0 : ∀ i, hs (ix2 r i) = hs' (ix2 e i)) (h1 : ∀ i, hd (ix2 r i) = hd' (ix2 e i))
  (h2 : ∀ i, xss (ix2 r i) = xss' (ix2 e i)) (h3 : ∀ i, xsd (ix2 r i) = xsd' (ix2 e i)) (h4 : ∀ i, ef (ix2 r i) = ef' (ix2 e i))
include h0 h1 h2 h3 h4

private theorem rHpre_row (j : Fin 256) :
    rHpre hs hd xss xsd ef wa wb wc wd wf r j = rHpre hs' hd' xss' xsd' ef' wa wb wc wd wf e j := by
  unfold rHpre
  simp only [h0, h1, h2, h3, h4]

private theorem rGate_row (k : Fin 8) :
    rGate hs hd xss xsd ef wa wb wc wd wf w2t r k = rGate hs' hd' xss' xsd' ef' wa wb wc wd wf w2t e k := by
  unfold rGate
  congr 1
  refine Finset.sum_congr rfl fun j _ => ?_
  rw [rHpre_row hs hd xss xsd ef hs' hd' xss' xsd' ef' wa wb wc wd wf r e h0 h1 h2 h3 h4 j]

private theorem rGated_row (q : Fin 128) :
    rGated hs hd xss xsd ef wa wb wc wd wf w2t ex r q = rGated hs' hd' xss' xsd' ef' wa wb wc wd wf w2t ex e q := by
  unfold rGated
  rw [h0 q]
  congr 1
  refine Finset.sum_congr rfl fun k _ => ?_
  rw [rGate_row hs hd xss xsd ef hs' hd' xss' xsd' ef' wa wb wc wd wf w2t r e h0 h1 h2 h3 h4 k]

end Rows

/-! ## The gates array -/

/-- The gates as one array of the staged arrays: entry (e, k) is the gate of head k on edge e. -/
private abbrev G12 : Mat 800000 8 := fun i =>
  rGate (bHs c V) (bHd c V) (bXss c V) (bXsd c V) (bEf c V) (bWa c V) (bWb c V) (bWc c V) (bWd c V) (bWf c V) (bW2t c V) (i 0) (i 1)

/-- The gates tile of blocks that are rows 2000 t … 2000 t + 1999 of the arrays, at entry j, is the gate on row 2000 t + j 0. -/
private theorem gate_entry (Hs Hd : Mat 800000 128) (Xss Xsd Ef : Mat 800000 16) (Wa Wb : Mat 128 256) (Wc Wd Wf : Mat 16 256) (W2t : Mat 256 8)
    (x0 x1 : Mat 2000 128) (x2 x3 x4 : Mat 2000 16) (x5 x6 : Mat 128 256) (x7 x8 x9 : Mat 16 256) (x10 : Mat 256 8) (t : Nat)
    (h0 : ∀ (r : Fin 2000) (i : Fin 128) (e : Fin 800000), e.val = 2000 * t + r.val → x0 (ix2 r i) = Hs (ix2 e i))
    (h1 : ∀ (r : Fin 2000) (i : Fin 128) (e : Fin 800000), e.val = 2000 * t + r.val → x1 (ix2 r i) = Hd (ix2 e i))
    (h2 : ∀ (r : Fin 2000) (i : Fin 16) (e : Fin 800000), e.val = 2000 * t + r.val → x2 (ix2 r i) = Xss (ix2 e i))
    (h3 : ∀ (r : Fin 2000) (i : Fin 16) (e : Fin 800000), e.val = 2000 * t + r.val → x3 (ix2 r i) = Xsd (ix2 e i))
    (h4 : ∀ (r : Fin 2000) (i : Fin 16) (e : Fin 800000), e.val = 2000 * t + r.val → x4 (ix2 r i) = Ef (ix2 e i))
    (h5 : x5 = Wa) (h6 : x6 = Wb) (h7 : x7 = Wc) (h8 : x8 = Wd) (h9 : x9 = Wf) (h10 : x10 = W2t)
    (j : (⟨2, ![2000, 8]⟩ : Shape).Idx) (y : (⟨2, ![800000, 8]⟩ : Shape).Idx)
    (hy0 : (y 0).val = 2000 * t + (j 0).val) (hy1 : (y 1).val = (j 1).val) :
    k0_pay1 (F := Ideal) (k0_pay4 x4) (k0_pay5 x9) (k0_pay6 x0 x1 x2 x5 x6 x7) (k0_pay7 x3 x8) x10 j
      = rGate Hs Hd Xss Xsd Ef Wa Wb Wc Wd Wf W2t (y 0) (y 1) := by
  subst h5 h6 h7 h8 h9 h10
  have hk : (y 1 : Fin 8) = (j 1 : Fin 8) := Fin.ext hy1
  refine (congrArg (k0_pay1 (F := Ideal) (k0_pay4 x4) (k0_pay5 x9) (k0_pay6 x0 x1 x2 x5 x6 x7) (k0_pay7 x3 x8) x10) (eq_ix2 j)).trans ?_
  refine (Pay.pay1_apply x0 x1 x2 x3 x4 x5 x6 x7 x8 x9 x10 (j 0) (j 1)).trans ?_
  refine (rGate_row x0 x1 x2 x3 x4 Hs Hd Xss Xsd Ef x5 x6 x7 x8 x9 x10 (j 0) (y 0)
    (fun i => h0 (j 0) i (y 0) hy0) (fun i => h1 (j 0) i (y 0) hy0) (fun i => h2 (j 0) i (y 0) hy0)
    (fun i => h3 (j 0) i (y 0) hy0) (fun i => h4 (j 0) i (y 0) hy0) (j 1)).trans ?_
  exact congrArg (rGate Hs Hd Xss Xsd Ef x5 x6 x7 x8 x9 x10 (y 0)) hk.symm

/-- What point t writes back to the gates array is its block of G12. -/
private theorem flushed12_eq (t : Fin cfg0.N) :
    (dat0 (F := Ideal) V c).flushed 12 t = ((cfg0.win 12).blk t).view.read (Elt Ideal) (G12 c V) := by
  show (cfg0.win 12).cut (grid0.coords t) ((dat0 (F := Ideal) V c).after 12 t) = _
  rw [after0_12]
  unfold out0_12
  rw [View.canon_unit_zero off_zero]
  simp only [View.ld_unit_zero (S := S2000x128) off_zero, View.ld_unit_zero (S := S2000x16) off_zero, View.ld_unit_zero (S := S128x256) off_zero,
    View.ld_unit_zero (S := S16x256) off_zero, View.ld_unit_zero (S := S256x8) off_zero]
  have hi : win0_12.index t (0 : Fin 2) = t.val ∧ win0_12.index t (1 : Fin 2) = 0 := (index_maps0 t).2.2.2.2.2.2.2.2.2.2.2.2.1
  funext j
  refine gate_entry (bHs c V) (bHd c V) (bXss c V) (bXsd c V) (bEf c V) (bWa c V) (bWb c V) (bWc c V) (bWd c V) (bWf c V) (bW2t c V)
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) t.val
    (fun r i e he => tileHs_apply c V t r i e he) (fun r i e he => tileHd_apply c V t r i e he)
    (fun r i e he => tileXss_apply c V t r i e he) (fun r i e he => tileXsd_apply c V t r i e he)
    (fun r i e he => tileEf_apply c V t r i e he)
    (resWa_eq c V t) (resWb_eq c V t) (resWc_eq c V t) (resWd_eq c V t) (resWf_eq c V t) (resW2t_eq c V t)
    j (((cfg0.win 12).blk t).view.emb j) ?_ ?_
  · show win0_12.index t (0 : Fin 2) * 2000 + 1 * (j 0).val = 2000 * t.val + (j 0).val
    rw [hi.1]; omega
  · show win0_12.index t (1 : Fin 2) * 8 + 1 * (j 1).val = (j 1).val
    rw [hi.2]; omega

/-- An entry of the gates array is in point t's block iff each coordinate is in the block's range on its axis. -/
private theorem mem_blk12 (t : Fin cfg0.N) (i : S800000x8.Idx) :
    i ∈ ((cfg0.win 12).blk t).view.set ↔ ∀ a : Fin 2, win0_12.index t a * S2000x8.size a ≤ (i a).val ∧ (i a).val < win0_12.index t a * S2000x8.size a + S2000x8.size a := by
  show i ∈ ((View.whole main_v23_0).slice (win0_12.rect t)).set ↔ _
  rw [View.set_slice_whole, Rect.mem_set_unit]
  exact Iff.rfl

/-- Every entry (e, k) of the gates array is in the block of point e / 2000. -/
private theorem cover12 (i : S800000x8.Idx) : ∃ t : Fin cfg0.N, (cfg0.win 12).flush t = true ∧ i ∈ ((cfg0.win 12).blk t).view.set := by
  have hi0 : (i 0).val < 800000 := (i 0).isLt
  have hi1 : (i 1).val < 8 := (i 1).isLt
  obtain ⟨t, ht⟩ : ∃ t : Fin cfg0.N, t.val = (i 0).val / 2000 :=
    ⟨⟨(i 0).val / 2000, by rw [show cfg0.N = 400 from N_0]; omega⟩, rfl⟩
  have hi : win0_12.index t (0 : Fin 2) = t.val ∧ win0_12.index t (1 : Fin 2) = 0 := (index_maps0 t).2.2.2.2.2.2.2.2.2.2.2.2.1
  refine ⟨t, flush0_12 t, ?_⟩
  rw [mem_blk12]
  intro a
  match a with
  | ⟨0, _⟩ =>
    show win0_12.index t (0 : Fin 2) * 2000 ≤ (i 0).val ∧ (i 0).val < win0_12.index t (0 : Fin 2) * 2000 + 2000
    rw [hi.1, ht]; omega
  | ⟨1, _⟩ =>
    show win0_12.index t (1 : Fin 2) * 8 ≤ (i 1).val ∧ (i 1).val < win0_12.index t (1 : Fin 2) * 8 + 8
    rw [hi.2]; omega

/-- The gates array after the region is G12. -/
private theorem arr12_eq : Arr12 c V = G12 c V :=
  (dat0 (F := Ideal) V c).arrAt_eq_of_cover 12 (G12 c V) (fun t _ => flushed12_eq c V t) cover12

/-- Entry (e, k) of the gates array. -/
theorem arr12_apply (e : Fin 800000) (k : Fin 8) :
    Arr12 c V (ix2 e k)
      = rGate (bHs c V) (bHd c V) (bXss c V) (bXsd c V) (bEf c V) (bWa c V) (bWb c V) (bWc c V) (bWd c V) (bWf c V) (bW2t c V) e k :=
  congrFun (arr12_eq c V) (ix2 e k)

/-! ## The gated-message array -/

/-- The gated messages as one array of the staged arrays: entry (e, q) is lane q of edge e's message. -/
private abbrev G13 : Mat 800000 128 := fun i =>
  rGated (bHs c V) (bHd c V) (bXss c V) (bXsd c V) (bEf c V) (bWa c V) (bWb c V) (bWc c V) (bWd c V) (bWf c V) (bW2t c V) (bEx c V) (i 0) (i 1)

/-- The gated-message tile of blocks that are rows 2000 t … 2000 t + 1999 of the arrays, at entry j, is the message on row 2000 t + j 0. -/
private theorem gated_entry (Hs Hd : Mat 800000 128) (Xss Xsd Ef : Mat 800000 16) (Wa Wb : Mat 128 256) (Wc Wd Wf : Mat 16 256) (W2t : Mat 256 8)
    (Ex : Mat 8 128)
    (x0 x1 : Mat 2000 128) (x2 x3 x4 : Mat 2000 16) (x5 x6 : Mat 128 256) (x7 x8 x9 : Mat 16 256) (x10 : Mat 256 8) (x11 : Mat 8 128) (t : Nat)
    (h0 : ∀ (r : Fin 2000) (i : Fin 128) (e : Fin 800000), e.val = 2000 * t + r.val → x0 (ix2 r i) = Hs (ix2 e i))
    (h1 : ∀ (r : Fin 2000) (i : Fin 128) (e : Fin 800000), e.val = 2000 * t + r.val → x1 (ix2 r i) = Hd (ix2 e i))
    (h2 : ∀ (r : Fin 2000) (i : Fin 16) (e : Fin 800000), e.val = 2000 * t + r.val → x2 (ix2 r i) = Xss (ix2 e i))
    (h3 : ∀ (r : Fin 2000) (i : Fin 16) (e : Fin 800000), e.val = 2000 * t + r.val → x3 (ix2 r i) = Xsd (ix2 e i))
    (h4 : ∀ (r : Fin 2000) (i : Fin 16) (e : Fin 800000), e.val = 2000 * t + r.val → x4 (ix2 r i) = Ef (ix2 e i))
    (h5 : x5 = Wa) (h6 : x6 = Wb) (h7 : x7 = Wc) (h8 : x8 = Wd) (h9 : x9 = Wf) (h10 : x10 = W2t) (h11 : x11 = Ex)
    (j : (⟨2, ![2000, 128]⟩ : Shape).Idx) (y : (⟨2, ![800000, 128]⟩ : Shape).Idx)
    (hy0 : (y 0).val = 2000 * t + (j 0).val) (hy1 : (y 1).val = (j 1).val) :
    k0_pay2 (F := Ideal) (k0_pay3 x0) (k0_pay4 x4) (k0_pay5 x9) (k0_pay6 x0 x1 x2 x5 x6 x7) (k0_pay7 x3 x8) x10 x11 j
      = rGated Hs Hd Xss Xsd Ef Wa Wb Wc Wd Wf W2t Ex (y 0) (y 1) := by
  subst h5 h6 h7 h8 h9 h10 h11
  have hk : (y 1 : Fin 128) = (j 1 : Fin 128) := Fin.ext hy1
  refine (congrArg (k0_pay2 (F := Ideal) (k0_pay3 x0) (k0_pay4 x4) (k0_pay5 x9) (k0_pay6 x0 x1 x2 x5 x6 x7) (k0_pay7 x3 x8) x10 x11) (eq_ix2 j)).trans ?_
  refine (Pay.pay2_apply x0 x1 x2 x3 x4 x5 x6 x7 x8 x9 x10 x11 (j 0) (j 1)).trans ?_
  refine (rGated_row x0 x1 x2 x3 x4 Hs Hd Xss Xsd Ef x5 x6 x7 x8 x9 x10 x11 (j 0) (y 0)
    (fun i => h0 (j 0) i (y 0) hy0) (fun i => h1 (j 0) i (y 0) hy0) (fun i => h2 (j 0) i (y 0) hy0)
    (fun i => h3 (j 0) i (y 0) hy0) (fun i => h4 (j 0) i (y 0) hy0) (j 1)).trans ?_
  exact congrArg (rGated Hs Hd Xss Xsd Ef x5 x6 x7 x8 x9 x10 x11 (y 0)) hk.symm

/-- What point t writes back to the gated-message array is its block of G13. -/
private theorem flushed13_eq (t : Fin cfg0.N) :
    (dat0 (F := Ideal) V c).flushed 13 t = ((cfg0.win 13).blk t).view.read (Elt Ideal) (G13 c V) := by
  show (cfg0.win 13).cut (grid0.coords t) ((dat0 (F := Ideal) V c).after 13 t) = _
  rw [after0_13]
  unfold out0_13
  rw [View.canon_unit_zero off_zero]
  simp only [View.ld_unit_zero (S := S2000x128) off_zero, View.ld_unit_zero (S := S2000x16) off_zero, View.ld_unit_zero (S := S128x256) off_zero,
    View.ld_unit_zero (S := S16x256) off_zero, View.ld_unit_zero (S := S256x8) off_zero, View.ld_unit_zero (S := S8x128) off_zero]
  have hi : win0_13.index t (0 : Fin 2) = t.val ∧ win0_13.index t (1 : Fin 2) = 0 := (index_maps0 t).2.2.2.2.2.2.2.2.2.2.2.2.2
  funext j
  refine gated_entry (bHs c V) (bHd c V) (bXss c V) (bXsd c V) (bEf c V) (bWa c V) (bWb c V) (bWc c V) (bWd c V) (bWf c V) (bW2t c V) (bEx c V)
    (iblk0 V c 0 t) (iblk0 V c 1 t) (iblk0 V c 2 t) (iblk0 V c 3 t) (iblk0 V c 4 t) (iblk0 V c 5 t) (iblk0 V c 6 t) (iblk0 V c 7 t)
    (iblk0 V c 8 t) (iblk0 V c 9 t) (iblk0 V c 10 t) (iblk0 V c 11 t) t.val
    (fun r i e he => tileHs_apply c V t r i e he) (fun r i e he => tileHd_apply c V t r i e he)
    (fun r i e he => tileXss_apply c V t r i e he) (fun r i e he => tileXsd_apply c V t r i e he)
    (fun r i e he => tileEf_apply c V t r i e he)
    (resWa_eq c V t) (resWb_eq c V t) (resWc_eq c V t) (resWd_eq c V t) (resWf_eq c V t) (resW2t_eq c V t) (resEx_eq c V t)
    j (((cfg0.win 13).blk t).view.emb j) ?_ ?_
  · show win0_13.index t (0 : Fin 2) * 2000 + 1 * (j 0).val = 2000 * t.val + (j 0).val
    rw [hi.1]; omega
  · show win0_13.index t (1 : Fin 2) * 128 + 1 * (j 1).val = (j 1).val
    rw [hi.2]; omega

/-- An entry of the gated-message array is in point t's block iff each coordinate is in the block's range on its axis. -/
private theorem mem_blk13 (t : Fin cfg0.N) (i : S800000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v23_1).slice (win0_13.rect t)).set ↔ _
  rw [View.set_slice_whole, Rect.mem_set_unit]
  exact Iff.rfl

/-- Every entry (e, q) of the gated-message array is in the block of point e / 2000. -/
private theorem cover13 (i : S800000x128.Idx) : ∃ t : Fin cfg0.N, (cfg0.win 13).flush t = true ∧ i ∈ ((cfg0.win 13).blk t).view.set := by
  have hi0 : (i 0).val < 800000 := (i 0).isLt
  have hi1 : (i 1).val < 128 := (i 1).isLt
  obtain ⟨t, ht⟩ : ∃ t : Fin cfg0.N, t.val = (i 0).val / 2000 :=
    ⟨⟨(i 0).val / 2000, by rw [show cfg0.N = 400 from N_0]; omega⟩, rfl⟩
  have hi : win0_13.index t (0 : Fin 2) = t.val ∧ win0_13.index t (1 : Fin 2) = 0 := (index_maps0 t).2.2.2.2.2.2.2.2.2.2.2.2.2
  refine ⟨t, flush0_13 t, ?_⟩
  rw [mem_blk13]
  intro a
  match a with
  | ⟨0, _⟩ =>
    show win0_13.index t (0 : Fin 2) * 2000 ≤ (i 0).val ∧ (i 0).val < win0_13.index t (0 : Fin 2) * 2000 + 2000
    rw [hi.1, ht]; omega
  | ⟨1, _⟩ =>
    show win0_13.index t (1 : Fin 2) * 128 ≤ (i 1).val ∧ (i 1).val < win0_13.index t (1 : Fin 2) * 128 + 128
    rw [hi.2]; omega

/-- The gated-message array after the region is G13. -/
private theorem arr13_eq : Arr13 c V = G13 c V :=
  (dat0 (F := Ideal) V c).arrAt_eq_of_cover 13 (G13 c V) (fun t _ => flushed13_eq c V t) cover13

/-- Entry (e, q) of the gated-message array. -/
theorem arr13_apply (e : Fin 800000) (q : Fin 128) :
    Arr13 c V (ix2 e q)
      = rGated (bHs c V) (bHd c V) (bXss c V) (bXsd c V) (bEf c V) (bWa c V) (bWb c V) (bWc c V) (bWd c V) (bWf c V) (bW2t c V) (bEx c V) e q :=
  congrFun (arr13_eq c V) (ix2 e q)

end Cert.KernelIdeal.Val

end
-- ==== Proof.Region1.lean ====
/-
  The second region (the output projection over 25 row tiles of 2000 nodes): the array it leaves, read at an entry.

  The region's inputs are the aggregated array [50000, 128], tiled by 2000 rows, and the transposed weight [128, 128],
  held whole. At tile t the body multiplies the tile by the weight, and the result is tile t of ONE array, the product
  of the two inputs (entry (n, p) = sum over q of agg (n, q) * wo (q, p)): a row of the tile is row t * 2000 + (row
  inside the tile) of the array, a column is the same column. The 25 tiles cover the 50000 rows (row n lies in tile
  n / 2000), so the array the region leaves is that product, whatever it held before.
-/
import proofs.«411225_j5987184410675_1_alg».proof.Proof.Gen.KernelIdeal.Frame
import proofs.«411225_j5987184410675_1_alg».proof.Proof.Args
import proofs.«411225_j5987184410675_1_alg».proof.Proof.Pay
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- The two zero offsets of a whole-buffer access, however spelt. -/
private theorem zero_off : (![0, 0] : Fin 2 → Nat) = fun _ => 0 := funext fun a => by fin_cases a <;> rfl

/-- The product of an aggregated array with a transposed weight, as one array: entry (n, p) is the sum over q of
    a (n, q) * w (q, p). -/
private abbrev projOf (a : Mat 50000 128) (w : Mat 128 128) : Mat 50000 128 :=
  fun i => ∑ q : Fin 128, a (ix2 (i 0) q) * w (ix2 q (i 1))

/-- The index maps over the 25 row tiles: the aggregated rows' tile and the output's tile are both tile t at column
    block 0; the weight is its one block. -/
private theorem tile_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The body's product of a tile of 2000 rows with the whole weight, at an index of the tile. -/
private theorem pay_at (x0 : Mat 2000 128) (x1 : Mat 128 128) (y : S2000x128.Idx) :
    k1_pay1 (F := Ideal) x0 x1 y = ∑ q : Fin 128, x0 (ix2 (y 0) q) * x1 (ix2 q (y 1)) := by
  rw [eq_ix2 y]
  exact Pay.pay_k1_apply x0 x1 (y 0) (y 1)

/-- An entry of the aggregated rows' tile at point t is the array's entry at row t * 2000 + (row inside the tile). -/
private theorem agg_tile (a : Mat 50000 128) (t : Fin cfg1.N) (y : S2000x128.Idx) (q : Fin 128) :
    ((cfg1.win 0).blk t).view.read (Elt Ideal) a (ix2 (y 0) q)
      = a (ix2 ((((cfg1.win 2).blk t).view.emb y) 0) q) := by
  obtain ⟨e0, e1, e2, e3, e4, e5⟩ := tile_facts t
  show a (((cfg1.win 0).blk t).view.emb (ix2 (y 0) q)) = _
  congr 1
  funext ax; apply Fin.ext
  match ax with
  | ⟨0, _⟩ =>
    show win1_0.index t (0 : Fin 2) * 2000 + 1 * (y 0).val = win1_2.index t (0 : Fin 2) * 2000 + 1 * (y 0).val
    omega
  | ⟨1, _⟩ =>
    show win1_0.index t (1 : Fin 2) * 128 + 1 * q.val = q.val
    omega

/-- The weight's one block at any point is the whole weight. -/
private theorem wo_tile (w : Mat 128 128) (t : Fin cfg1.N) (q p : Fin 128) :
    ((cfg1.win 1).blk t).view.read (Elt Ideal) w (ix2 q p) = w (ix2 q p) := by
  obtain ⟨e0, e1, e2, e3, e4, e5⟩ := tile_facts t
  show w (((cfg1.win 1).blk t).view.emb (ix2 q p)) = _
  congr 1
  funext ax; apply Fin.ext
  match ax with
  | ⟨0, _⟩ =>
    show win1_1.index t (0 : Fin 2) * 128 + 1 * q.val = q.val
    omega
  | ⟨1, _⟩ =>
    show win1_1.index t (1 : Fin 2) * 128 + 1 * p.val = p.val
    omega

/-- The column of an output tile's entry in the array is its column inside the tile. -/
private theorem out_col (t : Fin cfg1.N) (y : S2000x128.Idx) :
    ((((cfg1.win 2).blk t).view.emb y) 1).val = (y 1).val := by
  obtain ⟨e0, e1, e2, e3, e4, e5⟩ := tile_facts t
  show win1_2.index t (1 : Fin 2) * 128 + 1 * (y 1).val = (y 1).val
  omega

/-- What point t writes back is tile t of the product of the two arrays as the region finds them. -/
private theorem flushed_eq (t : Fin cfg1.N) :
    (dat1 (F := Ideal) V c).flushed 2 t
      = ((cfg1.win 2).blk t).view.read (Elt Ideal) (projOf (bAgg c V) (bWo c V)) := by
  show (cfg1.win 2).cut (grid1.coords t) ((dat1 (F := Ideal) V c).after 2 t) = _
  rw [after1_2]
  unfold out1_2
  rw [View.canon_unit_zero zero_off]
  simp only [View.ld_unit_zero (S := S2000x128) zero_off, View.ld_unit_zero (S := S128x128) zero_off]
  funext y
  show k1_pay1 (F := Ideal) (iblk1 V c 0 t) (iblk1 V c 1 t) y
    = projOf (bAgg c V) (bWo c V) (((cfg1.win 2).blk t).view.emb y)
  rw [pay_at]
  refine Finset.sum_congr rfl fun q _ => ?_
  have hA : iblk1 (F := Ideal) V c 0 t (ix2 (y 0) q)
      = bAgg c V (ix2 ((((cfg1.win 2).blk t).view.emb y) 0) q) := agg_tile (bAgg c V) t y q
  have hW : iblk1 (F := Ideal) V c 1 t (ix2 q (y 1)) = bWo c V (ix2 q (y 1)) := wo_tile (bWo c V) t q (y 1)
  have hc : (y 1) = (((cfg1.win 2).blk t).view.emb y) 1 := Fin.ext (out_col t y).symm
  rw [hA, hW, hc]

/-- An index of the array is in point t's tile iff each coordinate is in the tile's range on its axis. -/
private theorem mem_tile (t : Fin cfg1.N) (i : S50000x128.Idx) :
    i ∈ ((cfg1.win 2).blk t).view.set
      ↔ ∀ a : Fin 2, win1_2.index t a * S2000x128.size a ≤ (i a).val
          ∧ (i a).val < win1_2.index t a * S2000x128.size a + S2000x128.size a := by
  show i ∈ ((View.whole main_v28).slice (win1_2.rect t)).set ↔ _
  rw [View.set_slice_whole, Rect.mem_set_unit]
  exact Iff.rfl

/-- The 25 tiles of 2000 rows cover the 50000 rows: row n is in tile n / 2000. -/
private theorem tiles_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : (i 0).val / 2000 < cfg1.N := by
    show (i 0).val / 2000 < grid1.N
    rw [N_1]; omega
  refine ⟨⟨(i 0).val / 2000, hN⟩, flush1_2 _, ?_⟩
  rw [mem_tile]
  obtain ⟨e0, e1, e2, e3, e4, e5⟩ := tile_facts ⟨(i 0).val / 2000, hN⟩
  have q0 : win1_2.index ⟨(i 0).val / 2000, hN⟩ (0 : Fin 2) = (i 0).val / 2000 := e4
  intro a
  match a with
  | ⟨0, _⟩ =>
    show win1_2.index ⟨(i 0).val / 2000, hN⟩ (0 : Fin 2) * 2000 ≤ (i 0).val
      ∧ (i 0).val < win1_2.index ⟨(i 0).val / 2000, hN⟩ (0 : Fin 2) * 2000 + 2000
    omega
  | ⟨1, _⟩ =>
    show win1_2.index ⟨(i 0).val / 2000, hN⟩ (1 : Fin 2) * 128 ≤ (i 1).val
      ∧ (i 1).val < win1_2.index ⟨(i 0).val / 2000, hN⟩ (1 : Fin 2) * 128 + 128
    omega

/-- The array the region leaves is the product of its two inputs. -/
private theorem arr2_eq : Arr2 c V = projOf (bAgg c V) (bWo c V) :=
  (dat1 (F := Ideal) V c).arrAt_eq_of_cover 2 (projOf (bAgg c V) (bWo c V)) (fun t _ => flushed_eq c V t) tiles_cover

/-- Entry (n, p) of the projected array is the sum over q of the aggregated row n times the transposed weight column p. -/
theorem arr2_apply (n : Fin 50000) (p : Fin 128) :
    Arr2 c V (ix2 n p) = ∑ q : Fin 128, bAgg c V (ix2 n q) * bWo c V (ix2 q p) := by
  rw [arr2_eq]

end Cert.KernelIdeal.Val

end
-- ==== Proof.LibRowGatherScatter.lean ====
/-
  A row gather followed by a row scatter-add, read at an entry (a general lemma: nothing here depends on a program).

  For an operand of shape [N, W], index arrays of shape [E, 1] and updates of shape [E, W], the row scatter-add
  (update window axis 1, inserted window axis 0, scatter axis 0, index vector axis 1) at entry (n, q) is x[n, q]
  plus the sum, over the edges e whose index dst[e], read signed, is n, of the update (e, q): an edge whose index
  is not a row contributes nothing. The row gather (offset axis 1, collapsed axis 0, start index map [0], index
  vector axis 1, slice sizes [1, W]) at (e, q) is the operand at row min(src[e], N - 1) (the index read signed and
  clamped), column q. Their composition therefore acts on every column by itself (`pass_apply`).
-/
import Idealize.ShloMosaic.Lib.ValueIdx
import Idealize.ShloMosaic.PureOps.Ideal.Laws

noncomputable section

namespace Cert.Lib.RowPass

open Idealize.ShloMosaic Idealize.ShloMosaic.ValueIdx

section Generic

/-- The row scatter's dimension numbers over an operand [N, W], indices [E, 1] and updates [E, W]. -/
abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

/-- On the row axis the window of update (e, q) starts at dst[e], read signed. -/
theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

/-- On the column axis every window starts at 0. -/
theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

/-- The row axis is inserted: the window coordinate there is 0. -/
theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

/-- On the column axis the window coordinate of update (e, q) is q. -/
theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

/-- An axis of a rank-2 shape is 0 or 1. -/
theorem fin2_cases (a : Fin 2) : a = 0 ∨ a = 1 := by
  revert a; decide

/-- Update (e, q) lands at (n, q') exactly when dst[e] = n and q = q' (an update whose dst[e] is not a row lands
    nowhere). -/
theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

/-- The scatter-add at entry (n, q): x[n, q] plus the sum over the edges e with dst[e] = n of the update (e, q). -/
theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

/-- The row gather's dimension numbers over an operand [N, W], start indices [E, 1] and a result [E, W]. -/
abbrev gaD (N E W : Nat) (wfg : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wfg

variable (wfg : GatherDims.WF ⟨2, ![N, W]⟩ ⟨2, ![E, 1]⟩ ⟨2, ![E, W]⟩ [1] [0] [] [0] [] 1 ![1, W])

/-- On the row axis the slice of result (e, q) starts at src[e], read signed and clamped into [0, N - 1]. -/
theorem ga_start0 (idx : IVec ⟨2, ![E, 1]⟩ w) (e : Fin E) (q : Fin W) :
    (gaD N E W wfg).start (ix2 e q) idx 0 = min (idx (ix2 e 0)).toInt.toNat (N - 1) := by
  unfold GatherDims.start
  rw [dif_pos (show (0 : Fin 2) ∈ (gaD N E W wfg).startIndexMap from List.mem_singleton.mpr rfl)]
  have hsi : (gaD N E W wfg).siIdx (ix2 e q) ⟨List.idxOf (0 : Fin 2) (gaD N E W wfg).startIndexMap,
      List.idxOf_lt_length_iff.2 (List.mem_singleton.mpr rfl)⟩ = ix2 e 0 := by
    funext b
    match b with
    | ⟨0, _⟩ => rfl
    | ⟨1, _⟩ => rfl
  rw [hsi]
  rfl

/-- On the column axis every slice starts at 0. -/
theorem ga_start1 (idx : IVec ⟨2, ![E, 1]⟩ w) (e : Fin E) (q : Fin W) :
    (gaD N E W wfg).start (ix2 e q) idx 1 = 0 := by
  unfold GatherDims.start
  rw [dif_neg (show (1 : Fin 2) ∉ ([0] : List (Fin 2)) by decide)]

/-- The row axis is collapsed: the offset coordinate there is 0. -/
theorem ga_off0 (e : Fin E) (q : Fin W) : (gaD N E W wfg).offCoord (ix2 e q) 0 = 0 := by
  unfold GatherDims.offCoord
  have h : (0 : Fin 2) ∉ (gaD N E W wfg).sKept :=
    (by decide : (0 : Fin 2) ∉ (List.finRange 2).filter (fun a => a ∉ ([0] ++ [] : List (Fin 2))))
  rw [dif_neg h]

/-- On the column axis the offset coordinate of result (e, q) is q. -/
theorem ga_off1 (e : Fin E) (q : Fin W) : (gaD N E W wfg).offCoord (ix2 e q) 1 = q.val := by
  unfold GatherDims.offCoord
  have h : (1 : Fin 2) ∈ (gaD N E W wfg).sKept :=
    (by decide : (1 : Fin 2) ∈ (List.finRange 2).filter (fun a => a ∉ ([0] ++ [] : List (Fin 2))))
  rw [dif_pos h]
  rfl

/-- The gather at (e, q): the operand at row min(src[e], N - 1), column q. -/
theorem ga_apply {α : Type} (hN : 0 < N) (H : (⟨2, ![N, W]⟩ : Shape).Idx → α) (idx : IVec ⟨2, ![E, 1]⟩ w)
    (e : Fin E) (q : Fin W) :
    Host.gather (gaD N E W wfg) H idx (ix2 e q)
      = H (ix2 ⟨min (idx (ix2 e 0)).toInt.toNat (N - 1), by omega⟩ q) := by
  unfold Host.gather
  congr 1
  funext a
  refine Fin.ext ?_
  rcases fin2_cases a with rfl | rfl
  · show (gaD N E W wfg).start (ix2 e q) idx 0 + (gaD N E W wfg).batchCoord (ix2 e q) 0
      + (gaD N E W wfg).offCoord (ix2 e q) 0 = min (idx (ix2 e 0)).toInt.toNat (N - 1)
    rw [ga_start0, ga_off0, GatherDims.batchCoord_eq_zero _ _ _ List.not_mem_nil, Nat.add_zero]
  · show (gaD N E W wfg).start (ix2 e q) idx 1 + (gaD N E W wfg).batchCoord (ix2 e q) 1
      + (gaD N E W wfg).offCoord (ix2 e q) 1 = q.val
    rw [ga_start1, ga_off1, GatherDims.batchCoord_eq_zero _ _ _ List.not_mem_nil]
    omega

/-- The gather-then-scatter-add at entry (n, q): x[n, q] plus the sum over the edges e whose target is n of H at the
    clamped source row of e, column q. -/
theorem pass_apply (hN : 0 < N) (H x : (⟨2, ![N, W]⟩ : Shape).Idx → EReal) (idxd idxs : IVec ⟨2, ![E, 1]⟩ w)
    (n : Fin N) (q : Fin W) :
    Ideal.hostScatterAdd (scD N E W wf) x idxd (Host.gather (gaD N E W wfg) H idxs) (ix2 n q)
      = x (ix2 n q) + ∑ e : Fin E, if (idxd (ix2 e 0)).toInt = (n.val : Int)
          then H (ix2 ⟨min (idxs (ix2 e 0)).toInt.toNat (N - 1), by omega⟩ q) else 0 := by
  rw [sc_apply]
  congr 1
  refine Finset.sum_congr rfl fun e _ => ?_
  rw [ga_apply wfg hN]

end Generic

end Cert.Lib.RowPass

end
-- ==== Proof.HostTake.lean ====
/-
  The four row gathers before the first region (node rows and static rows at the source and at the target of every
  edge), each read at an entry: with every index word in [-50000, 50000) the normalised index is a row, the range test
  passes, and the gathered row is the argument's row `rowOf` of the word.
-/
import proofs.«411225_j5987184410675_1_alg».proof.Proof.Gen.KernelIdeal.Frame
import proofs.«411225_j5987184410675_1_alg».proof.Proof.Args
import proofs.«411225_j5987184410675_1_alg».proof.Proof.LibRowGatherScatter
import Idealize.ShloMosaic.Lib.StableHlo.Run

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- A word in [-50000, 50000), normalised, is a row index. -/
theorem wrapW_range (x : BitVec 32) (h : -50000 ≤ x.toInt ∧ x.toInt < 50000) : 0 ≤ (wrapW x).toInt ∧ (wrapW x).toInt ≤ 49999 := by
  obtain ⟨h1, h2⟩ := h
  show 0 ≤ (if BitVec.ofBool (x.slt 0#32) = 1 then x + 50000#32 else x).toInt
    ∧ (if BitVec.ofBool (x.slt 0#32) = 1 then x + 50000#32 else x).toInt ≤ 49999
  by_cases hx : x.toInt < 0
  · have hs : x.slt 0#32 = true := by
      simp only [BitVec.slt, BitVec.toInt_zero, decide_eq_true_eq]; exact hx
    have hc : BitVec.ofBool (x.slt 0#32) = 1 := by rw [hs]; rfl
    rw [if_pos hc]
    have ht : (x + 50000#32).toInt = x.toInt + 50000 := by
      have h5 : (50000#32 : BitVec 32).toInt = 50000 := by decide
      rw [BitVec.toInt_add, h5]
      exact Int.bmod_eq_of_le (by omega) (by omega)
    omega
  · have hs : x.slt 0#32 = false := by
      simp only [BitVec.slt, BitVec.toInt_zero, decide_eq_false_iff_not]; exact hx
    have hc : ¬ BitVec.ofBool (x.slt 0#32) = 1 := by rw [hs]; decide
    rw [if_neg hc]
    omega

/-- A word that is a row index passes the range test of a gather. -/
private theorem inrow_mask (y : BitVec 32) (h0 : 0 ≤ y.toInt) (h1 : y.toInt ≤ 49999) :
    IntOp.andi (IntOp.cmpi .sge y 0#32) (IntOp.cmpi .sle y 49999#32) = 1#1 := by
  have a : (0#32 : BitVec 32).sle y = true := by
    simp only [BitVec.sle, BitVec.toInt_zero, decide_eq_true_eq]; exact h0
  have b : y.sle 49999#32 = true := by
    have h4 : (49999#32 : BitVec 32).toInt = 49999 := by decide
    simp only [BitVec.sle, h4, decide_eq_true_eq]; exact h1
  show BitVec.ofBool ((0#32 : BitVec 32).sle y) &&& BitVec.ofBool (y.sle 49999#32) = 1#1
  rw [a, b]; decide

/-- A left fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A reduction by `and` from 1 of an array whose every entry is 1 is 1 at every index. -/
private theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x _ fun n _ => hx n

/-- A select whose condition is 1 at an entry is its first branch there. -/
private theorem select_of_one {s : Shape} {α : Type} (cnd : IVec s 1) (a b : s.Idx → α) (i : s.Idx) (h : cnd i = 1#1) :
    select cnd a b i = a i := by
  show (if cnd i = 1 then a i else b i) = a i
  exact if_pos h

/-- A vector laid out as a column reads, at row `e`, the vector at `e`. -/
private theorem bcast_col_apply {α : Type} {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  simp only [broadcastInDim]
  congr 1
  funext a
  have ha : a = 0 := Subsingleton.elim _ _
  subst ha
  apply Fin.ext
  have hp := e.isLt
  split
  · next h1 => change n = 1 at h1; show (0 : Nat) = e.val; omega
  · rfl

/-- A broadcast of an array whose every entry is `c` is `c` at every index. -/
private theorem bcast_const {α : Type} {s t : Shape} (dims : Fin s.rank → Fin t.rank) (h : s.BroadcastsInDim t dims)
    (x : s.Idx → α) (c : α) (hx : ∀ i, x i = c) (j : t.Idx) : broadcastInDim t dims h x j = c := by
  unfold broadcastInDim
  exact hx _

/-- The range test of a word array at an entry where the word is a row index and the bounds are 0 and 49999. -/
private theorem mask_entry {s : Shape} (v z hi : s.Idx → BitVec 32) (i : s.Idx) (hz : z i = 0#32) (hh : hi i = 49999#32)
    (h0 : 0 ≤ (v i).toInt) (h1 : (v i).toInt ≤ 49999) : andi (cmpi .sge v z) (cmpi .sle v hi) i = 1#1 := by
  show IntOp.andi (IntOp.cmpi .sge (v i) (z i)) (IntOp.cmpi .sle (v i) (hi i)) = 1#1
  rw [hz, hh]; exact inrow_mask _ h0 h1

/-- Contents carried to a buffer's own type and back are the contents. -/
private theorem ofBuf_toBuf {Val : EltTy → Type} {T : BufTy} (x : StableHlo.TRef sig T) (v : T.Contents Val) :
    x.ofBuf (x.toBuf v) = v := by
  obtain ⟨r, h, h2, h3⟩ := x
  subst h
  rfl

/-! ## One gather of rows, read at an entry

The index words are normalised (`wrapW`), laid out as a column, tested against [0, 49999] (the test reduced over the
column's one entry), and the rows gathered; where the test fails the result is the other branch. With every word in
[-50000, 50000) the test passes everywhere, and the result at (e, q) is the operand's row `rowOf` of word `e`, column
`q`. -/

section Take

variable {Wd : Nat}
  (b0 : S_.BroadcastsInDim S800000 (![] : Fin 0 → Fin S800000.rank))
  (b1 : S800000.BroadcastsInDim S800000x1 (![0] : Fin 1 → Fin S800000x1.rank))
  (b2 : S_.BroadcastsInDim S800000x1 (![] : Fin 0 → Fin S800000x1.rank))
  (b3 : S1.BroadcastsInDim S1x1 (![1] : Fin 1 → Fin S1x1.rank))
  (b4 : S1x1.BroadcastsInDim S800000x1 (![0, 1] : Fin 2 → Fin S800000x1.rank))
  (hr : S800000x1.ReducesTo [1] S800000) (hS : 0 < S_.numel)
  (b5 : S800000.BroadcastsInDim (⟨2, ![800000, Wd]⟩ : Shape) (![0] : Fin 1 → Fin 2))
  (wfg : GatherDims.WF (⟨2, ![50000, Wd]⟩ : Shape) ⟨2, ![800000, 1]⟩ ⟨2, ![800000, Wd]⟩ [1] [0] [] [0] [] 1 ![1, Wd])
  (H : Mat 50000 Wd) (idx : S800000.Idx → BitVec 32) (other : Mat 800000 Wd)

/-- The gather's term at (e, q): the operand's row `rowOf` of word `e`, column `q`. -/
private theorem take_apply (gd : GatherDims (⟨2, ![50000, Wd]⟩ : Shape) ⟨2, ![800000, 1]⟩ ⟨2, ![800000, Wd]⟩)
    (hgd : gd = Cert.Lib.RowPass.gaD 50000 800000 Wd wfg) (hin : ∀ i, -50000 ≤ (idx i).toInt ∧ (idx i).toInt < 50000) (e : Fin 800000) (q : Fin Wd) :
    select
      (broadcastInDim (⟨2, ![800000, Wd]⟩ : Shape) ![0] b5
        (Host.reduce IntOp.andi
          (andi
            (cmpi .sge
              (broadcastInDim S800000x1 ![0] b1
                (select (cmpi .slt idx (broadcastInDim S800000 ![] b0 (constantI S_ 32 0#32)))
                  (addi idx (broadcastInDim S800000 ![] b0 (constantI S_ 32 50000#32))) idx))
              (broadcastInDim S800000x1 ![] b2 (constantI S_ 32 0#32)))
            (cmpi .sle
              (broadcastInDim S800000x1 ![0] b1
                (select (cmpi .slt idx (broadcastInDim S800000 ![] b0 (constantI S_ 32 0#32)))
                  (addi idx (broadcastInDim S800000 ![] b0 (constantI S_ 32 50000#32))) idx))
              (broadcastInDim S800000x1 ![0, 1] b4 (broadcastInDim S1x1 ![1] b3 (constantI S1 32 49999#32)))))
          (constantI S_ 1 1#1) hr hS))
      (Host.gather gd H
        (broadcastInDim S800000x1 ![0] b1
          (select (cmpi .slt idx (broadcastInDim S800000 ![] b0 (constantI S_ 32 0#32)))
            (addi idx (broadcastInDim S800000 ![] b0 (constantI S_ 32 50000#32))) idx)))
      other (ix2 e q)
      = H (ix2 (rowOf (idx (ix1 e))) q) := by
  subst hgd
  -- the normalised words, entry by entry
  have hv4 : ∀ k : S800000.Idx,
      (select (cmpi .slt idx (broadcastInDim S800000 ![] b0 (constantI S_ 32 0#32)))
        (addi idx (broadcastInDim S800000 ![] b0 (constantI S_ 32 50000#32))) idx) k = wrapW (idx k) := fun k => rfl
  -- every entry of the column is such a word
  have hv5 : ∀ i : S800000x1.Idx, ∃ k : S800000.Idx,
      (broadcastInDim S800000x1 ![0] b1
        (select (cmpi .slt idx (broadcastInDim S800000 ![] b0 (constantI S_ 32 0#32)))
          (addi idx (broadcastInDim S800000 ![] b0 (constantI S_ 32 50000#32))) idx)) i = wrapW (idx k) :=
    fun i => ⟨_, rfl⟩
  rw [select_of_one]
  · rw [Cert.Lib.RowPass.ga_apply wfg (by omega)]
    refine congrArg (fun r => H (ix2 r q)) (Fin.ext ?_)
    exact congrArg (fun y : BitVec 32 => min y.toInt.toNat 49999) ((bcast_col_apply b1 _ e 0).trans (hv4 _))
  · refine bcast_const _ _ _ _ (fun j => ?_) _
    refine reduce_andi_one _ _ hr hS (fun i => ?_) (fun _ => rfl) j
    obtain ⟨k, hk⟩ := hv5 i
    obtain ⟨h0, h1⟩ := wrapW_range _ (hin k)
    refine mask_entry _ _ _ i rfl rfl ?_ ?_
    · rw [hk]; exact h0
    · rw [hk]; exact h1

end Take

/-! ## The two rows of the edge array, each as a vector, read at an entry -/

/-- Row `r` of the edge array sliced out and flattened reads, at `e`, the array at (r, e). -/
private theorem slice_row_apply {α : Type} (r : Nat) (hr : r < 2) (h : S2x800000.Slices ![r, 0] S1x800000)
    (hc : S1x800000.ShapeCasts S800000) (x : S2x800000.Idx → α) (e : Fin 800000) :
    shapeCast S800000 (extractStridedSlice S1x800000 ![r, 0] x h) hc (ix1 e) = x (ix2 ⟨r, hr⟩ e) := by
  have hk : Shape.reshapeEquiv hc (ix1 e) = (ix2 0 e : S1x800000.Idx) :=
    Shape.reshapeEquiv_eq_of_rowMajor hc (by
      rw [Shape.rowMajor_val_two, Shape.rowMajor_val_one]
      show 0 * 800000 + e.val = e.val
      omega)
  show extractStridedSlice S1x800000 ![r, 0] x h (Shape.reshapeEquiv hc (ix1 e)) = _
  rw [hk]
  unfold extractStridedSlice
  congr 1
  funext a
  match a with
  | ⟨0, _⟩ => exact Fin.ext (by show r + 0 = r; rfl)
  | ⟨1, _⟩ => exact Fin.ext (by show 0 + e.val = e.val; omega)

/-! ## The stretches, over any contents `Wp` they start from -/

/-- A buffer no operation of a stretch writes keeps its contents: the references are told apart one by one. -/
local macro "not_written" : tactic => `(tactic| (
  refine StableHlo.after_of_forall_not_mem _ _ (List.forall_iff_forall_mem.mp ?_)
  simp only [hostOps0, hostOps0_1, hostOps0_2, hostOps0_3, hostOps0_4, hostOps0_5, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Stretches

variable (Wp : Valuation τ sig (Elt Ideal))

/-- The sources' vector (row 1 of the edge array) after the first stretch. -/
private theorem ops0_v1 (e : Fin 800000) :
    (StableHlo.after hostOps0 Wp (Proc.devRef .tc main_v1) : S800000.Idx → BitVec 32) (ix1 e)
      = (Wp (Proc.devRef .tc main_arg2) : S2x800000.Idx → BitVec 32) (ix2 1 e) := by
  have E : (StableHlo.after hostOps0 Wp (Proc.devRef .tc main_v1) : S800000.Idx → BitVec 32)
      = shapeCast S800000 (extractStridedSlice S1x800000 ![1, 0]
          (Wp (Proc.devRef .tc main_arg2) : S2x800000.Idx → BitVec 32) slices_S2x800000_S1x800000_1_0)
          shapeCasts_S1x800000_S800000 := by
    after_results; rfl
  rw [E]
  exact slice_row_apply 1 (by omega) _ _ _ e

/-- The targets' vector (row 0 of the edge array) after the first stretch. -/
private theorem ops0_v3 (e : Fin 800000) :
    (StableHlo.after hostOps0 Wp (Proc.devRef .tc main_v3) : S800000.Idx → BitVec 32) (ix1 e)
      = (Wp (Proc.devRef .tc main_arg2) : S2x800000.Idx → BitVec 32) (ix2 0 e) := by
  have E : (StableHlo.after hostOps0 Wp (Proc.devRef .tc main_v3) : S800000.Idx → BitVec 32)
      = shapeCast S800000 (extractStridedSlice S1x800000 ![0, 0]
          (Wp (Proc.devRef .tc main_arg2) : S2x800000.Idx → BitVec 32) slices_S2x800000_S1x800000_0_0)
          shapeCasts_S1x800000_S800000 := by
    after_results; rfl
  rw [E]
  exact slice_row_apply 0 (by omega) _ _ _ e

private theorem ops0_arg0 : StableHlo.after hostOps0 Wp (Proc.devRef .tc main_arg0) = Wp (Proc.devRef .tc main_arg0) := by not_written
private theorem ops1_arg0 : StableHlo.after hostOps0_1 Wp (Proc.devRef .tc main_arg0) = Wp (Proc.devRef .tc main_arg0) := by not_written
private theorem ops0_arg1 : StableHlo.after hostOps0 Wp (Proc.devRef .tc main_arg1) = Wp (Proc.devRef .tc main_arg1) := by not_written
private theorem ops1_arg1 : StableHlo.after hostOps0_1 Wp (Proc.devRef .tc main_arg1) = Wp (Proc.devRef .tc main_arg1) := by not_written
private theorem ops2_arg1 : StableHlo.after hostOps0_2 Wp (Proc.devRef .tc main_arg1) = Wp (Proc.devRef .tc main_arg1) := by not_written
private theorem ops3_arg1 : StableHlo.after hostOps0_3 Wp (Proc.devRef .tc main_arg1) = Wp (Proc.devRef .tc main_arg1) := by not_written
private theorem ops1_v1 : StableHlo.after hostOps0_1 Wp (Proc.devRef .tc main_v1) = Wp (Proc.devRef .tc main_v1) := by not_written
private theorem ops2_v1 : StableHlo.after hostOps0_2 Wp (Proc.devRef .tc main_v1) = Wp (Proc.devRef .tc main_v1) := by not_written
private theorem ops1_v3 : StableHlo.after hostOps0_1 Wp (Proc.devRef .tc main_v3) = Wp (Proc.devRef .tc main_v3) := by not_written
private theorem ops2_v3 : StableHlo.after hostOps0_2 Wp (Proc.devRef .tc main_v3) = Wp (Proc.devRef .tc main_v3) := by not_written
private theorem ops3_v3 : StableHlo.after hostOps0_3 Wp (Proc.devRef .tc main_v3) = Wp (Proc.devRef .tc main_v3) := by not_written
private theorem ops2_v4 : StableHlo.after hostOps0_2 Wp (Proc.devRef .tc main_v4) = Wp (Proc.devRef .tc main_v4) := by not_written
private theorem ops3_v4 : StableHlo.after hostOps0_3 Wp (Proc.devRef .tc main_v4) = Wp (Proc.devRef .tc main_v4) := by not_written
private theorem ops4_v4 : StableHlo.after hostOps0_4 Wp (Proc.devRef .tc main_v4) = Wp (Proc.devRef .tc main_v4) := by not_written
private theorem ops5_v4 : StableHlo.after hostOps0_5 Wp (Proc.devRef .tc main_v4) = Wp (Proc.devRef .tc main_v4) := by not_written
private theorem ops3_v5 : StableHlo.after hostOps0_3 Wp (Proc.devRef .tc main_v5) = Wp (Proc.devRef .tc main_v5) := by not_written
private theorem ops4_v5 : StableHlo.after hostOps0_4 Wp (Proc.devRef .tc main_v5) = Wp (Proc.devRef .tc main_v5) := by not_written
private theorem ops5_v5 : StableHlo.after hostOps0_5 Wp (Proc.devRef .tc main_v5) = Wp (Proc.devRef .tc main_v5) := by not_written
private theorem ops4_v6 : StableHlo.after hostOps0_4 Wp (Proc.devRef .tc main_v6) = Wp (Proc.devRef .tc main_v6) := by not_written
private theorem ops5_v6 : StableHlo.after hostOps0_5 Wp (Proc.devRef .tc main_v6) = Wp (Proc.devRef .tc main_v6) := by not_written
private theorem ops5_v7 : StableHlo.after hostOps0_5 Wp (Proc.devRef .tc main_v7) = Wp (Proc.devRef .tc main_v7) := by not_written

set_option maxHeartbeats 1000000 in
/-- The first gather: the node rows at the sources. -/
private theorem take1_apply
    (hin : ∀ i, -50000 ≤ ((Wp (Proc.devRef .tc main_v1) : S800000.Idx → BitVec 32) i).toInt
      ∧ ((Wp (Proc.devRef .tc main_v1) : S800000.Idx → BitVec 32) i).toInt < 50000)
    (e : Fin 800000) (q : Fin 128) :
    (StableHlo.after hostOps0_1 Wp (Proc.devRef .tc main_v4) : S800000x128.Idx → EReal) (ix2 e q)
      = (Wp (Proc.devRef .tc main_arg0) : S50000x128.Idx → EReal)
          (ix2 (rowOf ((Wp (Proc.devRef .tc main_v1) : S800000.Idx → BitVec 32) (ix1 e))) q) := by
  have hH : ((StableHlo.TRef.of main_arg0 : StableHlo.TRef sig ⟨S50000x128, .f32⟩).ofBuf (Val := Elt Ideal) (Wp (Proc.devRef .tc main_arg0))
      : S50000x128.Idx → EReal) = Wp (Proc.devRef .tc main_arg0) := rfl
  have hI : ((StableHlo.TRef.of main_v1 : StableHlo.TRef sig ⟨S800000, .i32⟩).ofBuf (Val := Elt Ideal) (Wp (Proc.devRef .tc main_v1))
      : S800000.Idx → BitVec 32) = Wp (Proc.devRef .tc main_v1) := rfl
  have hO : ∀ X : S800000x128.Idx → EReal,
      ((StableHlo.TRef.of main_v4 : StableHlo.TRef sig ⟨S800000x128, .f32⟩).toBuf (Val := Elt Ideal) X : S800000x128.Idx → EReal) = X := by intro X; rfl
  refine Eq.trans (congrFun ?_ (ix2 e q))
    ((take_apply (Wd := 128) bcast_S_S800000 bcast_S800000_S800000x1_0 bcast_S_S800000x1 bcast_S1_S1x1_1
      bcast_S1x1_S800000x1_0_1 reducesTo_S800000x1_S800000_d1 h_S_ bcast_S800000_S800000x128_0
      gather_S50000x128_S800000x1_S800000x128_1_0_n_n_0_1_1128_wf
      ((StableHlo.TRef.of main_arg0 : StableHlo.TRef sig ⟨S50000x128, .f32⟩).ofBuf (Wp (Proc.devRef .tc main_arg0)))
      ((StableHlo.TRef.of main_v1 : StableHlo.TRef sig ⟨S800000, .i32⟩).ofBuf (Wp (Proc.devRef .tc main_v1)))
      (broadcastInDim S800000x128 ![] bcast_S_S800000x128 (constant (F := Ideal) S_ .f32 0x7FC00000#32))
      gather_S50000x128_S800000x1_S800000x128_1_0_n_n_0_1_1128 rfl
      (by rw [hI]; exact hin) e q).trans ?_)
  · after_results_simp
    repeat rw [ofBuf_toBuf]
    refine (hO _).trans ?_
    rfl
  · rw [hH, hI]

set_option maxHeartbeats 1000000 in
/-- The second gather: the node rows at the targets. -/
private theorem take2_apply
    (hin : ∀ i, -50000 ≤ ((Wp (Proc.devRef .tc main_v3) : S800000.Idx → BitVec 32) i).toInt
      ∧ ((Wp (Proc.devRef .tc main_v3) : S800000.Idx → BitVec 32) i).toInt < 50000)
    (e : Fin 800000) (q : Fin 128) :
    (StableHlo.after hostOps0_2 Wp (Proc.devRef .tc main_v5) : S800000x128.Idx → EReal) (ix2 e q)
      = (Wp (Proc.devRef .tc main_arg0) : S50000x128.Idx → EReal)
          (ix2 (rowOf ((Wp (Proc.devRef .tc main_v3) : S800000.Idx → BitVec 32) (ix1 e))) q) := by
  have hH : ((StableHlo.TRef.of main_arg0 : StableHlo.TRef sig ⟨S50000x128, .f32⟩).ofBuf (Val := Elt Ideal) (Wp (Proc.devRef .tc main_arg0))
      : S50000x128.Idx → EReal) = Wp (Proc.devRef .tc main_arg0) := rfl
  have hI : ((StableHlo.TRef.of main_v3 : StableHlo.TRef sig ⟨S800000, .i32⟩).ofBuf (Val := Elt Ideal) (Wp (Proc.devRef .tc main_v3))
      : S800000.Idx → BitVec 32) = Wp (Proc.devRef .tc main_v3) := rfl
  have hO : ∀ X : S800000x128.Idx → EReal,
      ((StableHlo.TRef.of main_v5 : StableHlo.TRef sig ⟨S800000x128, .f32⟩).toBuf (Val := Elt Ideal) X : S800000x128.Idx → EReal) = X := by intro X; rfl
  refine Eq.trans (congrFun ?_ (ix2 e q))
    ((take_apply (Wd := 128) bcast_S_S800000 bcast_S800000_S800000x1_0 bcast_S_S800000x1 bcast_S1_S1x1_1
      bcast_S1x1_S800000x1_0_1 reducesTo_S800000x1_S800000_d1 h_S_ bcast_S800000_S800000x128_0
      gather_S50000x128_S800000x1_S800000x128_1_0_n_n_0_1_1128_wf
      ((StableHlo.TRef.of main_arg0 : StableHlo.TRef sig ⟨S50000x128, .f32⟩).ofBuf (Wp (Proc.devRef .tc main_arg0)))
      ((StableHlo.TRef.of main_v3 : StableHlo.TRef sig ⟨S800000, .i32⟩).ofBuf (Wp (Proc.devRef .tc main_v3)))
      (broadcastInDim S800000x128 ![] bcast_S_S800000x128 (constant (F := Ideal) S_ .f32 0x7FC00000#32))
      gather_S50000x128_S800000x1_S800000x128_1_0_n_n_0_1_1128 rfl
      (by rw [hI]; exact hin) e q).trans ?_)
  · after_results_simp
    repeat rw [ofBuf_toBuf]
    refine (hO _).trans ?_
    rfl
  · rw [hH, hI]

set_option maxHeartbeats 1000000 in
/-- The third gather: the static rows at the sources. -/
private theorem take3_apply
    (hin : ∀ i, -50000 ≤ ((Wp (Proc.devRef .tc main_v1) : S800000.Idx → BitVec 32) i).toInt
      ∧ ((Wp (Proc.devRef .tc main_v1) : S800000.Idx → BitVec 32) i).toInt < 50000)
    (e : Fin 800000) (q : Fin 16) :
    (StableHlo.after hostOps0_3 Wp (Proc.devRef .tc main_v6) : S800000x16.Idx → EReal) (ix2 e q)
      = (Wp (Proc.devRef .tc main_arg1) : S50000x16.Idx → EReal)
          (ix2 (rowOf ((Wp (Proc.devRef .tc main_v1) : S800000.Idx → BitVec 32) (ix1 e))) q) := by
  have hH : ((StableHlo.TRef.of main_arg1 : StableHlo.TRef sig ⟨S50000x16, .f32⟩).ofBuf (Val := Elt Ideal) (Wp (Proc.devRef .tc main_arg1))
      : S50000x16.Idx → EReal) = Wp (Proc.devRef .tc main_arg1) := rfl
  have hI : ((StableHlo.TRef.of main_v1 : StableHlo.TRef sig ⟨S800000, .i32⟩).ofBuf (Val := Elt Ideal) (Wp (Proc.devRef .tc main_v1))
      : S800000.Idx → BitVec 32) = Wp (Proc.devRef .tc main_v1) := rfl
  have hO : ∀ X : S800000x16.Idx → EReal,
      ((StableHlo.TRef.of main_v6 : StableHlo.TRef sig ⟨S800000x16, .f32⟩).toBuf (Val := Elt Ideal) X : S800000x16.Idx → EReal) = X := by intro X; rfl
  refine Eq.trans (congrFun ?_ (ix2 e q))
    ((take_apply (Wd := 16) bcast_S_S800000 bcast_S800000_S800000x1_0 bcast_S_S800000x1 bcast_S1_S1x1_1
      bcast_S1x1_S800000x1_0_1 reducesTo_S800000x1_S800000_d1 h_S_ bcast_S800000_S800000x16_0
      gather_S50000x16_S800000x1_S800000x16_1_0_n_n_0_1_116_wf
      ((StableHlo.TRef.of main_arg1 : StableHlo.TRef sig ⟨S50000x16, .f32⟩).ofBuf (Wp (Proc.devRef .tc main_arg1)))
      ((StableHlo.TRef.of main_v1 : StableHlo.TRef sig ⟨S800000, .i32⟩).ofBuf (Wp (Proc.devRef .tc main_v1)))
      (broadcastInDim S800000x16 ![] bcast_S_S800000x16 (constant (F := Ideal) S_ .f32 0x7FC00000#32))
      gather_S50000x16_S800000x1_S800000x16_1_0_n_n_0_1_116 rfl
      (by rw [hI]; exact hin) e q).trans ?_)
  · after_results_simp
    repeat rw [ofBuf_toBuf]
    refine (hO _).trans ?_
    rfl
  · rw [hH, hI]

set_option maxHeartbeats 1000000 in
/-- The fourth gather: the static rows at the targets. -/
private theorem take4_apply
    (hin : ∀ i, -50000 ≤ ((Wp (Proc.devRef .tc main_v3) : S800000.Idx → BitVec 32) i).toInt
      ∧ ((Wp (Proc.devRef .tc main_v3) : S800000.Idx → BitVec 32) i).toInt < 50000)
    (e : Fin 800000) (q : Fin 16) :
    (StableHlo.after hostOps0_4 Wp (Proc.devRef .tc main_v7) : S800000x16.Idx → EReal) (ix2 e q)
      = (Wp (Proc.devRef .tc main_arg1) : S50000x16.Idx → EReal)
          (ix2 (rowOf ((Wp (Proc.devRef .tc main_v3) : S800000.Idx → BitVec 32) (ix1 e))) q) := by
  have hH : ((StableHlo.TRef.of main_arg1 : StableHlo.TRef sig ⟨S50000x16, .f32⟩).ofBuf (Val := Elt Ideal) (Wp (Proc.devRef .tc main_arg1))
      : S50000x16.Idx → EReal) = Wp (Proc.devRef .tc main_arg1) := rfl
  have hI : ((StableHlo.TRef.of main_v3 : StableHlo.TRef sig ⟨S800000, .i32⟩).ofBuf (Val := Elt Ideal) (Wp (Proc.devRef .tc main_v3))
      : S800000.Idx → BitVec 32) = Wp (Proc.devRef .tc main_v3) := rfl
  have hO : ∀ X : S800000x16.Idx → EReal,
      ((StableHlo.TRef.of main_v7 : StableHlo.TRef sig ⟨S800000x16, .f32⟩).toBuf (Val := Elt Ideal) X : S800000x16.Idx → EReal) = X := by intro X; rfl
  refine Eq.trans (congrFun ?_ (ix2 e q))
    ((take_apply (Wd := 16) bcast_S_S800000 bcast_S800000_S800000x1_0 bcast_S_S800000x1 bcast_S1_S1x1_1
      bcast_S1x1_S800000x1_0_1 reducesTo_S800000x1_S800000_d1 h_S_ bcast_S800000_S800000x16_0
      gather_S50000x16_S800000x1_S800000x16_1_0_n_n_0_1_116_wf
      ((StableHlo.TRef.of main_arg1 : StableHlo.TRef sig ⟨S50000x16, .f32⟩).ofBuf (Wp (Proc.devRef .tc main_arg1)))
      ((StableHlo.TRef.of main_v3 : StableHlo.TRef sig ⟨S800000, .i32⟩).ofBuf (Wp (Proc.devRef .tc main_v3)))
      (broadcastInDim S800000x16 ![] bcast_S_S800000x16 (constant (F := Ideal) S_ .f32 0x7FC00000#32))
      gather_S50000x16_S800000x1_S800000x16_1_0_n_n_0_1_116 rfl
      (by rw [hI]; exact hin) e q).trans ?_)
  · after_results_simp
    repeat rw [ofBuf_toBuf]
    refine (hO _).trans ?_
    rfl
  · rw [hH, hI]

end Stretches

/-! ## The four gathered arrays the first region is entered with -/

theorem v4_apply (hin : InRange m c) (e : Fin 800000) (q : Fin 128) :
    bHs c (V6 m ρ) (ix2 e q) = A0 m c (ix2 (src (A2 m c) e) q) := by
  -- the stretches after the gather leave its result alone
  have p : (V6 m ρ c main_v4 : S800000x128.Idx → EReal)
      = StableHlo.after hostOps0_1 (W1 m ρ c) (Proc.devRef .tc main_v4) :=
    (ops5_v4 (W5 m ρ c)).trans ((ops4_v4 (W4 m ρ c)).trans ((ops3_v4 (W3 m ρ c)).trans (ops2_v4 (W2 m ρ c))))
  -- the index vector the gather reads is row 1 of the edge array
  have hw : ((W1 m ρ c) (Proc.devRef .tc main_v1) : S800000.Idx → BitVec 32)
      = W1 m ρ c (Proc.devRef .tc main_v1) := rfl
  have hidx : ∀ e' : Fin 800000,
      ((W1 m ρ c) (Proc.devRef .tc main_v1) : S800000.Idx → BitVec 32) (ix1 e') = A2 m c (ix2 1 e') :=
    fun e' => (congrFun hw (ix1 e')).trans (ops0_v1 (W0 m ρ c) e')
  -- the operand is the argument as launched
  have harg : ((W1 m ρ c) (Proc.devRef .tc main_arg0) : S50000x128.Idx → EReal) = W0 m ρ c (Proc.devRef .tc main_arg0) :=
    ops0_arg0 (W0 m ρ c)
  have hink : ∀ i : S800000.Idx, -50000 ≤ (((W1 m ρ c) (Proc.devRef .tc main_v1) : S800000.Idx → BitVec 32) i).toInt
      ∧ (((W1 m ρ c) (Proc.devRef .tc main_v1) : S800000.Idx → BitVec 32) i).toInt < 50000 := by
    intro i
    obtain ⟨e', rfl⟩ : ∃ e' : Fin 800000, i = ix1 e' := ⟨i 0, eq_ix1 (n := 800000) i⟩
    rw [hidx]; exact hin _
  calc bHs c (V6 m ρ) (ix2 e q)
      = (StableHlo.after hostOps0_1 (W1 m ρ c) (Proc.devRef .tc main_v4) : S800000x128.Idx → EReal) (ix2 e q) :=
        congrFun p _
    _ = ((W1 m ρ c) (Proc.devRef .tc main_arg0) : S50000x128.Idx → EReal)
          (ix2 (rowOf (((W1 m ρ c) (Proc.devRef .tc main_v1) : S800000.Idx → BitVec 32) (ix1 e))) q) :=
        take1_apply (W1 m ρ c) hink e q
    _ = A0 m c (ix2 (src (A2 m c) e) q) := by
        rw [hidx]
        exact congrFun harg _
theorem v5_apply (hin : InRange m c) (e : Fin 800000) (q : Fin 128) :
    bHd c (V6 m ρ) (ix2 e q) = A0 m c (ix2 (dst (A2 m c) e) q) := by
  -- the stretches after the gather leave its result alone
  have p : (V6 m ρ c main_v5 : S800000x128.Idx → EReal)
      = StableHlo.after hostOps0_2 (W2 m ρ c) (Proc.devRef .tc main_v5) :=
    (ops5_v5 (W5 m ρ c)).trans ((ops4_v5 (W4 m ρ c)).trans (ops3_v5 (W3 m ρ c)))
  -- the index vector the gather reads is row 0 of the edge array
  have hw : ((W2 m ρ c) (Proc.devRef .tc main_v3) : S800000.Idx → BitVec 32)
      = W1 m ρ c (Proc.devRef .tc main_v3) := ops1_v3 (W1 m ρ c)
  have hidx : ∀ e' : Fin 800000,
      ((W2 m ρ c) (Proc.devRef .tc main_v3) : S800000.Idx → BitVec 32) (ix1 e') = A2 m c (ix2 0 e') :=
    fun e' => (congrFun hw (ix1 e')).trans (ops0_v3 (W0 m ρ c) e')
  -- the operand is the argument as launched
  have harg : ((W2 m ρ c) (Proc.devRef .tc main_arg0) : S50000x128.Idx → EReal) = W0 m ρ c (Proc.devRef .tc main_arg0) :=
    (ops1_arg0 (W1 m ρ c)).trans (ops0_arg0 (W0 m ρ c))
  have hink : ∀ i : S800000.Idx, -50000 ≤ (((W2 m ρ c) (Proc.devRef .tc main_v3) : S800000.Idx → BitVec 32) i).toInt
      ∧ (((W2 m ρ c) (Proc.devRef .tc main_v3) : S800000.Idx → BitVec 32) i).toInt < 50000 := by
    intro i
    obtain ⟨e', rfl⟩ : ∃ e' : Fin 800000, i = ix1 e' := ⟨i 0, eq_ix1 (n := 800000) i⟩
    rw [hidx]; exact hin _
  calc bHd c (V6 m ρ) (ix2 e q)
      = (StableHlo.after hostOps0_2 (W2 m ρ c) (Proc.devRef .tc main_v5) : S800000x128.Idx → EReal) (ix2 e q) :=
        congrFun p _
    _ = ((W2 m ρ c) (Proc.devRef .tc main_arg0) : S50000x128.Idx → EReal)
          (ix2 (rowOf (((W2 m ρ c) (Proc.devRef .tc main_v3) : S800000.Idx → BitVec 32) (ix1 e))) q) :=
        take2_apply (W2 m ρ c) hink e q
    _ = A0 m c (ix2 (dst (A2 m c) e) q) := by
        rw [hidx]
        exact congrFun harg _
theorem v6_apply (hin : InRange m c) (e : Fin 800000) (q : Fin 16) :
    bXss c (V6 m ρ) (ix2 e q) = A1 m c (ix2 (src (A2 m c) e) q) := by
  -- the stretches after the gather leave its result alone
  have p : (V6 m ρ c main_v6 : S800000x16.Idx → EReal)
      = StableHlo.after hostOps0_3 (W3 m ρ c) (Proc.devRef .tc main_v6) :=
    (ops5_v6 (W5 m ρ c)).trans (ops4_v6 (W4 m ρ c))
  -- the index vector the gather reads is row 1 of the edge array
  have hw : ((W3 m ρ c) (Proc.devRef .tc main_v1) : S800000.Idx → BitVec 32)
      = W1 m ρ c (Proc.devRef .tc main_v1) := (ops2_v1 (W2 m ρ c)).trans (ops1_v1 (W1 m ρ c))
  have hidx : ∀ e' : Fin 800000,
      ((W3 m ρ c) (Proc.devRef .tc main_v1) : S800000.Idx → BitVec 32) (ix1 e') = A2 m c (ix2 1 e') :=
    fun e' => (congrFun hw (ix1 e')).trans (ops0_v1 (W0 m ρ c) e')
  -- the operand is the argument as launched
  have harg : ((W3 m ρ c) (Proc.devRef .tc main_arg1) : S50000x16.Idx → EReal) = W0 m ρ c (Proc.devRef .tc main_arg1) :=
    (ops2_arg1 (W2 m ρ c)).trans ((ops1_arg1 (W1 m ρ c)).trans (ops0_arg1 (W0 m ρ c)))
  have hink : ∀ i : S800000.Idx, -50000 ≤ (((W3 m ρ c) (Proc.devRef .tc main_v1) : S800000.Idx → BitVec 32) i).toInt
      ∧ (((W3 m ρ c) (Proc.devRef .tc main_v1) : S800000.Idx → BitVec 32) i).toInt < 50000 := by
    intro i
    obtain ⟨e', rfl⟩ : ∃ e' : Fin 800000, i = ix1 e' := ⟨i 0, eq_ix1 (n := 800000) i⟩
    rw [hidx]; exact hin _
  calc bXss c (V6 m ρ) (ix2 e q)
      = (StableHlo.after hostOps0_3 (W3 m ρ c) (Proc.devRef .tc main_v6) : S800000x16.Idx → EReal) (ix2 e q) :=
        congrFun p _
    _ = ((W3 m ρ c) (Proc.devRef .tc main_arg1) : S50000x16.Idx → EReal)
          (ix2 (rowOf (((W3 m ρ c) (Proc.devRef .tc main_v1) : S800000.Idx → BitVec 32) (ix1 e))) q) :=
        take3_apply (W3 m ρ c) hink e q
    _ = A1 m c (ix2 (src (A2 m c) e) q) := by
        rw [hidx]
        exact congrFun harg _
theorem v7_apply (hin : InRange m c) (e : Fin 800000) (q : Fin 16) :
    bXsd c (V6 m ρ) (ix2 e q) = A1 m c (ix2 (dst (A2 m c) e) q) := by
  -- the stretches after the gather leave its result alone
  have p : (V6 m ρ c main_v7 : S800000x16.Idx → EReal)
      = StableHlo.after hostOps0_4 (W4 m ρ c) (Proc.devRef .tc main_v7) :=
    ops5_v7 (W5 m ρ c)
  -- the index vector the gather reads is row 0 of the edge array
  have hw : ((W4 m ρ c) (Proc.devRef .tc main_v3) : S800000.Idx → BitVec 32)
      = W1 m ρ c (Proc.devRef .tc main_v3) := (ops3_v3 (W3 m ρ c)).trans ((ops2_v3 (W2 m ρ c)).trans (ops1_v3 (W1 m ρ c)))
  have hidx : ∀ e' : Fin 800000,
      ((W4 m ρ c) (Proc.devRef .tc main_v3) : S800000.Idx → BitVec 32) (ix1 e') = A2 m c (ix2 0 e') :=
    fun e' => (congrFun hw (ix1 e')).trans (ops0_v3 (W0 m ρ c) e')
  -- the operand is the argument as launched
  have harg : ((W4 m ρ c) (Proc.devRef .tc main_arg1) : S50000x16.Idx → EReal) = W0 m ρ c (Proc.devRef .tc main_arg1) :=
    (ops3_arg1 (W3 m ρ c)).trans ((ops2_arg1 (W2 m ρ c)).trans ((ops1_arg1 (W1 m ρ c)).trans (ops0_arg1 (W0 m ρ c))))
  have hink : ∀ i : S800000.Idx, -50000 ≤ (((W4 m ρ c) (Proc.devRef .tc main_v3) : S800000.Idx → BitVec 32) i).toInt
      ∧ (((W4 m ρ c) (Proc.devRef .tc main_v3) : S800000.Idx → BitVec 32) i).toInt < 50000 := by
    intro i
    obtain ⟨e', rfl⟩ : ∃ e' : Fin 800000, i = ix1 e' := ⟨i 0, eq_ix1 (n := 800000) i⟩
    rw [hidx]; exact hin _
  calc bXsd c (V6 m ρ) (ix2 e q)
      = (StableHlo.after hostOps0_4 (W4 m ρ c) (Proc.devRef .tc main_v7) : S800000x16.Idx → EReal) (ix2 e q) :=
        congrFun p _
    _ = ((W4 m ρ c) (Proc.devRef .tc main_arg1) : S50000x16.Idx → EReal)
          (ix2 (rowOf (((W4 m ρ c) (Proc.devRef .tc main_v3) : S800000.Idx → BitVec 32) (ix1 e))) q) :=
        take4_apply (W4 m ρ c) hink e q
    _ = A1 m c (ix2 (dst (A2 m c) e) q) := by
        rw [hidx]
        exact congrFun harg _

end Cert.KernelIdeal.Val

end
-- ==== Proof.HostW.lean ====
/-
  The weight-side buffers the first region is entered with, each read at an entry: the five row slices of the transposed
  first weight, the transposed second weight, the 0/1 matrix that gives lane q to head q / 16, and the edge features.

  Only the last stretch of host operations before the region writes any of them. Each is first stated as a term over the
  contents that stretch starts from (a slice of a transpose, a transpose, a reshape of a broadcast of a comparison of two
  iotas), the argument under it is carried back to the launch memory through the earlier stretches, none of which writes
  it, and the term is then read at an entry: a slice by its offset, a transpose by exchanging the coordinates, the reshape
  [8, 8, 16] -> [8, 128] by row-major position (lane q is (q / 16, q % 16)), the comparison as a bit turned into 1 or 0.
-/
import proofs.«411225_j5987184410675_1_alg».proof.Proof.Gen.KernelIdeal.Frame
import proofs.«411225_j5987184410675_1_alg».proof.Proof.Args
import Idealize.ShloMosaic.Lib.StableHlo.Run
import Idealize.ShloMosaic.Lib.Pipeline.Value
import Idealize.ShloMosaic.Lib.ValueLayout

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- No operation of the named stretch writes the reference at hand: it differs from each operation's result. -/
local macro "unwritten" s:ident : tactic =>
  `(tactic| exact List.forall_iff_forall_mem.mp (by
      simp only [$s:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## The two weights and the edge features at the first region's entry are the launch's -/

private theorem W5_arg3 : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (by unwritten hostOps0_4)
    _ = W3 m ρ c (Proc.devRef .tc main_arg3) := StableHlo.after_of_forall_not_mem (b := Proc.devRef .tc main_arg3) _ _ (by unwritten hostOps0_3)
    _ = W2 m ρ c (Proc.devRef .tc main_arg3) := StableHlo.after_of_forall_not_mem (b := Proc.devRef .tc main_arg3) _ _ (by unwritten hostOps0_2)
    _ = W1 m ρ c (Proc.devRef .tc main_arg3) := StableHlo.after_of_forall_not_mem (b := Proc.devRef .tc main_arg3) _ _ (by unwritten hostOps0_1)
    _ = W0 m ρ c (Proc.devRef .tc main_arg3) := StableHlo.after_of_forall_not_mem (b := Proc.devRef .tc main_arg3) _ _ (by unwritten hostOps0)
    _ = m ((c : Thread nD τ).loc main_arg3) := rfl

private theorem W5_arg4 : (W5 m ρ c (Proc.devRef .tc main_arg4) : S256x304.Idx → EReal) = A4 m c :=
  calc W5 m ρ c (Proc.devRef .tc main_arg4)
    _ = W4 m ρ c (Proc.devRef .tc main_arg4) := StableHlo.after_of_forall_not_mem (b := Proc.devRef .tc main_arg4) _ _ (by unwritten hostOps0_4)
    _ = W3 m ρ c (Proc.devRef .tc main_arg4) := StableHlo.after_of_forall_not_mem (b := Proc.devRef .tc main_arg4) _ _ (by unwritten hostOps0_3)
    _ = W2 m ρ c (Proc.devRef .tc main_arg4) := StableHlo.after_of_forall_not_mem (b := Proc.devRef .tc main_arg4) _ _ (by unwritten hostOps0_2)
    _ = W1 m ρ c (Proc.devRef .tc main_arg4) := StableHlo.after_of_forall_not_mem (b := Proc.devRef .tc main_arg4) _ _ (by unwritten hostOps0_1)
    _ = W0 m ρ c (Proc.devRef .tc main_arg4) := StableHlo.after_of_forall_not_mem (b := Proc.devRef .tc main_arg4) _ _ (by unwritten hostOps0)
    _ = m ((c : Thread nD τ).loc main_arg4) := rfl

private theorem W5_arg5 : (W5 m ρ c (Proc.devRef .tc main_arg5) : S8x256.Idx → EReal) = A5 m c :=
  calc W5 m ρ c (Proc.devRef .tc main_arg5)
    _ = W4 m ρ c (Proc.devRef .tc main_arg5) := StableHlo.after_of_forall_not_mem (b := Proc.devRef .tc main_arg5) _ _ (by unwritten hostOps0_4)
    _ = W3 m ρ c (Proc.devRef .tc main_arg5) := StableHlo.after_of_forall_not_mem (b := Proc.devRef .tc main_arg5) _ _ (by unwritten hostOps0_3)
    _ = W2 m ρ c (Proc.devRef .tc main_arg5) := StableHlo.after_of_forall_not_mem (b := Proc.devRef .tc main_arg5) _ _ (by unwritten hostOps0_2)
    _ = W1 m ρ c (Proc.devRef .tc main_arg5) := StableHlo.after_of_forall_not_mem (b := Proc.devRef .tc main_arg5) _ _ (by unwritten hostOps0_1)
    _ = W0 m ρ c (Proc.devRef .tc main_arg5) := StableHlo.after_of_forall_not_mem (b := Proc.devRef .tc main_arg5) _ _ (by unwritten hostOps0)
    _ = m ((c : Thread nD τ).loc main_arg5) := rfl

/-! ## What the last stretch before the first region leaves in each weight-side buffer, over any contents it starts from -/

private theorem v9_after (W : Valuation τ sig (Elt Ideal)) :
    (StableHlo.after hostOps0_5 W (Proc.devRef .tc main_v9) : S128x256.Idx → EReal)
      = extractStridedSlice S128x256 ![0, 0]
          (transpose S304x256 [1, 0] (W (Proc.devRef .tc main_arg4) : S256x304.Idx → EReal) transposes_S256x304_S304x256_1_0)
          slices_S304x256_S128x256_0_0 := by
  after_results

private theorem v10_after (W : Valuation τ sig (Elt Ideal)) :
    (StableHlo.after hostOps0_5 W (Proc.devRef .tc main_v10) : S128x256.Idx → EReal)
      = extractStridedSlice S128x256 ![128, 0]
          (transpose S304x256 [1, 0] (W (Proc.devRef .tc main_arg4) : S256x304.Idx → EReal) transposes_S256x304_S304x256_1_0)
          slices_S304x256_S128x256_128_0 := by
  after_results

private theorem v11_after (W : Valuation τ sig (Elt Ideal)) :
    (StableHlo.after hostOps0_5 W (Proc.devRef .tc main_v11) : S16x256.Idx → EReal)
      = extractStridedSlice S16x256 ![256, 0]
          (transpose S304x256 [1, 0] (W (Proc.devRef .tc main_arg4) : S256x304.Idx → EReal) transposes_S256x304_S304x256_1_0)
          slices_S304x256_S16x256_256_0 := by
  after_results

private theorem v12_after (W : Valuation τ sig (Elt Ideal)) :
    (StableHlo.after hostOps0_5 W (Proc.devRef .tc main_v12) : S16x256.Idx → EReal)
      = extractStridedSlice S16x256 ![272, 0]
          (transpose S304x256 [1, 0] (W (Proc.devRef .tc main_arg4) : S256x304.Idx → EReal) transposes_S256x304_S304x256_1_0)
          slices_S304x256_S16x256_272_0 := by
  after_results

private theorem v13_after (W : Valuation τ sig (Elt Ideal)) :
    (StableHlo.after hostOps0_5 W (Proc.devRef .tc main_v13) : S16x256.Idx → EReal)
      = extractStridedSlice S16x256 ![288, 0]
          (transpose S304x256 [1, 0] (W (Proc.devRef .tc main_arg4) : S256x304.Idx → EReal) transposes_S256x304_S304x256_1_0)
          slices_S304x256_S16x256_288_0 := by
  after_results

private theorem v14_after (W : Valuation τ sig (Elt Ideal)) :
    (StableHlo.after hostOps0_5 W (Proc.devRef .tc main_v14) : S256x8.Idx → EReal)
      = transpose S256x8 [1, 0] (W (Proc.devRef .tc main_arg5) : S8x256.Idx → EReal) transposes_S8x256_S256x8_1_0 := by
  after_results

/-! ## A row slice of the transposed first weight, read at an entry -/

/-- Rows `o ..` of the transpose of a matrix: entry `(i, j)` is the matrix at `(j, o + i)`. -/
private theorem slice_transpose_apply {r n k : Nat} (o : Nat) (x : (⟨2, ![r, n]⟩ : Shape).Idx → EReal)
    (ht : (⟨2, ![r, n]⟩ : Shape).Transposes [1, 0] ⟨2, ![n, r]⟩)
    (hs : (⟨2, ![n, r]⟩ : Shape).Slices ![o, 0] ⟨2, ![k, r]⟩) (i : Fin k) (j : Fin r) (hi : o + i.val < n) :
    extractStridedSlice ⟨2, ![k, r]⟩ ![o, 0] (transpose ⟨2, ![n, r]⟩ [1, 0] x ht) hs (ix2 i j) = x (ix2 j ⟨o + i.val, hi⟩) := by
  refine (extractStridedSlice_apply _ _ hs _ (ix2 ⟨o + i.val, hi⟩ j) fun a => ?_).trans (transpose_ix2_apply x ht _ _)
  match a with
  | ⟨0, _⟩ => rfl
  | ⟨1, _⟩ => exact (Nat.zero_add _).symm

/-! ## The 0/1 matrix of the heads -/

private theorem v22_after (W : Valuation τ sig (Elt Ideal)) :
    (StableHlo.after hostOps0_5 W (Proc.devRef .tc main_v22) : S8x128.Idx → EReal)
      = shapeCast S8x128
          (broadcastInDim S8x8x16 ![0, 1] bcast_S8x8_S8x8x16_0_1
            (uitofp (F := Ideal) .f32
              (cmpi .eq (addi (iotaInDim S8x8 32 0) (broadcastInDim S8x8 ![] bcast_S_S8x8 (constantI S_ 32 0#32)))
                (iotaInDim S8x8 32 1))))
          shapeCasts_S8x8x16_S8x128 := by
  after_results
  rfl

/-- Two numbers below 8 are equal as words of 32 bits (the first with the zero word added) exactly when they are equal. -/
private theorem eq_bit (k h : Fin 8) :
    IntOp.cmpi .eq (IntOp.addi (BitVec.ofNat 32 k.val) 0#32) (BitVec.ofNat 32 h.val) = if k.val = h.val then 1#1 else 0#1 := by
  revert k h; decide

theorem arg3_eq : bEf c (V6 m ρ) = A3 m c :=
  (StableHlo.after_of_forall_not_mem (b := Proc.devRef .tc main_arg3) _ _ (by unwritten hostOps0_5)).trans (W5_arg3 m ρ c)

theorem v9_apply (i : Fin 128) (j : Fin 256) : bWa c (V6 m ρ) (ix2 i j) = A4 m c (ix2 j ⟨i.val, by omega⟩) := by
  show (StableHlo.after hostOps0_5 (W5 m ρ c) (Proc.devRef .tc main_v9) : S128x256.Idx → EReal) (ix2 i j) = _
  rw [v9_after, W5_arg4]
  refine (slice_transpose_apply 0 (A4 m c) _ _ i j (by omega)).trans (congrArg (A4 m c) ?_)
  exact congrArg (ix2 j) (Fin.ext (Nat.zero_add _))

theorem v10_apply (i : Fin 128) (j : Fin 256) : bWb c (V6 m ρ) (ix2 i j) = A4 m c (ix2 j ⟨128 + i.val, by omega⟩) := by
  show (StableHlo.after hostOps0_5 (W5 m ρ c) (Proc.devRef .tc main_v10) : S128x256.Idx → EReal) (ix2 i j) = _
  rw [v10_after, W5_arg4]
  exact slice_transpose_apply 128 (A4 m c) _ _ i j (by omega)

theorem v11_apply (i : Fin 16) (j : Fin 256) : bWc c (V6 m ρ) (ix2 i j) = A4 m c (ix2 j ⟨256 + i.val, by omega⟩) := by
  show (StableHlo.after hostOps0_5 (W5 m ρ c) (Proc.devRef .tc main_v11) : S16x256.Idx → EReal) (ix2 i j) = _
  rw [v11_after, W5_arg4]
  exact slice_transpose_apply 256 (A4 m c) _ _ i j (by omega)

theorem v12_apply (i : Fin 16) (j : Fin 256) : bWd c (V6 m ρ) (ix2 i j) = A4 m c (ix2 j ⟨272 + i.val, by omega⟩) := by
  show (StableHlo.after hostOps0_5 (W5 m ρ c) (Proc.devRef .tc main_v12) : S16x256.Idx → EReal) (ix2 i j) = _
  rw [v12_after, W5_arg4]
  exact slice_transpose_apply 272 (A4 m c) _ _ i j (by omega)

theorem v13_apply (i : Fin 16) (j : Fin 256) : bWf c (V6 m ρ) (ix2 i j) = A4 m c (ix2 j ⟨288 + i.val, by omega⟩) := by
  show (StableHlo.after hostOps0_5 (W5 m ρ c) (Proc.devRef .tc main_v13) : S16x256.Idx → EReal) (ix2 i j) = _
  rw [v13_after, W5_arg4]
  exact slice_transpose_apply 288 (A4 m c) _ _ i j (by omega)

theorem v14_apply (j : Fin 256) (k : Fin 8) : bW2t c (V6 m ρ) (ix2 j k) = A5 m c (ix2 k j) := by
  show (StableHlo.after hostOps0_5 (W5 m ρ c) (Proc.devRef .tc main_v14) : S256x8.Idx → EReal) (ix2 j k) = _
  rw [v14_after, W5_arg5]
  exact transpose_ix2_apply (A5 m c) _ j k

theorem v22_apply (k : Fin 8) (q : Fin 128) :
    bEx c (V6 m ρ) (ix2 k q) = if k.val = q.val / 16 then (1 : EReal) else 0 := by
  show (StableHlo.after hostOps0_5 (W5 m ρ c) (Proc.devRef .tc main_v22) : S8x128.Idx → EReal) (ix2 k q) = _
  rw [v22_after]
  refine (shapeCast_apply _ _ _ (ix3 k ⟨q.val / 16, by omega⟩ ⟨q.val % 16, Nat.mod_lt _ (by norm_num)⟩) ?_).trans ?_
  · rw [Shape.rowMajor_val_three, Shape.rowMajor_val_two]
    show (k.val * 8 + q.val / 16) * 16 + q.val % 16 = k.val * 128 + q.val
    omega
  refine (broadcastInDim_apply _ _ _ _ (ix2 k ⟨q.val / 16, by omega⟩) fun a => ?_).trans ?_
  · match a with
    | ⟨0, _⟩ => rfl
    | ⟨1, _⟩ => rfl
  show (((IntOp.cmpi .eq (IntOp.addi (BitVec.ofNat 32 k.val) 0#32) (BitVec.ofNat 32 (q.val / 16))).toNat : ℝ) : EReal) = _
  rw [eq_bit k ⟨q.val / 16, by omega⟩]
  split_ifs <;> simp

end Cert.KernelIdeal.Val

end
-- ==== Proof.HostMid.lean ====
/-
  Between the two regions: the scatter-add of the gated messages by the target word (read signed: a word that is not a
  row lands nowhere), the transposed output weight, and which region's array each result buffer holds at the end.
-/
import proofs.«411225_j5987184410675_1_alg».proof.Proof.Gen.KernelIdeal.Frame
import proofs.«411225_j5987184410675_1_alg».proof.Proof.Args
import proofs.«411225_j5987184410675_1_alg».proof.Proof.LibRowGatherScatter
import Idealize.ShloMosaic.Lib.StableHlo.Run
import Idealize.ShloMosaic.Lib.Pipeline.Value

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- The second region's output array is its third window's. -/
theorem W9_v28 : W9 m ρ c (Proc.devRef .tc main_v28) = Arr2 c (V8 m ρ) := W9_arr m ρ c 2
/-- The gates array is no array of the second region and no operation between the regions writes it: it ends as the
    first region leaves it. -/
theorem W9_v23_0 : W9 m ρ c (Proc.devRef .tc main_v23_0) = Arr12 c (V6 m ρ) :=
  calc W9 m ρ c (Proc.devRef .tc main_v23_0)
    _ = W8 m ρ c (Proc.devRef .tc main_v23_0) := W9_of_ne m ρ c main_v23_0 (by decide)
    _ = W7 m ρ c (Proc.devRef .tc main_v23_0) := StableHlo.after_of_forall_not_mem (b := Proc.devRef .tc main_v23_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Arr12 c (V6 m ρ) := W7_arr m ρ c 12
/-- The aggregate buffer after the stretch between the regions: the scatter-add, into the array of zeros, of the gated
    messages by the target words broadcast to a column. -/
private theorem W8_v26 : W8 m ρ c (Proc.devRef .tc main_v26)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0
          (W7 m ρ c (Proc.devRef .tc main_v3) : (⟨S800000, .i32⟩ : BufTy).Contents (Elt Ideal)))
        (W7 m ρ c (Proc.devRef .tc main_v23_1) : (⟨S800000x128, .f32⟩ : BufTy).Contents (Elt Ideal)) := by
  show StableHlo.after hostOps1 (W7 m ρ c) (Proc.devRef .tc main_v26) = _
  after_results

/-- The target words after the first stretch: row 0 of the edge array, sliced and flattened. -/
private theorem W1_v3 : W1 m ρ c (Proc.devRef .tc main_v3)
    = shapeCast S800000 (extractStridedSlice S1x800000 ![0, 0]
        (m ((c : Thread nD τ).loc main_arg2) : (⟨S2x800000, .i32⟩ : BufTy).Contents (Elt Ideal)) slices_S2x800000_S1x800000_0_0)
        shapeCasts_S1x800000_S800000 := by
  show StableHlo.after hostOps0 (W0 m ρ c) (Proc.devRef .tc main_v3) = _
  after_results
  rfl

/-- The target words are no array of the first region, and no later stretch before it writes them. -/
private theorem W7_v3 : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
          simp only [hostOps0_5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := StableHlo.after_of_forall_not_mem (b := Proc.devRef .tc main_v3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := StableHlo.after_of_forall_not_mem (b := Proc.devRef .tc main_v3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The column of target words at (e, 0) is the edge array at (0, e): a broadcast along a new unit axis, a flattening of a
    one-row array, and the slice of row 0, each read at an entry. -/
private theorem idx_apply (x2 : (⟨S2x800000, .i32⟩ : BufTy).Contents (Elt Ideal)) (e : Fin 800000) :
    broadcastInDim S800000x1 ![0] bcast_S800000_S800000x1_0
      (shapeCast S800000 (extractStridedSlice S1x800000 ![0, 0] x2 slices_S2x800000_S1x800000_0_0)
        shapeCasts_S1x800000_S800000) (ix2 e 0) = x2 (ix2 0 e) := by
  rw [broadcastInDim_apply _ bcast_S800000_S800000x1_0 _ (ix2 e 0) (ix1 e) (fun a => match a with
    | ⟨0, _⟩ => by show e.val = if (800000 : Nat) = 1 then 0 else e.val; rw [if_neg (by decide)])]
  rw [shapeCast_apply _ shapeCasts_S1x800000_S800000 (ix1 e) (ix2 0 e)
    (by rewrite [Shape.rowMajor_val_two, Shape.rowMajor_val_one]; show 0 * 800000 + e.val = e.val; omega)]
  exact extractStridedSlice_apply ![0, 0] x2 slices_S2x800000_S1x800000_0_0 (ix2 0 e) (ix2 0 e) (fun a => match a with
    | ⟨0, _⟩ => by show (0 : Nat) = 0 + 0; omega
    | ⟨1, _⟩ => by show e.val = 0 + e.val; omega)

/-- At the extended reals the host's accumulating scatter is the ideal instance's scatter-add. -/
private theorem scatterAdd_eq {s si u : Shape} {w : Nat} (d : ScatterDims s si u) (x : FVec Ideal s .f32)
    (idx : IVec si w) (upd : FVec Ideal u .f32) :
    Host.scatterAdd d x idx upd = Ideal.hostScatterAdd d x idx upd := rfl

/-- The program's scatter dimension numbers are the row scatter's over [50000, 128], [800000, 1], [800000, 128]. -/
private theorem rec_eq : scatter_S50000x128_S800000x1_S800000x128_1_0_0_1
    = Cert.Lib.RowPass.scD 50000 800000 128 scatter_S50000x128_S800000x1_S800000x128_1_0_0_1_wf := rfl

/-- The array the scatter adds into is zero at every entry. -/
private theorem zero_apply (j : S50000x128.Idx) :
    broadcastInDim S50000x128 ![] bcast_S_S50000x128 (constant (F := Ideal) S_ .f32 0x00000000#32) j = (0 : EReal) := by
  unfold broadcastInDim constant
  exact Ideal.ofBits_zero_f32

/-- The scatter-add into zeros at (n, q): the sum of the updates (e, q) over the edges whose index word, read signed, is n. -/
private theorem scat_apply (idx : (⟨S800000x1, .i32⟩ : BufTy).Contents (Elt Ideal)) (upd : Mat 800000 128)
    (n : Fin 50000) (q : Fin 128) :
    Host.scatterAdd scatter_S50000x128_S800000x1_S800000x128_1_0_0_1
        (broadcastInDim S50000x128 ![] bcast_S_S50000x128 (constant (F := Ideal) S_ .f32 0x00000000#32)) idx upd (ix2 n q)
      = ∑ e : Fin 800000, if (idx (ix2 e 0)).toInt = (n.val : Int) then upd (ix2 e q) else 0 := by
  rw [scatterAdd_eq, rec_eq, Cert.Lib.RowPass.sc_apply, zero_apply, zero_add]

/-- The aggregate the second region reads, at (n, q): the sum of the gated messages (e, q) over the edges whose target
    word, read signed, is n. -/
theorem v26_apply (n : Fin 50000) (q : Fin 128) :
    bAgg c (V8 m ρ) (ix2 n q)
      = ∑ e : Fin 800000, if (A2 m c (ix2 0 e)).toInt = (n.val : Int) then Arr13 c (V6 m ρ) (ix2 e q) else 0 := by
  refine (congrFun (W8_v26 m ρ c) (ix2 n q)).trans ?_
  refine (scat_apply _ _ n q).trans ?_
  refine Finset.sum_congr rfl fun e _ => ?_
  have hi : (broadcastInDim S800000x1 ![0] bcast_S800000_S800000x1_0
      (W7 m ρ c (Proc.devRef .tc main_v3) : (⟨S800000, .i32⟩ : BufTy).Contents (Elt Ideal))) (ix2 e 0)
        = A2 m c (ix2 0 e) := by
    rw [W7_v3, W1_v3]
    exact idx_apply _ e
  have hu : (W7 m ρ c (Proc.devRef .tc main_v23_1) : (⟨S800000x128, .f32⟩ : BufTy).Contents (Elt Ideal)) (ix2 e q)
      = Arr13 c (V6 m ρ) (ix2 e q) := congrFun (W7_arr m ρ c 13) (ix2 e q)
  rw [hi, hu]
/-- The second region's weight input is the transpose of what the output weight's buffer holds after the first region. -/
private theorem W8_v27 : W8 m ρ c (Proc.devRef .tc main_v27)
    = transpose S128x128 [1, 0] (W7 m ρ c (Proc.devRef .tc main_arg6) : (⟨S128x128, .f32⟩ : BufTy).Contents (Elt Ideal))
        transposes_S128x128_S128x128_1_0 := by
  show StableHlo.after hostOps1 (W7 m ρ c) (Proc.devRef .tc main_v27) = _
  after_results

/-- The output weight's buffer still holds the argument after the first region: nothing writes it up to the end, where it
    holds the argument. -/
private theorem W7_arg6 : W7 m ρ c (Proc.devRef .tc main_arg6) = m ((c : Thread nD τ).loc main_arg6) :=
  calc W7 m ρ c (Proc.devRef .tc main_arg6)
    _ = W8 m ρ c (Proc.devRef .tc main_arg6) := (StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).symm
    _ = W9 m ρ c (Proc.devRef .tc main_arg6) := (W9_of_ne m ρ c main_arg6 (by decide)).symm
    _ = m ((c : Thread nD τ).loc main_arg6) := W9_main_arg6 m ρ c

/-- The transposed output weight at (q, p) is the argument at (p, q). -/
theorem v27_apply (q p : Fin 128) : bWo c (V8 m ρ) (ix2 q p) = A6 m c (ix2 p q) := by
  show (W8 m ρ c (Proc.devRef .tc main_v27) : (⟨S128x128, .f32⟩ : BufTy).Contents (Elt Ideal)) (ix2 q p) = _
  rw [W8_v27, W7_arg6]
  exact transpose_apply [1, 0] _ transposes_S128x128_S128x128_1_0 (ix2 q p) (ix2 p q) (fun b => match b with
    | ⟨0, _⟩ => rfl
    | ⟨1, _⟩ => rfl)

end Cert.KernelIdeal.Val

end
-- ==== Proof.KVal.lean ====
/-
  The two results of the kernel program as functions of the argument arrays.

  The gates array the first region leaves is, entry by entry, the region's gate over the buffers it was entered with;
  those buffers are the gathered rows of h and xs (the index words being in range, every gather passes its range test),
  the edge features, and slices of the transposed weights, so the region's gate is `gate`. The gated messages likewise
  are `gated`, the 0/1 matrix picking the gate of the lane's head. The scatter-add by the target word then gives `agg`,
  and the second region's product with the transposed output weight gives `proj`.
-/
import proofs.«411225_j5987184410675_1_alg».proof.Proof.Args
import proofs.«411225_j5987184410675_1_alg».proof.Proof.Region0
import proofs.«411225_j5987184410675_1_alg».proof.Proof.Region1
import proofs.«411225_j5987184410675_1_alg».proof.Proof.HostTake
import proofs.«411225_j5987184410675_1_alg».proof.Proof.HostW
import proofs.«411225_j5987184410675_1_alg».proof.Proof.HostMid

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- The gates array after the first region is `gate` of the arguments. -/
theorem gates_eq (hin : InRange m c) (e : Fin 800000) (k : Fin 8) :
    Arr12 c (V6 m ρ) (ix2 e k) = gate (A0 m c) (A1 m c) (A2 m c) (A3 m c) (A4 m c) (A5 m c) e k := by
  rw [arr12_apply, arg3_eq]
  exact gate_of_region (A0 m c) (A1 m c) (A2 m c) (A3 m c) (A4 m c) (A5 m c)
    (bHs c (V6 m ρ)) (bHd c (V6 m ρ)) (bXss c (V6 m ρ)) (bXsd c (V6 m ρ))
    (bWa c (V6 m ρ)) (bWb c (V6 m ρ)) (bWc c (V6 m ρ)) (bWd c (V6 m ρ)) (bWf c (V6 m ρ)) (bW2t c (V6 m ρ))
    (v4_apply m ρ c hin) (v5_apply m ρ c hin) (v6_apply m ρ c hin) (v7_apply m ρ c hin)
    (v9_apply m ρ c) (v10_apply m ρ c) (v11_apply m ρ c) (v12_apply m ρ c) (v13_apply m ρ c) (v14_apply m ρ c) e k

/-- The gated messages after the first region are `gated` of the arguments. -/
theorem gated_eq (hin : InRange m c) (e : Fin 800000) (q : Fin 128) :
    Arr13 c (V6 m ρ) (ix2 e q) = gated (A0 m c) (A1 m c) (A2 m c) (A3 m c) (A4 m c) (A5 m c) e q := by
  rw [arr13_apply, arg3_eq]
  exact gated_of_region (A0 m c) (A1 m c) (A2 m c) (A3 m c) (A4 m c) (A5 m c)
    (bHs c (V6 m ρ)) (bHd c (V6 m ρ)) (bXss c (V6 m ρ)) (bXsd c (V6 m ρ))
    (bWa c (V6 m ρ)) (bWb c (V6 m ρ)) (bWc c (V6 m ρ)) (bWd c (V6 m ρ)) (bWf c (V6 m ρ)) (bW2t c (V6 m ρ)) (bEx c (V6 m ρ))
    (v4_apply m ρ c hin) (v5_apply m ρ c hin) (v6_apply m ρ c hin) (v7_apply m ρ c hin)
    (v9_apply m ρ c) (v10_apply m ρ c) (v11_apply m ρ c) (v12_apply m ρ c) (v13_apply m ρ c) (v14_apply m ρ c)
    (v22_apply m ρ c) e q

/-- The second result buffer at the end of the run. -/
theorem res1 (hin : InRange m c) :
    (W9 m ρ c (Proc.devRef .tc main_v23_0) : Mat 800000 8) = G1 (A0 m c) (A1 m c) (A2 m c) (A3 m c) (A4 m c) (A5 m c) := by
  rw [W9_v23_0]
  funext i
  obtain ⟨e, k, rfl⟩ : ∃ (e : Fin 800000) (k : Fin 8), i = ix2 e k := ⟨i 0, i 1, eq_ix2 i⟩
  rw [G1_apply]
  exact gates_eq m ρ c hin e k

/-- The first result buffer at the end of the run. -/
theorem res0 (hin : InRange m c) :
    (W9 m ρ c (Proc.devRef .tc main_v28) : Mat 50000 128)
      = G0 (A0 m c) (A1 m c) (A2 m c) (A3 m c) (A4 m c) (A5 m c) (A6 m c) := by
  rw [W9_v28]
  funext i
  obtain ⟨n, p, rfl⟩ : ∃ (n : Fin 50000) (p : Fin 128), i = ix2 n p := ⟨i 0, i 1, eq_ix2 i⟩
  rw [G0_apply, arr2_apply]
  unfold proj agg
  refine Finset.sum_congr rfl fun q _ => ?_
  rw [v26_apply, v27_apply]
  refine congrArg (· * A6 m c (ix2 p q)) ?_
  refine Finset.sum_congr rfl fun e _ => ?_
  rw [gated_eq m ρ c hin]

end Cert.KernelIdeal.Val

end
-- ==== Proof.PreDecode.lean ====
/-
  The precondition read back: its last conjunct says every index word of the edge array lies in [-50000, 50000).
  The precondition is a conjunction of seven "all entries" claims; the last one is, at each entry x of the edge array,
  the conjunction of the signed compares -50000 ≤ x and x < 50000 against constants laid over the whole array. A
  conjunction of one-bit words is 1 exactly when both are; an "all" that is 1 had 1 at every entry; a signed compare that
  is 1 is the order of the signed values.
-/
import proofs.«411225_j5987184410675_1_alg».proof.Defs
import proofs.«411225_j5987184410675_1_alg».proof.Proof.Gen.Pre_finite_inputs
import proofs.«411225_j5987184410675_1_alg».proof.Proof.Args
import Idealize.ShloMosaic.Lib.ReduceAll
import Idealize.ShloMosaic.Lib.StableHlo.Predicate

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (V : (c : Dev nD) → (b : Ref sig .tc) → Buf (Elt Ideal) ((c : Thread nD τ).loc b))

/-- A signed "at least" compare that holds is the order of the signed values. -/
private theorem sge_one {x y : BitVec 32} (h : IntOp.cmpi .sge x y = 1#1) : y.toInt ≤ x.toInt := by
  unfold IntOp.cmpi at h
  rw [StableHlo.Predicate.ofBool_eq_one_iff] at h
  simpa only [BitVec.sle, decide_eq_true_eq] using h

/-- A signed "less than" compare that holds is the strict order of the signed values. -/
private theorem slt_one {x y : BitVec 32} (h : IntOp.cmpi .slt x y = 1#1) : x.toInt < y.toInt := by
  unfold IntOp.cmpi at h
  rw [StableHlo.Predicate.ofBool_eq_one_iff] at h
  simpa only [BitVec.slt, decide_eq_true_eq] using h

theorem inRange_of_pre (hpre : Cert.Pre_KernelIdeal m) : InRange m c := by
  intro i
  -- the precondition at the one index of its rank-0 result, as the printed chain of conjunctions
  have h := congrFun (hpre c) ValueIdx.ix0
  dsimp only [Cert.Pre_finite_inputs.fn, Cert.Pre_finite_inputs.fn_part1, Cert.Pre_finite_inputs.fn_part2] at h
  -- its last conjunct: the "all" over both axes of the entrywise range test of the edge array
  have h2 := (IntOp.andi_eq_one.1 h).2
  -- the rank-0 result has a single index, so an "all" that holds holds at entry i
  haveI : Subsingleton Cert.Pre_finite_inputs.S_.Idx := ⟨fun a b => funext fun d => d.elim0⟩
  have h3 := Host.reduce_andi_all _ _ _ _ _ h2 i
  obtain ⟨hge, hlt⟩ := IntOp.andi_eq_one.1 h3
  -- a constant laid over the array reads the constant at every entry
  have hge' : IntOp.cmpi .sge (A2 m c i) 4294917296#32 = 1#1 := hge
  have hlt' : IntOp.cmpi .slt (A2 m c i) 50000#32 = 1#1 := hlt
  -- the two constants' signed values
  have e1 : (4294917296#32 : BitVec 32).toInt = -50000 := by decide
  have e2 : (50000#32 : BitVec 32).toInt = 50000 := by decide
  exact ⟨e1 ▸ sge_one hge', e2 ▸ slt_one hlt'⟩

end Cert.KernelIdeal.Val

end
-- ==== Proof.RefGate.lean ====
/-
  The reference's gates, read at an entry: the row of the concatenation (h s | h d | xs s | xs d | ef e) against a row of
  W1 splits into the five partial sums over the pieces; relu, the second product, and the logistic written as
  1 / (1 + exp (-x)).

  In order: a sum over 304 entries as the sum of its stretches of 128, 128, 16, 16 and 16 entries; the four index words
  (a row of the edge array, a negative word counted back from the end of the node axis) and the four row gathers, each
  reading the row `rowOf` of its word; the concatenation read in each of its five pieces; the first product as `hpre`,
  the second against the relu, and the quotient 1 / (1 + exp (-x)) as the logistic.
-/
import proofs.«411225_j5987184410675_1_alg».proof.Proof.Gen.ReferenceIdeal.Read
import proofs.«411225_j5987184410675_1_alg».proof.Proof.Spec
import proofs.«411225_j5987184410675_1_alg».proof.Proof.LibRowGatherScatter
import Idealize.ShloMosaic.Lib.Pipeline.Value
import Idealize.ShloMosaic.Lib.IdealHost

set_option maxRecDepth 16384

noncomputable section

namespace Cert.ReferenceIdeal.RefVal
open Cert.ReferenceIdeal Idealize.ShloMosaic Idealize.ShloMosaic.ValueIdx Cert.Spec

/-! ## A sum over the 304 columns, by pieces -/

/-- A sum over 304 entries is the sum of its five consecutive stretches of 128, 128, 16, 16 and 16 entries. -/
private theorem sum304_split {M : Type*} [AddCommMonoid M] (f : Fin 304 → M) :
    ∑ i : Fin 304, f i
      = (∑ i : Fin 128, f ⟨i.val, by omega⟩) + (∑ i : Fin 128, f ⟨128 + i.val, by omega⟩)
        + (∑ i : Fin 16, f ⟨256 + i.val, by omega⟩) + (∑ i : Fin 16, f ⟨272 + i.val, by omega⟩)
        + (∑ i : Fin 16, f ⟨288 + i.val, by omega⟩) := by
  show ∑ i : Fin (128 + (128 + (16 + (16 + 16)))), f i = _
  rw [Fin.sum_univ_add, Fin.sum_univ_add, Fin.sum_univ_add, Fin.sum_univ_add]
  simp only [← add_assoc]
  refine congrArg₂ (· + ·) (congrArg₂ (· + ·) (congrArg₂ (· + ·) (congrArg₂ (· + ·) ?_ ?_) ?_) ?_) ?_ <;>
    exact Finset.sum_congr rfl fun i _ => congrArg f (Fin.ext (by
      simp only [Fin.coe_natAdd, Fin.coe_castAdd] <;> omega))

/-! ## The index words and the four gathers -/

/-- Row 1 of the edge array, flattened: entry e is the source word of edge e. -/
private theorem v1_at (x2 : (⟨2, ![2, 800000]⟩ : Shape).Idx → BitVec 32) (e : Fin 800000) :
    Read.val_main_v1 (F := Ideal) x2 (ix1 e) = x2 (ix2 1 e) := by
  rw [Read.val_main_v1_apply, Read.val_main_v0_apply]
  congr 1
  funext a
  refine Fin.ext ?_
  match a with
  | ⟨0, _⟩ => rfl
  | ⟨1, _⟩ => exact Nat.mod_eq_of_lt e.isLt

/-- Row 0 of the edge array, flattened: entry e is the target word of edge e. -/
private theorem v3_at (x2 : (⟨2, ![2, 800000]⟩ : Shape).Idx → BitVec 32) (e : Fin 800000) :
    Read.val_main_v3 (F := Ideal) x2 (ix1 e) = x2 (ix2 0 e) := by
  rw [Read.val_main_v3_apply, Read.val_main_v2_apply]
  congr 1
  funext a
  refine Fin.ext ?_
  match a with
  | ⟨0, _⟩ => rfl
  | ⟨1, _⟩ => exact Nat.mod_eq_of_lt e.isLt

/-- The one-column index array's entry (e, 0) is the flat array's entry e. -/
private theorem col0 (e : Fin 800000) : Read.idx_main_v9 (ix2 e 0) = ix1 e :=
  funext fun a => Fin.ext (by match a with | ⟨0, _⟩ => rfl)

private theorem word_v9 (x2 : (⟨2, ![2, 800000]⟩ : Shape).Idx → BitVec 32) (e : Fin 800000) :
    Read.val_main_v9 (F := Ideal) x2 (ix2 e 0) = wrapW (x2 (ix2 1 e)) := by
  rw [Read.val_main_v9_apply, col0, Read.val_main_v8_apply, Read.val_main_v5_apply, Read.val_main_v7_apply,
    Read.val_main_v4_apply, Read.val_main_v6_apply, Read.val_main_c_apply, Read.val_main_c_0_apply, v1_at]
  rfl

private theorem word_v16 (x2 : (⟨2, ![2, 800000]⟩ : Shape).Idx → BitVec 32) (e : Fin 800000) :
    Read.val_main_v16 (F := Ideal) x2 (ix2 e 0) = wrapW (x2 (ix2 0 e)) := by
  rw [Read.val_main_v16_apply,
    show Read.idx_main_v16 (ix2 e 0) = ix1 e from funext fun a => Fin.ext (by match a with | ⟨0, _⟩ => rfl), Read.val_main_v15_apply, Read.val_main_v12_apply, Read.val_main_v14_apply,
    Read.val_main_v11_apply, Read.val_main_v13_apply, Read.val_main_c_1_apply, Read.val_main_c_2_apply, v3_at]
  rfl

private theorem word_v23 (x2 : (⟨2, ![2, 800000]⟩ : Shape).Idx → BitVec 32) (e : Fin 800000) :
    Read.val_main_v23 (F := Ideal) x2 (ix2 e 0) = wrapW (x2 (ix2 1 e)) := by
  rw [Read.val_main_v23_apply,
    show Read.idx_main_v23 (ix2 e 0) = ix1 e from funext fun a => Fin.ext (by match a with | ⟨0, _⟩ => rfl), Read.val_main_v22_apply, Read.val_main_v19_apply, Read.val_main_v21_apply,
    Read.val_main_v18_apply, Read.val_main_v20_apply, Read.val_main_c_3_apply, Read.val_main_c_4_apply, v1_at]
  rfl

private theorem word_v30 (x2 : (⟨2, ![2, 800000]⟩ : Shape).Idx → BitVec 32) (e : Fin 800000) :
    Read.val_main_v30 (F := Ideal) x2 (ix2 e 0) = wrapW (x2 (ix2 0 e)) := by
  rw [Read.val_main_v30_apply,
    show Read.idx_main_v30 (ix2 e 0) = ix1 e from funext fun a => Fin.ext (by match a with | ⟨0, _⟩ => rfl), Read.val_main_v29_apply, Read.val_main_v26_apply, Read.val_main_v28_apply,
    Read.val_main_v25_apply, Read.val_main_v27_apply, Read.val_main_c_5_apply, Read.val_main_c_6_apply, v3_at]
  rfl

/-- The row a gather reads for a normalised word is the row of the word. -/
private theorem row_eq (w w' : BitVec 32) (h : w = wrapW w') (hlt : min w.toInt.toNat (50000 - 1) < 50000) :
    (⟨min w.toInt.toNat (50000 - 1), hlt⟩ : Fin 50000) = rowOf w' := by
  subst h; rfl

private theorem v10_at (x0 : Mat 50000 128) (x2 : (⟨2, ![2, 800000]⟩ : Shape).Idx → BitVec 32) (e : Fin 800000)
    (q : Fin 128) : Read.val_main_v10 (F := Ideal) x0 x2 (ix2 e q) = x0 (ix2 (src x2 e) q) := by
  unfold Read.val_main_v10
  exact (Cert.Lib.RowPass.ga_apply (N := 50000) (E := 800000) (W := 128) (by decide) (by decide) x0
    (Read.val_main_v9 (F := Ideal) x2) e q).trans
    (congrArg (fun r => x0 (ix2 r q)) (row_eq _ _ (word_v9 x2 e) _))

private theorem v17_at (x0 : Mat 50000 128) (x2 : (⟨2, ![2, 800000]⟩ : Shape).Idx → BitVec 32) (e : Fin 800000)
    (q : Fin 128) : Read.val_main_v17 (F := Ideal) x0 x2 (ix2 e q) = x0 (ix2 (dst x2 e) q) := by
  unfold Read.val_main_v17
  exact (Cert.Lib.RowPass.ga_apply (N := 50000) (E := 800000) (W := 128) (by decide) (by decide) x0
    (Read.val_main_v16 (F := Ideal) x2) e q).trans
    (congrArg (fun r => x0 (ix2 r q)) (row_eq _ _ (word_v16 x2 e) _))

private theorem v24_at (x1 : Mat 50000 16) (x2 : (⟨2, ![2, 800000]⟩ : Shape).Idx → BitVec 32) (e : Fin 800000)
    (q : Fin 16) : Read.val_main_v24 (F := Ideal) x1 x2 (ix2 e q) = x1 (ix2 (src x2 e) q) := by
  unfold Read.val_main_v24
  exact (Cert.Lib.RowPass.ga_apply (N := 50000) (E := 800000) (W := 16) (by decide) (by decide) x1
    (Read.val_main_v23 (F := Ideal) x2) e q).trans
    (congrArg (fun r => x1 (ix2 r q)) (row_eq _ _ (word_v23 x2 e) _))

private theorem v31_at (x1 : Mat 50000 16) (x2 : (⟨2, ![2, 800000]⟩ : Shape).Idx → BitVec 32) (e : Fin 800000)
    (q : Fin 16) : Read.val_main_v31 (F := Ideal) x1 x2 (ix2 e q) = x1 (ix2 (dst x2 e) q) := by
  unfold Read.val_main_v31
  exact (Cert.Lib.RowPass.ga_apply (N := 50000) (E := 800000) (W := 16) (by decide) (by decide) x1
    (Read.val_main_v30 (F := Ideal) x2) e q).trans
    (congrArg (fun r => x1 (ix2 r q)) (row_eq _ _ (word_v30 x2 e) _))

/-! ## The concatenation, read in each of its five pieces -/

private theorem v32_at_0 (x0 : Mat 50000 128) (x1 : Mat 50000 16) (x2 : (⟨2, ![2, 800000]⟩ : Shape).Idx → BitVec 32)
    (x3 : Mat 800000 16) (e : Fin 800000) (i : Fin 128) :
    Read.val_main_v32 (F := Ideal) x0 x1 x2 x3 (ix2 e ⟨i.val, by omega⟩)
      = Read.val_main_v10 (F := Ideal) x0 x2 (ix2 e i) := by
  unfold Read.val_main_v32
  refine concatenate_apply_piece (t := S800000x304) (1 : Fin 2) _ _ _ 0 ?_ S800000x128 (Read.val_main_v10 (F := Ideal) x0 x2) ?_ rfl 0 ?_ (ix2 e i) ?_ ?_
  · show (0 : Nat) < 5
    omega
  · rfl
  · rfl
  · intro b hb
    match b with
    | ⟨0, _⟩ => rfl
    | ⟨1, _⟩ => exact absurd rfl hb
  · exact Nat.zero_add _

private theorem v32_at_1 (x0 : Mat 50000 128) (x1 : Mat 50000 16) (x2 : (⟨2, ![2, 800000]⟩ : Shape).Idx → BitVec 32)
    (x3 : Mat 800000 16) (e : Fin 800000) (i : Fin 128) :
    Read.val_main_v32 (F := Ideal) x0 x1 x2 x3 (ix2 e ⟨128 + i.val, by omega⟩)
      = Read.val_main_v17 (F := Ideal) x0 x2 (ix2 e i) := by
  unfold Read.val_main_v32
  refine concatenate_apply_piece (t := S800000x304) (1 : Fin 2) _ _ _ 1 ?_ S800000x128 (Read.val_main_v17 (F := Ideal) x0 x2) ?_ rfl 128 ?_ (ix2 e i) ?_ ?_
  · show (1 : Nat) < 5
    omega
  · rfl
  · rfl
  · intro b hb
    match b with
    | ⟨0, _⟩ => rfl
    | ⟨1, _⟩ => exact absurd rfl hb
  · rfl

private theorem v32_at_2 (x0 : Mat 50000 128) (x1 : Mat 50000 16) (x2 : (⟨2, ![2, 800000]⟩ : Shape).Idx → BitVec 32)
    (x3 : Mat 800000 16) (e : Fin 800000) (i : Fin 16) :
    Read.val_main_v32 (F := Ideal) x0 x1 x2 x3 (ix2 e ⟨256 + i.val, by omega⟩)
      = Read.val_main_v24 (F := Ideal) x1 x2 (ix2 e i) := by
  unfold Read.val_main_v32
  refine concatenate_apply_piece (t := S800000x304) (1 : Fin 2) _ _ _ 2 ?_ S800000x16 (Read.val_main_v24 (F := Ideal) x1 x2) ?_ rfl 256 ?_ (ix2 e i) ?_ ?_
  · show (2 : Nat) < 5
    omega
  · rfl
  · rfl
  · intro b hb
    match b with
    | ⟨0, _⟩ => rfl
    | ⟨1, _⟩ => exact absurd rfl hb
  · rfl

private theorem v32_at_3 (x0 : Mat 50000 128) (x1 : Mat 50000 16) (x2 : (⟨2, ![2, 800000]⟩ : Shape).Idx → BitVec 32)
    (x3 : Mat 800000 16) (e : Fin 800000) (i : Fin 16) :
    Read.val_main_v32 (F := Ideal) x0 x1 x2 x3 (ix2 e ⟨272 + i.val, by omega⟩)
      = Read.val_main_v31 (F := Ideal) x1 x2 (ix2 e i) := by
  unfold Read.val_main_v32
  refine concatenate_apply_piece (t := S800000x304) (1 : Fin 2) _ _ _ 3 ?_ S800000x16 (Read.val_main_v31 (F := Ideal) x1 x2) ?_ rfl 272 ?_ (ix2 e i) ?_ ?_
  · show (3 : Nat) < 5
    omega
  · rfl
  · rfl
  · intro b hb
    match b with
    | ⟨0, _⟩ => rfl
    | ⟨1, _⟩ => exact absurd rfl hb
  · rfl

private theorem v32_at_4 (x0 : Mat 50000 128) (x1 : Mat 50000 16) (x2 : (⟨2, ![2, 800000]⟩ : Shape).Idx → BitVec 32)
    (x3 : Mat 800000 16) (e : Fin 800000) (i : Fin 16) :
    Read.val_main_v32 (F := Ideal) x0 x1 x2 x3 (ix2 e ⟨288 + i.val, by omega⟩) = x3 (ix2 e i) := by
  unfold Read.val_main_v32
  refine concatenate_apply_piece (t := S800000x304) (1 : Fin 2) _ _ _ 4 ?_ S800000x16 (x3) ?_ rfl 288 ?_ (ix2 e i) ?_ ?_
  · show (4 : Nat) < 5
    omega
  · rfl
  · rfl
  · intro b hb
    match b with
    | ⟨0, _⟩ => rfl
    | ⟨1, _⟩ => exact absurd rfl hb
  · rfl

/-! ## The two products and the logistic -/

/-- One term of the first product: the concatenated row's entry c against W1's entry (j, c). -/
private theorem v34_term (x0 : Mat 50000 128) (x1 : Mat 50000 16) (x2 : (⟨2, ![2, 800000]⟩ : Shape).Idx → BitVec 32)
    (x3 : Mat 800000 16) (x4 : Mat 256 304) (e : Fin 800000) (j : Fin 256) (c : Fin 304) :
    Read.val_main_v32 (F := Ideal) x0 x1 x2 x3 (Read.lidx_main_v34 (ix2 e j) c)
        * Read.val_main_v33 (F := Ideal) x4 (Read.ridx_main_v34 (ix2 e j) c)
      = Read.val_main_v32 (F := Ideal) x0 x1 x2 x3 (ix2 e c) * x4 (ix2 j c) := by
  rw [Read.val_main_v33_apply,
    show Read.lidx_main_v34 (ix2 e j) c = ix2 e c from
      funext fun a => Fin.ext (by match a with | ⟨0, _⟩ => rfl | ⟨1, _⟩ => rfl),
    show Read.idx_main_v33 (Read.ridx_main_v34 (ix2 e j) c) = ix2 j c from
      funext fun a => Fin.ext (by match a with | ⟨0, _⟩ => rfl | ⟨1, _⟩ => rfl)]

/-- The first product at (e, j) is the hidden layer before its relu. -/
private theorem ref_hpre (x0 : Mat 50000 128) (x1 : Mat 50000 16) (x2 : (⟨2, ![2, 800000]⟩ : Shape).Idx → BitVec 32)
    (x3 : Mat 800000 16) (x4 : Mat 256 304) (e : Fin 800000) (j : Fin 256) :
    Read.val_main_v34 (F := Ideal) x0 x1 x2 x3 x4 (ix2 e j) = hpre x0 x1 x2 x3 x4 e j := by
  rw [Read.val_main_v34_apply, Finset.sum_congr rfl (fun c _ => v34_term x0 x1 x2 x3 x4 e j c), sum304_split]
  simp only [v32_at_0, v32_at_1, v32_at_2, v32_at_3, v32_at_4, v10_at, v17_at, v24_at, v31_at]
  rfl

/-- One term of the second product: the relu of the hidden layer's entry c against W2's entry (k, c). -/
private theorem v37_term (x0 : Mat 50000 128) (x1 : Mat 50000 16) (x2 : (⟨2, ![2, 800000]⟩ : Shape).Idx → BitVec 32)
    (x3 : Mat 800000 16) (x4 : Mat 256 304) (x5 : Mat 8 256) (e : Fin 800000) (k : Fin 8) (c : Fin 256) :
    Read.val_main_v35 (F := Ideal) x0 x1 x2 x3 x4 (Read.lidx_main_v37 (ix2 e k) c)
        * Read.val_main_v36 (F := Ideal) x5 (Read.ridx_main_v37 (ix2 e k) c)
      = max (hpre x0 x1 x2 x3 x4 e c) 0 * x5 (ix2 k c) := by
  rw [Read.val_main_v36_apply,
    show Read.lidx_main_v37 (ix2 e k) c = ix2 e c from
      funext fun a => Fin.ext (by match a with | ⟨0, _⟩ => rfl | ⟨1, _⟩ => rfl),
    show Read.idx_main_v36 (Read.ridx_main_v37 (ix2 e k) c) = ix2 k c from
      funext fun a => Fin.ext (by match a with | ⟨0, _⟩ => rfl | ⟨1, _⟩ => rfl),
    Read.val_main_v35_apply, Read.val_main_call0_v0_apply, Read.val_main_call0_cst_apply, ref_hpre,
    Ideal.maximumf_def, Ideal.ofBits_def, Ideal.ofBits_zero_f32]

theorem ref_gate (x0 : Mat 50000 128) (x1 : Mat 50000 16) (x2 : (⟨2, ![2, 800000]⟩ : Shape).Idx → BitVec 32) (x3 : Mat 800000 16)
    (x4 : Mat 256 304) (x5 : Mat 8 256) (e : Fin 800000) (k : Fin 8) :
    Cert.ReferenceIdeal.Read.val_main_v43 (F := Ideal) x0 x1 x2 x3 x4 x5 (ix2 e k) = gate x0 x1 x2 x3 x4 x5 e k := by
  rw [Read.val_main_v43_apply, Read.val_main_v42_apply, Read.val_main_cst_7_apply, Read.val_main_v41_apply,
    Read.val_main_v40_apply, Read.val_main_cst_apply, Read.val_main_v39_apply, Read.val_main_v38_apply,
    Read.val_main_v37_apply, Finset.sum_congr rfl (fun c _ => v37_term x0 x1 x2 x3 x4 x5 e k c),
    Ideal.hostDivf_def, Ideal.addf_def, Ideal.hostUnary_exp_def, Ideal.hostNegf_def, Ideal.negf_def,
    Ideal.ofBits_def, Ideal.ofBits_one_f32]
  rfl

end Cert.ReferenceIdeal.RefVal

end
-- ==== Proof.RefProj.lean ====
/-
  The reference's projected aggregate, read at an entry: node rows split into 8 heads of 16 lanes, gathered at the
  source, scaled by the head's gate, scatter-added by the target word, merged back to 128 lanes and multiplied by the
  transposed output weight.

  Two general facts come first, for an operand of shape [N, A, B], index arrays of shape [E, 1] and updates or results
  of shape [E, A, B]. The row gather (offset axes 1 and 2, collapsed axis 0, start index map [0], index vector axis 1,
  slice sizes [1, A, B]) at (e, a, b) is the operand at row min(idx[e], N - 1) (the index read signed and clamped),
  head a, lane b. The row scatter-add (update window axes 1 and 2, inserted window axis 0, scatter axis 0, index vector
  axis 1) at (n, a, b) is the operand there plus the sum, over the edges e whose index idx[e], read signed, is n, of
  the update (e, a, b): an edge whose index is not a row contributes nothing.

  Then the stages. The gather's index of edge e is the normalised source word, so the gathered row is the source row of
  e; the reshape [50000, 128] → [50000, 8, 16] puts lane 16 a + b at (a, b); the broadcast gate at (e, a, b) is the gate
  of head a; the scatter's index of edge e is the raw target word and its operand is zero. The reshape back reads lane q
  at (q / 16, q % 16), and 16 (q / 16) + q % 16 = q, so entry (n, q) is the aggregate agg n q; the last product against
  the transposed weight is the sum over q of agg n q times Wo p q.
-/
import proofs.«411225_j5987184410675_1_alg».proof.Proof.Gen.ReferenceIdeal.Read
import proofs.«411225_j5987184410675_1_alg».proof.Proof.Spec
import proofs.«411225_j5987184410675_1_alg».proof.Proof.RefGate
import Idealize.ShloMosaic.Lib.Pipeline.Value

set_option maxRecDepth 16384

noncomputable section

namespace Cert.ReferenceIdeal.RefVal
open Cert.ReferenceIdeal Idealize.ShloMosaic Idealize.ShloMosaic.ValueIdx Cert.Spec

/-! ## Rank-3 indices -/

/-- A rank-3 index set is the product of its three coordinate ranges. -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An axis of a rank-3 shape is 0, 1 or 2. -/
private theorem fin3_cases (a : Fin 3) : a = 0 ∨ a = 1 ∨ a = 2 := by
  revert a; decide

/-! ## The scatter-add of [E, A, B] updates into [N, A, B] rows, at an entry -/

section Generic

/-- The dimension numbers of the scatter of [E, A, B] updates into an [N, A, B] operand by [E, 1] row indices. -/
private abbrev scD3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

variable {N E A B w : Nat} (wf : ScatterDims.WF ⟨3, ![N, A, B]⟩ ⟨2, ![E, 1]⟩ ⟨3, ![E, A, B]⟩ [1, 2] [0] [0] 1)

/-- On the row axis the window of update (e, a, b) starts at the index word of e, read signed. -/
private theorem sc3_start0 (idx : IVec ⟨2, ![E, 1]⟩ w) (e : Fin E) (a : Fin A) (b : Fin B) :
    (scD3 N E A B wf).start (ix3 e a b) idx 0 = (idx (ix2 e 0)).toInt := by
  unfold ScatterDims.start
  rw [dif_pos (show (0 : Fin 3) ∈ (scD3 N E A B wf).scatterDimsToOperandDims from List.mem_singleton.mpr rfl)]
  congr 2
  funext c
  match c with
  | ⟨0, _⟩ => rfl
  | ⟨1, _⟩ => rfl

/-- On the head axis every window starts at 0. -/
private theorem sc3_start1 (idx : IVec ⟨2, ![E, 1]⟩ w) (e : Fin E) (a : Fin A) (b : Fin B) :
    (scD3 N E A B wf).start (ix3 e a b) idx 1 = 0 := by
  unfold ScatterDims.start
  rw [dif_neg (show (1 : Fin 3) ∉ ([0] : List (Fin 3)) by decide)]

/-- On the lane axis every window starts at 0. -/
private theorem sc3_start2 (idx : IVec ⟨2, ![E, 1]⟩ w) (e : Fin E) (a : Fin A) (b : Fin B) :
    (scD3 N E A B wf).start (ix3 e a b) idx 2 = 0 := by
  unfold ScatterDims.start
  rw [dif_neg (show (2 : Fin 3) ∉ ([0] : List (Fin 3)) by decide)]

/-- The row axis is inserted: the window coordinate there is 0. -/
private theorem sc3_window0 (e : Fin E) (a : Fin A) (b : Fin B) : (scD3 N E A B wf).window (ix3 e a b) 0 = 0 := by
  unfold ScatterDims.window
  have h : (0 : Fin 3) ∉ (scD3 N E A B wf).sKept :=
    (by decide : (0 : Fin 3) ∉ (List.finRange 3).filter (fun c => c ∉ ([0] : List (Fin 3))))
  rw [dif_neg h]

/-- On the head axis the window coordinate of update (e, a, b) is a. -/
private theorem sc3_window1 (e : Fin E) (a : Fin A) (b : Fin B) : (scD3 N E A B wf).window (ix3 e a b) 1 = a.val := by
  unfold ScatterDims.window
  have h : (1 : Fin 3) ∈ (scD3 N E A B wf).sKept :=
    (by decide : (1 : Fin 3) ∈ (List.finRange 3).filter (fun c => c ∉ ([0] : List (Fin 3))))
  rw [dif_pos h]
  rfl

/-- On the lane axis the window coordinate of update (e, a, b) is b. -/
private theorem sc3_window2 (e : Fin E) (a : Fin A) (b : Fin B) : (scD3 N E A B wf).window (ix3 e a b) 2 = b.val := by
  unfold ScatterDims.window
  have h : (2 : Fin 3) ∈ (scD3 N E A B wf).sKept :=
    (by decide : (2 : Fin 3) ∈ (List.finRange 3).filter (fun c => c ∉ ([0] : List (Fin 3))))
  rw [dif_pos h]
  rfl

/-- Update (e, a, b) lands at (n, a', b') exactly when the index word of e, read signed, is n and (a, b) = (a', b'):
    an update whose word is not a row lands nowhere. -/
private theorem sc3_result_iff (idx : IVec ⟨2, ![E, 1]⟩ w) (e : Fin E) (a a' : Fin A) (b b' : Fin B) (n : Fin N) :
    (scD3 N E A B wf).resultIdx? (ix3 e a b) idx = some (ix3 n a' b')
      ↔ (idx (ix2 e 0)).toInt = (n.val : Int) ∧ a = a' ∧ b = b' := by
  have ha := a.isLt
  have hb := b.isLt
  have hn := n.isLt
  unfold ScatterDims.resultIdx?
  split
  · rename_i h
    constructor
    · intro hs
      have hs' := Option.some.inj hs
      have e0 := congrArg (fun f => (f 0).val) hs'
      have e1 := congrArg (fun f => (f 1).val) hs'
      have e2 := congrArg (fun f => (f 2).val) hs'
      have h0 := h 0
      rw [sc3_start0, sc3_window0] at h0
      simp only [sc3_start0, sc3_start1, sc3_start2, sc3_window0, sc3_window1, sc3_window2] at e0 e1 e2
      refine ⟨?_, Fin.ext ?_, Fin.ext ?_⟩
      · change _ = n.val at e0
        omega
      · change _ = a'.val at e1
        omega
      · change _ = b'.val at e2
        omega
    · rintro ⟨ht, rfl, rfl⟩
      congr 1
      funext c
      refine Fin.ext ?_
      rcases fin3_cases c with rfl | rfl | rfl
      · show ((scD3 N E A B wf).start (ix3 e a b) idx 0 + ((scD3 N E A B wf).window (ix3 e a b) 0 : Int)).toNat = n.val
        rw [sc3_start0, sc3_window0, ht]; omega
      · show ((scD3 N E A B wf).start (ix3 e a b) idx 1 + ((scD3 N E A B wf).window (ix3 e a b) 1 : Int)).toNat = a.val
        rw [sc3_start1, sc3_window1]; omega
      · show ((scD3 N E A B wf).start (ix3 e a b) idx 2 + ((scD3 N E A B wf).window (ix3 e a b) 2 : Int)).toNat = b.val
        rw [sc3_start2, sc3_window2]; omega
  · rename_i h
    constructor
    · intro hs; exact absurd hs (by simp)
    · rintro ⟨ht, rfl, rfl⟩
      exfalso; apply h
      intro c
      rcases fin3_cases c with rfl | rfl | rfl
      · rw [sc3_start0, sc3_window0, ht]
        show (0 : Int) ≤ (n.val : Int) + ((0 : Nat) : Int) ∧ (n.val : Int) + ((0 : Nat) : Int) < (N : Int)
        omega
      · rw [sc3_start1, sc3_window1]
        show (0 : Int) ≤ 0 + (a.val : Int) ∧ 0 + (a.val : Int) < (A : Int)
        omega
      · rw [sc3_start2, sc3_window2]
        show (0 : Int) ≤ 0 + (b.val : Int) ∧ 0 + (b.val : Int) < (B : Int)
        omega

/-- The scatter-add at entry (n, a, b): the operand there plus the sum, over the edges e whose index word read signed is
    n, of the update (e, a, b). -/
private theorem sc3_apply (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd (scD3 N E A B wf) x idx upd (ix3 n a b)
      = x (ix3 n a b) + ∑ e : Fin E, if (idx (ix2 e 0)).toInt = (n.val : Int) then upd (ix3 e a b) else 0 := by
  show x (ix3 n a b)
    + ∑ j ∈ Finset.univ.filter (fun j => (scD3 N E A B wf).resultIdx? j idx = some (ix3 n a b)), upd j = _
  congr 1
  rw [Finset.sum_filter, sum_idx3]
  refine Finset.sum_congr rfl fun e _ => ?_
  rw [Finset.sum_eq_single a]
  · rw [Finset.sum_eq_single b]
    · exact if_congr ((sc3_result_iff wf idx e a a b b n).trans ⟨fun h => h.1, fun h => ⟨h, rfl, rfl⟩⟩) rfl rfl
    · intro b' _ hb'
      exact if_neg fun h => hb' ((sc3_result_iff wf idx e a a b' b n).mp h).2.2
    · intro h; exact absurd (Finset.mem_univ _) h
  · intro a' _ ha'
    exact Finset.sum_eq_zero fun b' _ => if_neg fun h => ha' ((sc3_result_iff wf idx e a' a b' b n).mp h).2.1
  · intro h; exact absurd (Finset.mem_univ _) h

/-! ## The gather of [1, A, B] slices of an [N, A, B] operand, at an entry -/

/-- The dimension numbers of the gather of [1, A, B] slices of an [N, A, B] operand at [E, 1] row indices. -/
private abbrev gaD3 (N E A B : Nat)
    (wfg : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wfg

variable (wfg : GatherDims.WF ⟨3, ![N, A, B]⟩ ⟨2, ![E, 1]⟩ ⟨3, ![E, A, B]⟩ [1, 2] [0] [] [0] [] 1 ![1, A, B])

/-- On the row axis the slice of result (e, a, b) starts at the index word of e, read signed and clamped into
    [0, N - 1]. -/
private theorem ga3_start0 (idx : IVec ⟨2, ![E, 1]⟩ w) (e : Fin E) (a : Fin A) (b : Fin B) :
    (gaD3 N E A B wfg).start (ix3 e a b) idx 0 = min (idx (ix2 e 0)).toInt.toNat (N - 1) := by
  unfold GatherDims.start
  rw [dif_pos (show (0 : Fin 3) ∈ (gaD3 N E A B wfg).startIndexMap from List.mem_singleton.mpr rfl)]
  have hsi : (gaD3 N E A B wfg).siIdx (ix3 e a b) ⟨List.idxOf (0 : Fin 3) (gaD3 N E A B wfg).startIndexMap,
      List.idxOf_lt_length_iff.2 (List.mem_singleton.mpr rfl)⟩ = ix2 e 0 := by
    funext c
    match c with
    | ⟨0, _⟩ => rfl
    | ⟨1, _⟩ => rfl
  rw [hsi]
  rfl

/-- On the head axis every slice starts at 0. -/
private theorem ga3_start1 (idx : IVec ⟨2, ![E, 1]⟩ w) (e : Fin E) (a : Fin A) (b : Fin B) :
    (gaD3 N E A B wfg).start (ix3 e a b) idx 1 = 0 := by
  unfold GatherDims.start
  rw [dif_neg (show (1 : Fin 3) ∉ ([0] : List (Fin 3)) by decide)]

/-- On the lane axis every slice starts at 0. -/
private theorem ga3_start2 (idx : IVec ⟨2, ![E, 1]⟩ w) (e : Fin E) (a : Fin A) (b : Fin B) :
    (gaD3 N E A B wfg).start (ix3 e a b) idx 2 = 0 := by
  unfold GatherDims.start
  rw [dif_neg (show (2 : Fin 3) ∉ ([0] : List (Fin 3)) by decide)]

/-- The row axis is collapsed: the offset coordinate there is 0. -/
private theorem ga3_off0 (e : Fin E) (a : Fin A) (b : Fin B) : (gaD3 N E A B wfg).offCoord (ix3 e a b) 0 = 0 := by
  unfold GatherDims.offCoord
  have h : (0 : Fin 3) ∉ (gaD3 N E A B wfg).sKept :=
    (by decide : (0 : Fin 3) ∉ (List.finRange 3).filter (fun c => c ∉ ([0] ++ [] : List (Fin 3))))
  rw [dif_neg h]

/-- On the head axis the offset coordinate of result (e, a, b) is a. -/
private theorem ga3_off1 (e : Fin E) (a : Fin A) (b : Fin B) : (gaD3 N E A B wfg).offCoord (ix3 e a b) 1 = a.val := by
  unfold GatherDims.offCoord
  have h : (1 : Fin 3) ∈ (gaD3 N E A B wfg).sKept :=
    (by decide : (1 : Fin 3) ∈ (List.finRange 3).filter (fun c => c ∉ ([0] ++ [] : List (Fin 3))))
  rw [dif_pos h]
  rfl

/-- On the lane axis the offset coordinate of result (e, a, b) is b. -/
private theorem ga3_off2 (e : Fin E) (a : Fin A) (b : Fin B) : (gaD3 N E A B wfg).offCoord (ix3 e a b) 2 = b.val := by
  unfold GatherDims.offCoord
  have h : (2 : Fin 3) ∈ (gaD3 N E A B wfg).sKept :=
    (by decide : (2 : Fin 3) ∈ (List.finRange 3).filter (fun c => c ∉ ([0] ++ [] : List (Fin 3))))
  rw [dif_pos h]
  rfl

/-- The gather at (e, a, b): the operand at row min(word of e read signed, N - 1), head a, lane b. -/
private theorem ga3_apply {α : Type} (hN : 0 < N) (H : (⟨3, ![N, A, B]⟩ : Shape).Idx → α) (idx : IVec ⟨2, ![E, 1]⟩ w)
    (e : Fin E) (a : Fin A) (b : Fin B) :
    Host.gather (gaD3 N E A B wfg) H idx (ix3 e a b)
      = H (ix3 ⟨min (idx (ix2 e 0)).toInt.toNat (N - 1), by omega⟩ a b) := by
  unfold Host.gather
  congr 1
  funext c
  refine Fin.ext ?_
  rcases fin3_cases c with rfl | rfl | rfl
  · show (gaD3 N E A B wfg).start (ix3 e a b) idx 0 + (gaD3 N E A B wfg).batchCoord (ix3 e a b) 0
      + (gaD3 N E A B wfg).offCoord (ix3 e a b) 0 = min (idx (ix2 e 0)).toInt.toNat (N - 1)
    rw [ga3_start0, ga3_off0, GatherDims.batchCoord_eq_zero _ _ _ List.not_mem_nil, Nat.add_zero]
  · show (gaD3 N E A B wfg).start (ix3 e a b) idx 1 + (gaD3 N E A B wfg).batchCoord (ix3 e a b) 1
      + (gaD3 N E A B wfg).offCoord (ix3 e a b) 1 = a.val
    rw [ga3_start1, ga3_off1, GatherDims.batchCoord_eq_zero _ _ _ List.not_mem_nil]
    omega
  · show (gaD3 N E A B wfg).start (ix3 e a b) idx 2 + (gaD3 N E A B wfg).batchCoord (ix3 e a b) 2
      + (gaD3 N E A B wfg).offCoord (ix3 e a b) 2 = b.val
    rw [ga3_start2, ga3_off2, GatherDims.batchCoord_eq_zero _ _ _ List.not_mem_nil]
    omega

end Generic

/-! ## The reference's stages at an entry -/

section Stages

variable (x0 : Mat 50000 128) (x1 : Mat 50000 16) (x2 : (⟨2, ![2, 800000]⟩ : Shape).Idx → BitVec 32) (x3 : Mat 800000 16)
  (x4 : Mat 256 304) (x5 : Mat 8 256) (x6 : Mat 128 128)

/-- The scatter's index array at edge e is the raw target word of e (row 0 of the edge array). -/
private theorem v56_at (e : Fin 800000) :
    Read.val_main_v56 (F := Ideal) x2 (ix2 e 0) = x2 (ix2 0 e) := by
  rw [Read.val_main_v56_apply, Read.val_main_v3_apply, Read.val_main_v2_apply]
  congr 1
  funext a
  refine Fin.ext ?_
  match a with
  | ⟨0, _⟩ => rfl
  | ⟨1, _⟩ => show e.val % 800000 = e.val; omega

/-- The gather's index array at edge e is the normalised source word of e (row 1 of the edge array). -/
private theorem v50_at (e : Fin 800000) :
    Read.val_main_v50 (F := Ideal) x2 (ix2 e 0) = wrapW (x2 (ix2 1 e)) := by
  have h1 : Read.val_main_v1 (F := Ideal) x2 (Read.idx_main_v50 (ix2 e 0)) = x2 (ix2 1 e) := by
    rw [Read.val_main_v1_apply, Read.val_main_v0_apply]
    congr 1
    funext a
    refine Fin.ext ?_
    match a with
    | ⟨0, _⟩ => rfl
    | ⟨1, _⟩ => show e.val % 800000 = e.val; omega
  rw [Read.val_main_v50_apply, Read.val_main_v49_apply, Read.val_main_v46_apply, Read.val_main_v48_apply, h1,
    Read.val_main_v45_apply, Read.val_main_c_8_apply, Read.val_main_v47_apply, Read.val_main_c_9_apply]
  rfl

/-- The node features split into heads, at (r, a, b): row r, lane 16 a + b. -/
private theorem v44_at (r : Fin 50000) (a : Fin 8) (b : Fin 16) :
    Read.val_main_v44 (F := Ideal) x0 (ix3 r a b) = x0 (ix2 r ⟨16 * a.val + b.val, by omega⟩) := by
  rw [Read.val_main_v44_apply]
  congr 1
  have hr := r.isLt
  have ha := a.isLt
  have hb := b.isLt
  funext c
  refine Fin.ext ?_
  match c with
  | ⟨0, _⟩ =>
    show ((r.val * 8 + a.val) * 16 + b.val) / 128 = r.val
    omega
  | ⟨1, _⟩ =>
    show ((r.val * 8 + a.val) * 16 + b.val) % 128 = 16 * a.val + b.val
    omega

/-- The row the gather reads for edge e is the source row of e. -/
private theorem v50_row (e : Fin 800000) (h : min (Read.val_main_v50 (F := Ideal) x2 (ix2 e 0)).toInt.toNat (50000 - 1) < 50000) :
    (⟨min (Read.val_main_v50 (F := Ideal) x2 (ix2 e 0)).toInt.toNat (50000 - 1), h⟩ : Fin 50000) = src x2 e := by
  refine Fin.ext ?_
  show min (Read.val_main_v50 (F := Ideal) x2 (ix2 e 0)).toInt.toNat (50000 - 1) = min (wrapW (x2 (ix2 1 e))).toInt.toNat 49999
  rw [v50_at]

/-- The gathered source rows at (e, a, b): the node features at the source row of e, lane 16 a + b. -/
private theorem v51_at (e : Fin 800000) (a : Fin 8) (b : Fin 16) :
    Read.val_main_v51 (F := Ideal) x0 x2 (ix3 e a b)
      = x0 (ix2 (src x2 e) ⟨16 * a.val + b.val, by omega⟩) := by
  have hg : Read.val_main_v51 (F := Ideal) x0 x2
      = Host.gather (gaD3 50000 800000 8 16 Facts₀.gather_S50000x8x16_S800000x1_S800000x8x16_12_0_n_n_0_1_1816_wf)
          (Read.val_main_v44 (F := Ideal) x0) (Read.val_main_v50 (F := Ideal) x2) := rfl
  have hN : 0 < 50000 := by omega
  rw [hg, ga3_apply _ hN, v50_row, v44_at]
/-- The broadcast gates at (e, a, b): the gate of head a on edge e. -/
private theorem v53_at (e : Fin 800000) (a : Fin 8) (b : Fin 16) :
    Read.val_main_v53 (F := Ideal) x0 x1 x2 x3 x4 x5 (ix3 e a b) = gate x0 x1 x2 x3 x4 x5 e a := by
  rw [Read.val_main_v53_apply, Read.val_main_v52_apply, ← ref_gate]
  congr 1
  funext c
  refine Fin.ext ?_
  match c with
  | ⟨0, _⟩ => rfl
  | ⟨1, _⟩ => rfl

/-- The scatter-add at (n, a, b): the sum, over the edges whose target word read signed is n, of the source row's lane
    16 a + b times the gate of head a. -/
private theorem v57_at (n : Fin 50000) (a : Fin 8) (b : Fin 16) :
    Read.val_main_v57 (F := Ideal) x0 x1 x2 x3 x4 x5 (ix3 n a b)
      = ∑ e : Fin 800000, if (x2 (ix2 0 e)).toInt = (n.val : Int)
          then x0 (ix2 (src x2 e) ⟨16 * a.val + b.val, by omega⟩) * gate x0 x1 x2 x3 x4 x5 e a else 0 := by
  have hs : Read.val_main_v57 (F := Ideal) x0 x1 x2 x3 x4 x5
      = Ideal.hostScatterAdd (scD3 50000 800000 8 16 Facts₀.scatter_S50000x8x16_S800000x1_S800000x8x16_12_0_0_1_wf)
          (Read.val_main_v55 (F := Ideal)) (Read.val_main_v56 (F := Ideal) x2)
          (Read.val_main_v54 (F := Ideal) x0 x1 x2 x3 x4 x5) := rfl
  have hz : Read.val_main_v55 (F := Ideal) (ix3 n a b) = 0 := by
    rw [Read.val_main_v55_apply, Read.val_main_cst_10_apply]
    exact Ideal.ofBits_zero_f32
  rw [hs, sc3_apply, hz, zero_add]
  refine Finset.sum_congr rfl fun e _ => ?_
  rw [v56_at, Read.val_main_v54_apply, v51_at, v53_at, Ideal.mulf_def]

/-- The aggregate merged back to 128 lanes, at (n, q): lane q is head q / 16, lane-in-head q % 16, and 16 (q / 16) + q % 16
    is q. -/
private theorem v58_at (n : Fin 50000) (q : Fin 128) :
    Read.val_main_v58 (F := Ideal) x0 x1 x2 x3 x4 x5 (ix2 n q) = agg x0 x1 x2 x3 x4 x5 n q := by
  have hn := n.isLt
  have hq := q.isLt
  have h1 : q.val / 16 < 8 := by omega
  have h2 : q.val % 16 < 16 := by omega
  have hi : Read.idx_main_v58 (ix2 n q) = ix3 n ⟨q.val / 16, h1⟩ ⟨q.val % 16, h2⟩ := by
    funext c
    refine Fin.ext ?_
    match c with
    | ⟨0, _⟩ => show (n.val * 128 + q.val) / 128 = n.val; omega
    | ⟨1, _⟩ => show (n.val * 128 + q.val) / 16 % 8 = q.val / 16; omega
    | ⟨2, _⟩ => show (n.val * 128 + q.val) % 16 = q.val % 16; omega
  have hl : ∀ h3 : 16 * (q.val / 16) + q.val % 16 < 128, (⟨16 * (q.val / 16) + q.val % 16, h3⟩ : Fin 128) = q :=
    fun h3 => Fin.ext (by show 16 * (q.val / 16) + q.val % 16 = q.val; omega)
  rw [Read.val_main_v58_apply, hi, v57_at]
  unfold agg gated
  refine Finset.sum_congr rfl fun e _ => ?_
  rw [hl]

end Stages

theorem ref_proj (x0 : Mat 50000 128) (x1 : Mat 50000 16) (x2 : (⟨2, ![2, 800000]⟩ : Shape).Idx → BitVec 32) (x3 : Mat 800000 16)
    (x4 : Mat 256 304) (x5 : Mat 8 256) (x6 : Mat 128 128) (n : Fin 50000) (p : Fin 128) :
    Cert.ReferenceIdeal.Read.val_main_v60 (F := Ideal) x0 x1 x2 x3 x4 x5 x6 (ix2 n p) = proj x0 x1 x2 x3 x4 x5 x6 n p := by
  have hl : ∀ q : Fin 128, Read.lidx_main_v60 (ix2 n p) q = ix2 n q := fun q =>
    funext fun c => Fin.ext (by match c with | ⟨0, _⟩ => rfl | ⟨1, _⟩ => rfl)
  have hr : ∀ q : Fin 128, Read.idx_main_v59 (Read.ridx_main_v60 (ix2 n p) q) = ix2 p q := fun q =>
    funext fun c => Fin.ext (by match c with | ⟨0, _⟩ => rfl | ⟨1, _⟩ => rfl)
  rw [Read.val_main_v60_apply]
  unfold proj
  refine Finset.sum_congr rfl fun q _ => ?_
  rw [hl, v58_at, Read.val_main_v59_apply, hr]

end Cert.ReferenceIdeal.RefVal

end
-- ==== Proof.lean ====
/-
  The proof of `Cert.Claim`.

  Both programs compute, for every edge, a gate per head from the rows of h and xs at the edge's two endpoints and the
  edge's own features (one hidden layer with a relu, then a logistic), multiply the source row lane by lane by the gate
  of the lane's head, add the products up at the edge's target node, and multiply the sums by the transposed output
  weight (`Cert.Spec`). The kernel program gathers the rows on the host with a range test, splits the first product
  into five partial products over the pieces of the concatenated row, picks a lane's head by a 0/1 matrix product, and
  runs the two products in two kernel regions over tiles of 2000 rows; the reference concatenates, multiplies once, and
  splits the lanes into heads by a reshape. On the extended reals a change of format is the identity, a sum over a
  concatenated axis is the sum of the sums over its pieces, and a sum against a 0/1 row with one 1 is one entry, so the
  two are one function of the arguments once every index word names a row (the added precondition: every word of the
  edge array in [-50000, 50000), outside of which the reference itself indexes out of range): then the kernel
  program's range test passes on every edge and its gathered rows are the reference's.

  The frames of the two kernel programs are the generated ones; the reference's is its generated run with the results
  dropped. The idealization rewrote nothing, so `preserves` is `True`.
-/
import proofs.«411225_j5987184410675_1_alg».proof.Defs
import proofs.«411225_j5987184410675_1_alg».proof.Proof.Gen.Kernel
import proofs.«411225_j5987184410675_1_alg».proof.Proof.Gen.Kernel.Skeleton
import proofs.«411225_j5987184410675_1_alg».proof.Proof.Gen.Kernel.Launch
import proofs.«411225_j5987184410675_1_alg».proof.Proof.Gen.Kernel.Points
import proofs.«411225_j5987184410675_1_alg».proof.Proof.Gen.Kernel.Frame
import proofs.«411225_j5987184410675_1_alg».proof.Proof.Gen.KernelIdeal
import proofs.«411225_j5987184410675_1_alg».proof.Proof.Gen.KernelIdeal.Skeleton
import proofs.«411225_j5987184410675_1_alg».proof.Proof.Gen.KernelIdeal.Launch
import proofs.«411225_j5987184410675_1_alg».proof.Proof.Gen.KernelIdeal.Points
import proofs.«411225_j5987184410675_1_alg».proof.Proof.Gen.KernelIdeal.Frame
import proofs.«411225_j5987184410675_1_alg».proof.Proof.Gen.ReferenceIdeal
import proofs.«411225_j5987184410675_1_alg».proof.Proof.Gen.ReferenceIdeal.Run
import proofs.«411225_j5987184410675_1_alg».proof.Proof.Gen.ReferenceIdeal.Read
import proofs.«411225_j5987184410675_1_alg».proof.Proof.Gen.Pre_finite_inputs
import proofs.«411225_j5987184410675_1_alg».proof.Proof.Spec
import proofs.«411225_j5987184410675_1_alg».proof.Proof.Args
import proofs.«411225_j5987184410675_1_alg».proof.Proof.KRun
import proofs.«411225_j5987184410675_1_alg».proof.Proof.KVal
import proofs.«411225_j5987184410675_1_alg».proof.Proof.PreDecode
import proofs.«411225_j5987184410675_1_alg».proof.Proof.RefGate
import proofs.«411225_j5987184410675_1_alg».proof.Proof.RefProj
import Idealize.ShloMosaic.Adequacy
import Idealize.ShloMosaic.Init

noncomputable section

namespace Cert.Proof

open Idealize.ShloMosaic Idealize.ShloMosaic.ValueIdx Idealize.SL.Sem Cert.Spec

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the arguments, the two idealized programs end with the same two arrays: `proj` and
    `gate` of the arguments. -/
theorem algebraic : Cert.algebraic_KernelIdeal_ReferenceIdeal := by
  intro m ρ m' ρ' hpre hagree
  refine ⟨fun c => G0 (Cert.KernelIdeal.Val.A0 m c) (Cert.KernelIdeal.Val.A1 m c) (Cert.KernelIdeal.Val.A2 m c)
      (Cert.KernelIdeal.Val.A3 m c) (Cert.KernelIdeal.Val.A4 m c) (Cert.KernelIdeal.Val.A5 m c) (Cert.KernelIdeal.Val.A6 m c),
    fun c => G1 (Cert.KernelIdeal.Val.A0 m c) (Cert.KernelIdeal.Val.A1 m c) (Cert.KernelIdeal.Val.A2 m c)
      (Cert.KernelIdeal.Val.A3 m c) (Cert.KernelIdeal.Val.A4 m c) (Cert.KernelIdeal.Val.A5 m c), ?_, ?_⟩
  · refine (θ_run Cert.KernelIdeal.defs _ _).mono (fun r h c => ?_) (Cert.KernelIdeal.KRun.run (F := Ideal) m ρ)
    obtain ⟨h0, h1, hargs⟩ := h c
    have hin := Cert.KernelIdeal.Val.inRange_of_pre m c hpre
    exact ⟨h0.trans (Cert.KernelIdeal.Val.res0 m ρ c hin), h1.trans (Cert.KernelIdeal.Val.res1 m ρ c hin), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6⟩ := hagree c
    refine ⟨h0.trans ?_, h1.trans ?_, hargs⟩
    · rw [Cert.ReferenceIdeal.Read.val_main_v60_eq, e0, e1, e2, e3, e4, e5, e6]
      funext i
      obtain ⟨n, p, rfl⟩ : ∃ (n : Fin 50000) (p : Fin 128), i = ix2 n p := ⟨i 0, i 1, eq_ix2 i⟩
      exact Cert.ReferenceIdeal.RefVal.ref_proj _ _ _ _ _ _ _ n p
    · rw [Cert.ReferenceIdeal.Read.val_main_v43_eq, e0, e1, e2, e3, e4, e5]
      funext i
      obtain ⟨e, k, rfl⟩ : ∃ (e : Fin 800000) (k : Fin 8), i = ix2 e k := ⟨i 0, i 1, eq_ix2 i⟩
      exact Cert.ReferenceIdeal.RefVal.ref_gate _ _ _ _ _ _ e k

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
